-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_arg12 : FVec F S40 .f32) (main_v48 : IVec S_ 1) (main_v49 : FVec F S40x128 .f32) (main_v50 : FVec F S40x128 .f32) : IVec S_ 1 :=
  let main_v51 : IVec S40x128 1 := cmpf .olt main_v49 main_v50
  let main_c_19 : IVec S_ 1 := constantI S_ 1 1#1
  let main_v52 : IVec S_ 1 := (fun x v => Host.reduce IntOp.andi x v reducesTo_S40x128_S_d0_1 h_S_) main_v51 main_c_19
  let main_v53 : IVec S_ 1 := andi main_v48 main_v52
  let main_v54 : FVec F S40 .f32 := Host.absf main_arg12
  let main_cst_20 : FVec F S_ .f32 := constant S_ .f32 0x7F800000#32
  let main_v55 : FVec F S40 .f32 := broadcastInDim S40 ![] bcast_S_S40 main_cst_20
  let main_v56 : IVec S40 1 := cmpf .olt main_v54 main_v55
  let main_c_21 : IVec S_ 1 := constantI S_ 1 1#1
  let main_v57 : IVec S_ 1 := (fun x v => Host.reduce IntOp.andi x v reducesTo_S40_S_d0 h_S_) main_v56 main_c_21
  let main_v58 : IVec S_ 1 := andi main_v53 main_v57
  main_v58

def fn_part2 {F : FTy → Type} [FloatOps F] (main_arg8 : FVec F S128x128 .f32) (main_arg9 : FVec F S128 .f32) (main_arg10 : FVec F S128x128 .f32) (main_arg11 : FVec F S40x128 .f32) (main_arg12 : FVec F S40 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S40x128 .f32 := Host.absf main_arg11
  let main_cst_18 : FVec F S_ .f32 := constant S_ .f32 0x7F800000#32
  let main_v50 : FVec F S40x128 .f32 := broadcastInDim S40x128 ![] bcast_S_S40x128 main_cst_18
  fn_part3 (F := F) main_arg12 main_v48 main_v49 main_v50

def fn_part1 {F : FTy → Type} [FloatOps F] (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S40x128 .f32) (main_arg12 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S40x128 .f32) (main_arg12 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S4000x128 : Shape := ⟨2, ![4000, 128]⟩
abbrev S4000x1 : Shape := ⟨2, ![4000, 1]⟩
abbrev S4000 : Shape := ⟨1, ![4000]⟩
abbrev S1x40 : Shape := ⟨2, ![1, 40]⟩
abbrev S100000x40 : Shape := ⟨2, ![100000, 40]⟩
abbrev S4000x40 : Shape := ⟨2, ![4000, 40]⟩

abbrev nBuf : Space → Nat
  | .hbm => 83
  | .vmem => 35
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S40x128, .f32⟩
  | .hbm, ⟨12, _⟩ => ⟨S40, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S128x128, .bf16⟩
  | .hbm, ⟨31, _⟩ => ⟨S128x128, .bf16⟩
  | .hbm, ⟨32, _⟩ => ⟨S128x128, .bf16⟩
  | .hbm, ⟨33, _⟩ => ⟨S128x128, .bf16⟩
  | .hbm, ⟨34, _⟩ => ⟨S128x128, .bf16⟩
  | .hbm, ⟨35, _⟩ => ⟨S128x128, .bf16⟩
  | .hbm, ⟨36, _⟩ => ⟨S40x128, .bf16⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x128, .f32⟩
  | .hbm, ⟨46, _⟩ => ⟨S_, .f32⟩
  | .hbm, ⟨47, _⟩ => ⟨S100000x128, .f32⟩
  | .hbm, ⟨48, _⟩ => ⟨S1600000x1, .i32⟩
  | .hbm, ⟨49, _⟩ => ⟨S100000x128, .f32⟩
  | .hbm, ⟨50, _⟩ => ⟨S1x128, .f32⟩
  | .hbm, ⟨51, _⟩ => ⟨S100000x128, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x128, .f32⟩
  | .hbm, ⟨76, _⟩ => ⟨S_, .f32⟩
  | .hbm, ⟨77, _⟩ => ⟨S100000x128, .f32⟩
  | .hbm, ⟨78, _⟩ => ⟨S1600000x1, .i32⟩
  | .hbm, ⟨79, _⟩ => ⟨S100000x128, .f32⟩
  | .hbm, ⟨80, _⟩ => ⟨S1x128, .f32⟩
  | .hbm, ⟨81, _⟩ => ⟨S1x40, .f32⟩
  | .hbm, ⟨82, _⟩ => ⟨S100000x40, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x128, .bf16⟩
  | .local _ .vmem, ⟨7, _⟩ => ⟨S1x128, .f32⟩
  | .local _ .vmem, ⟨8, _⟩ => ⟨S128x128, .bf16⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x1, .f32⟩
  | .local _ .vmem, ⟨16, _⟩ => ⟨S4000x1, .f32⟩
  | .local _ .vmem, ⟨17, _⟩ => ⟨S128x128, .bf16⟩
  | .local _ .vmem, ⟨18, _⟩ => ⟨S1x128, .f32⟩
  | .local _ .vmem, ⟨19, _⟩ => ⟨S128x128, .bf16⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S4000x128, .f32⟩
  | .local _ .vmem, ⟨25, _⟩ => ⟨S4000x128, .f32⟩
  | .local _ .vmem, ⟨26, _⟩ => ⟨S4000x1, .f32⟩
  | .local _ .vmem, ⟨27, _⟩ => ⟨S4000x1, .f32⟩
  | .local _ .vmem, ⟨28, _⟩ => ⟨S128x128, .bf16⟩
  | .local _ .vmem, ⟨29, _⟩ => ⟨S1x128, .f32⟩
  | .local _ .vmem, ⟨30, _⟩ => ⟨S128x128, .bf16⟩
  | .local _ .vmem, ⟨31, _⟩ => ⟨S40x128, .bf16⟩
  | .local _ .vmem, ⟨32, _⟩ => ⟨S1x40, .f32⟩
  | .local _ .vmem, ⟨33, _⟩ => ⟨S4000x40, .f32⟩
  | .local _ .vmem, ⟨34, _⟩ => ⟨S4000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c : Ref sig .tc := ⟨.hbm, 37, rfl⟩
abbrev main_v20 : Ref sig .tc := ⟨.hbm, 38, rfl⟩
abbrev main_v21 : Ref sig .tc := ⟨.hbm, 39, rfl⟩
abbrev main_c_3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_c_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_8 : Ref sig .tc := ⟨.hbm, 67, rfl⟩
abbrev main_v44 : Ref sig .tc := ⟨.hbm, 68, rfl⟩
abbrev main_v45 : Ref sig .tc := ⟨.hbm, 69, rfl⟩
abbrev main_c_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg8_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem8_0 : DmaSem sig := 33
abbrev cc2_sem8_1 : DmaSem sig := 34

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S40x128 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x40 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S4000x40 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bitsLt_bf16_f32 : FTy.bits .bf16 < FTy.bits .f32
  bcast_S_S100000x128 : S_.BroadcastsInDim S100000x128 (![] : Fin 0 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  reduces_S4000x128_S4000 : S4000x128.Reduces [1] S4000
  shapeCasts_S4000_S4000x1 : S4000.ShapeCasts S4000x1
  shapeCasts_S40_S1x40 : S40.ShapeCasts S1x40
  inb_S40x128_S40x128_0_0 : ∀ a, (![0, 0] : Fin 2 → Nat) a + S40x128.size a ≤ S40x128.size a
  h_S40x128 : 0 < S40x128.numel
  shapeCasts_S40x128_S40x128 : S40x128.ShapeCasts S40x128
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S4000x40 : S1x40.Broadcasts S4000x40
  reduces_S4000x40_S4000 : S4000x40.Reduces [1] S4000
  broadcasts_S4000x1_S4000x40 : S4000x1.Broadcasts S4000x40
  inb_S4000x40_S4000x40_0_0 : ∀ a, (![0, 0] : Fin 2 → Nat) a + S4000x40.size a ≤ S4000x40.size a
  h_S4000x40 : 0 < S4000x40.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_1_0_0_n_n_wf : DotDims.WF S4000x128 S128x128 S4000x128 [1] [1] [0] [0] [] []
  dot_S4000x128_S40x128_S4000x40_1_1_0_0_n_n_wf : DotDims.WF S4000x128 S40x128 S4000x40 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .f32 = 32 ∨ (Rect.block (s := S100000x128) S4000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .bf16 = 32 ∨ (Rect.block (s := S128x128) S128x128.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S40x128.size a ≤ S40x128.size a
  hwx2_6 : ∀ i : grid2.Coords, EltTy.bits .bf16 = 32 ∨ (Rect.block (s := S40x128) S40x128.size (cc2_transform_6 i) (hinb2_6 i)).WholeWords (EltTy.packing .bf16)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x40.size a ≤ S1x40.size a
  hwx2_7 : ∀ i : grid2.Coords, EltTy.bits .f32 = 32 ∨ (Rect.block (s := S1x40) S1x40.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S4000x40.size a ≤ S100000x40.size a
  hwx2_8 : ∀ i : grid2.Coords, EltTy.bits .f32 = 32 ∨ (Rect.block (s := S100000x40) S4000x40.size (cc2_transform_8 i) (hinb2_8 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_1_0_0_n_n : DotDims S4000x128 S128x128 S4000x128 where
  lhsContracting := [1]
  rhsContracting := [1]
  lhsNonContracting := [0]
  rhsNonContracting := [0]
  lhsBatch := []
  rhsBatch := []
  wf := dot_S4000x128_S128x128_S4000x128_1_1_0_0_n_n_wf
def dot_S4000x128_S40x128_S4000x40_1_1_0_0_n_n : DotDims S4000x128 S40x128 S4000x40 where
  lhsContracting := [1]
  rhsContracting := [1]
  lhsNonContracting := [0]
  rhsNonContracting := [0]
  lhsBatch := []
  rhsBatch := []
  wf := dot_S4000x128_S40x128_S4000x40_1_1_0_0_n_n_wf

abbrev win0_0 : Pipeline.Window sig grid0 :=
  Pipeline.Window.ofSpec (Memref.whole main_v29) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v31) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v41) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v53) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v17) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v18) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v19) S40x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v55) S1x40.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v56) S4000x40.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S128x40 : Shape := ⟨2, ![128, 40]⟩
abbrev S100000x40 : Shape := ⟨2, ![100000, 40]⟩
abbrev S1x40 : Shape := ⟨2, ![1, 40]⟩

abbrev nBuf : Space → Nat
  | .hbm => 171
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128x128, .f32⟩
  | 6 => ⟨S128, .f32⟩
  | 7 => ⟨S128x128, .f32⟩
  | 8 => ⟨S128x128, .f32⟩
  | 9 => ⟨S128, .f32⟩
  | 10 => ⟨S128x128, .f32⟩
  | 11 => ⟨S40x128, .f32⟩
  | 12 => ⟨S40, .f32⟩
  | 13 => ⟨S1x1600000, .i32⟩
  | 14 => ⟨S1600000, .i32⟩
  | 15 => ⟨S1x1600000, .i32⟩
  | 16 => ⟨S1600000, .i32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x128, .f32⟩
  | 26 => ⟨S_, .f32⟩
  | 27 => ⟨S100000x128, .f32⟩
  | 28 => ⟨S1600000x1, .i32⟩
  | 29 => ⟨S100000x128, .f32⟩
  | 30 => ⟨S_, .f32⟩
  | 31 => ⟨S1600000, .f32⟩
  | 32 => ⟨S_, .f32⟩
  | 33 => ⟨S100000, .f32⟩
  | 34 => ⟨S1600000x1, .i32⟩
  | 35 => ⟨S100000, .f32⟩
  | 36 => ⟨S_, .f32⟩
  | 37 => ⟨S100000, .f32⟩
  | 38 => ⟨S100000, .f32⟩
  | 39 => ⟨S100000x1, .f32⟩
  | 40 => ⟨S100000x128, .f32⟩
  | 41 => ⟨S100000x128, .f32⟩
  | 42 => ⟨S128x128, .f32⟩
  | 43 => ⟨S100000x128, .f32⟩
  | 44 => ⟨S1x128, .f32⟩
  | 45 => ⟨S100000x128, .f32⟩
  | 46 => ⟨S100000x128, .f32⟩
  | 47 => ⟨S128x128, .f32⟩
  | 48 => ⟨S100000x128, .f32⟩
  | 49 => ⟨S100000x128, .f32⟩
  | 50 => ⟨S100000x128, .f32⟩
  | 51 => ⟨S_, .f32⟩
  | 52 => ⟨S100000, .f32⟩
  | 53 => ⟨S100000x1, .f32⟩
  | 54 => ⟨S100000x1, .f32⟩
  | 55 => ⟨S_, .f32⟩
  | 56 => ⟨S100000x1, .f32⟩
  | 57 => ⟨S100000x1, .f32⟩
  | 58 => ⟨S100000x128, .f32⟩
  | 59 => ⟨S100000x128, .f32⟩
  | 60 => ⟨S_, .f32⟩
  | 61 => ⟨S100000x128, .f32⟩
  | 62 => ⟨S100000x128, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S1600000x128, .f32⟩
  | 72 => ⟨S_, .f32⟩
  | 73 => ⟨S100000x128, .f32⟩
  | 74 => ⟨S1600000x1, .i32⟩
  | 75 => ⟨S100000x128, .f32⟩
  | 76 => ⟨S_, .f32⟩
  | 77 => ⟨S1600000, .f32⟩
  | 78 => ⟨S_, .f32⟩
  | 79 => ⟨S100000, .f32⟩
  | 80 => ⟨S1600000x1, .i32⟩
  | 81 => ⟨S100000, .f32⟩
  | 82 => ⟨S_, .f32⟩
  | 83 => ⟨S100000, .f32⟩
  | 84 => ⟨S100000, .f32⟩
  | 85 => ⟨S100000x1, .f32⟩
  | 86 => ⟨S100000x128, .f32⟩
  | 87 => ⟨S100000x128, .f32⟩
  | 88 => ⟨S128x128, .f32⟩
  | 89 => ⟨S100000x128, .f32⟩
  | 90 => ⟨S1x128, .f32⟩
  | 91 => ⟨S100000x128, .f32⟩
  | 92 => ⟨S100000x128, .f32⟩
  | 93 => ⟨S128x128, .f32⟩
  | 94 => ⟨S100000x128, .f32⟩
  | 95 => ⟨S100000x128, .f32⟩
  | 96 => ⟨S100000x128, .f32⟩
  | 97 => ⟨S_, .f32⟩
  | 98 => ⟨S100000, .f32⟩
  | 99 => ⟨S100000x1, .f32⟩
  | 100 => ⟨S100000x1, .f32⟩
  | 101 => ⟨S_, .f32⟩
  | 102 => ⟨S100000x1, .f32⟩
  | 103 => ⟨S100000x1, .f32⟩
  | 104 => ⟨S100000x128, .f32⟩
  | 105 => ⟨S100000x128, .f32⟩
  | 106 => ⟨S_, .f32⟩
  | 107 => ⟨S100000x128, .f32⟩
  | 108 => ⟨S100000x128, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000x128, .f32⟩
  | 118 => ⟨S_, .f32⟩
  | 119 => ⟨S100000x128, .f32⟩
  | 120 => ⟨S1600000x1, .i32⟩
  | 121 => ⟨S100000x128, .f32⟩
  | 122 => ⟨S_, .f32⟩
  | 123 => ⟨S1600000, .f32⟩
  | 124 => ⟨S_, .f32⟩
  | 125 => ⟨S100000, .f32⟩
  | 126 => ⟨S1600000x1, .i32⟩
  | 127 => ⟨S100000, .f32⟩
  | _ => ⟨S100000x128, .f32⟩

abbrev hbmTy0_1 (i : Nat) : BufTy := match i % 128 with
  | 0 => ⟨S_, .f32⟩
  | 1 => ⟨S100000, .f32⟩
  | 2 => ⟨S100000, .f32⟩
  | 3 => ⟨S100000x1, .f32⟩
  | 4 => ⟨S100000x128, .f32⟩
  | 5 => ⟨S100000x128, .f32⟩
  | 6 => ⟨S128x128, .f32⟩
  | 7 => ⟨S100000x128, .f32⟩
  | 8 => ⟨S1x128, .f32⟩
  | 9 => ⟨S100000x128, .f32⟩
  | 10 => ⟨S100000x128, .f32⟩
  | 11 => ⟨S128x128, .f32⟩
  | 12 => ⟨S100000x128, .f32⟩
  | 13 => ⟨S100000x128, .f32⟩
  | 14 => ⟨S100000x128, .f32⟩
  | 15 => ⟨S_, .f32⟩
  | 16 => ⟨S100000, .f32⟩
  | 17 => ⟨S100000x1, .f32⟩
  | 18 => ⟨S100000x1, .f32⟩
  | 19 => ⟨S_, .f32⟩
  | 20 => ⟨S100000x1, .f32⟩
  | 21 => ⟨S100000x1, .f32⟩
  | 22 => ⟨S100000x128, .f32⟩
  | 23 => ⟨S100000x128, .f32⟩
  | 24 => ⟨S128x40, .f32⟩
  | 25 => ⟨S100000x40, .f32⟩
  | 26 => ⟨S1x40, .f32⟩
  | 27 => ⟨S100000x40, .f32⟩
  | 28 => ⟨S100000x40, .f32⟩
  | 29 => ⟨S_, .f32⟩
  | 30 => ⟨S100000, .f32⟩
  | 31 => ⟨S_, .f32⟩
  | 32 => ⟨S100000, .f32⟩
  | 33 => ⟨S100000, .f32⟩
  | 34 => ⟨S100000x1, .f32⟩
  | 35 => ⟨S100000x40, .f32⟩
  | 36 => ⟨S100000x40, .f32⟩
  | 37 => ⟨S100000x40, .f32⟩
  | 38 => ⟨S_, .f32⟩
  | 39 => ⟨S100000, .f32⟩
  | 40 => ⟨S100000x1, .f32⟩
  | 41 => ⟨S100000x40, .f32⟩
  | 42 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call0_v0 : Ref sig .tc := ⟨.hbm, 50, rfl⟩
abbrev main_call0_cst : Ref sig .tc := ⟨.hbm, 51, rfl⟩
abbrev main_call0_v1 : Ref sig .tc := ⟨.hbm, 52, rfl⟩
abbrev main_call0_v2 : Ref sig .tc := ⟨.hbm, 53, rfl⟩
abbrev main_v31 : Ref sig .tc := ⟨.hbm, 54, rfl⟩
abbrev main_cst_4 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_call1_cst : Ref sig .tc := ⟨.hbm, 60, rfl⟩
abbrev main_call1_v0 : Ref sig .tc := ⟨.hbm, 61, rfl⟩
abbrev main_v36 : Ref sig .tc := ⟨.hbm, 62, rfl⟩
abbrev main_c_5 : Ref sig .tc := ⟨.hbm, 63, rfl⟩
abbrev main_v37 : Ref sig .tc := ⟨.hbm, 64, rfl⟩
abbrev main_v38 : Ref sig .tc := ⟨.hbm, 65, rfl⟩
abbrev main_c_6 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_7 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_8 : Ref sig .tc := ⟨.hbm, 76, rfl⟩
abbrev main_v47 : Ref sig .tc := ⟨.hbm, 77, rfl⟩
abbrev main_cst_9 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_10 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_call2_v0 : Ref sig .tc := ⟨.hbm, 96, rfl⟩
abbrev main_call2_cst : Ref sig .tc := ⟨.hbm, 97, rfl⟩
abbrev main_call2_v1 : Ref sig .tc := ⟨.hbm, 98, rfl⟩
abbrev main_call2_v2 : Ref sig .tc := ⟨.hbm, 99, rfl⟩
abbrev main_v64 : Ref sig .tc := ⟨.hbm, 100, rfl⟩
abbrev main_cst_11 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_call3_cst : Ref sig .tc := ⟨.hbm, 106, rfl⟩
abbrev main_call3_v0 : Ref sig .tc := ⟨.hbm, 107, rfl⟩
abbrev main_v69 : Ref sig .tc := ⟨.hbm, 108, rfl⟩
abbrev main_c_12 : Ref sig .tc := ⟨.hbm, 109, rfl⟩
abbrev main_v70 : Ref sig .tc := ⟨.hbm, 110, rfl⟩
abbrev main_v71 : Ref sig .tc := ⟨.hbm, 111, rfl⟩
abbrev main_c_13 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_cst_14 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_cst_15 : Ref sig .tc := ⟨.hbm, 122, rfl⟩
abbrev main_v80 : Ref sig .tc := ⟨.hbm, 123, rfl⟩
abbrev main_cst_16 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_cst_17 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_call4_v0 : Ref sig .tc := ⟨.hbm, 142, rfl⟩
abbrev main_call4_cst : Ref sig .tc := ⟨.hbm, 143, rfl⟩
abbrev main_call4_v1 : Ref sig .tc := ⟨.hbm, 144, rfl⟩
abbrev main_call4_v2 : Ref sig .tc := ⟨.hbm, 145, rfl⟩
abbrev main_v97 : Ref sig .tc := ⟨.hbm, 146, rfl⟩
abbrev main_cst_18 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_cst_19 : Ref sig .tc := ⟨.hbm, 157, rfl⟩
abbrev main_v107 : Ref sig .tc := ⟨.hbm, 158, rfl⟩
abbrev main_cst_20 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_cst_21 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  transposes_S40x128_S128x40_1_0 : S40x128.Transposes [1, 0] S128x40
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  bcast_S100000x1_S100000x40_0_1 : S100000x1.BroadcastsInDim S100000x40 (![0, 1] : Fin 2 → Fin S100000x40.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.LibHostLine.lean ====
/- A straight line of host operations run against a list of known buffer contents.

   `Sat V L`: the valuation `V` holds every buffer listed in `L` at the contents listed beside it. Each builder of
   Lib/StableHlo.lean has a step lemma here: when `L` lists the operation's operands, and no listed buffer is the
   operation's result buffer, the valuation after the operation satisfies `L` extended by the result buffer at the
   operation's function of the operands' listed contents. Running the steps down a literal list of operations
   (`StableHlo.after`) therefore never composes the functions: every listed value is a name, and each step checks
   one defining equation. The goals have the shape `∀ V, Sat V L → Sat (after ops V) Lout`; a step lemma peels the
   first operation of `ops`, and `done` closes the empty line by picking `Lout` out of `L` by position. -/
import Idealize.ShloMosaic.Lib.StableHlo.Run
import Idealize.ShloMosaic.Lib.Pipeline.Frame

namespace HostLine

open Idealize.ShloMosaic Idealize.ShloMosaic.StableHlo Idealize.SL.Sem

variable {τ : Topo} {sig : RefSig} {Val : EltTy → Type}

/-- A TensorCore buffer together with contents of its type. -/
abbrev Fact (sig : RefSig) (Val : EltTy → Type) : Type := (b : Ref sig .tc) × b.ty.Contents Val

/-- The valuation holds every listed buffer at its listed contents. -/
def Sat (V : Valuation τ sig Val) (L : List (Fact sig Val)) : Prop :=
  ∀ p ∈ L, V (Proc.devRef (τ := τ) .tc p.1) = p.2

theorem Sat.nil (V : Valuation τ sig Val) : Sat V [] := fun _ hp => nomatch hp

theorem Sat.cons {V : Valuation τ sig Val} {L : List (Fact sig Val)} {b : Ref sig .tc} {v : b.ty.Contents Val}
    (hb : V (Proc.devRef (τ := τ) .tc b) = v) (h : Sat V L) : Sat V (⟨b, v⟩ :: L) := by
  intro p hp
  rcases List.mem_cons.1 hp with rfl | hp
  · exact hb
  · exact h p hp

/-- Reading a listed buffer by its position in the list. -/
theorem Sat.get {V : Valuation τ sig Val} {L : List (Fact sig Val)} (h : Sat V L) (i : Nat) {b : Ref sig .tc}
    {v : b.ty.Contents Val} (hi : L[i]? = some ⟨b, v⟩) : V (Proc.devRef (τ := τ) .tc b) = v :=
  h ⟨b, v⟩ (List.mem_of_getElem? hi)

/-- The empty line: what is asked for is picked out of what is known, by position. -/
theorem done {L Lout : List (Fact sig Val)} (idx : List Nat) (h : idx.filterMap (fun i => L[i]?) = Lout) :
    ∀ V : Valuation τ sig Val, Sat V L → Sat (after [] V) Lout := by
  intro V hV p hp
  subst h
  obtain ⟨i, _, hi⟩ := List.mem_filterMap.1 hp
  exact hV p (List.mem_of_getElem? hi)

/-- One operation, whatever its builder: its result buffer `y` is new to the list, it leaves `y` at `vy` from any
    valuation that satisfies the list, and it leaves every other TensorCore buffer alone. -/
theorem step {op : HloOp τ sig Val} {y : Ref sig .tc} {L Lout : List (Fact sig Val)} {rest : List (HloOp τ sig Val)}
    (vy : y.ty.Contents Val)
    (hres : ∀ V : Valuation τ sig Val, Sat V L → op.result V (Proc.devRef .tc y) = vy)
    (hne : ∀ (V : Valuation τ sig Val) (r : Ref sig .tc), r ≠ y → op.result V (Proc.devRef .tc r) = V (Proc.devRef .tc r))
    (hfr : (L.all fun p => decide (p.1 ≠ y)) = true)
    (k : ∀ V : Valuation τ sig Val, Sat V (⟨y, vy⟩ :: L) → Sat (after rest V) Lout) :
    ∀ V : Valuation τ sig Val, Sat V L → Sat (after (op :: rest) V) Lout := by
  intro V h
  rw [after_cons]
  refine k _ (Sat.cons (hres V h) ?_)
  intro p hp
  rw [hne V p.1 (of_decide_eq_true (List.all_eq_true.1 hfr p hp))]
  exact h p hp

section Builders

variable {L Lout : List (Fact sig Val)} {rest : List (HloOp τ sig Val)}

theorem step_nullary {y : Ref sig .tc} {v : y.ty.Contents Val} {hy}
    (vy : y.ty.Contents Val) (hv : vy = v) (hfr : (L.all fun p => decide (p.1 ≠ y)) = true)
    (k : ∀ V : Valuation τ sig Val, Sat V (⟨y, vy⟩ :: L) → Sat (after rest V) Lout) :
    ∀ V : Valuation τ sig Val, Sat V L → Sat (after (nullary y v hy :: rest) V) Lout :=
  step vy (fun V _ => (nullary_result y v hy V).trans hv.symm) (fun V _ hr => nullary_result_ne y v hy V hr) hfr k

theorem step_unary {x y : Ref sig .tc} {f : x.ty.Contents Val → y.ty.Contents Val} {hx hy}
    (i : Nat) (vx : x.ty.Contents Val) (vy : y.ty.Contents Val) (hi : L[i]? = some ⟨x, vx⟩) (hv : vy = f vx)
    (hfr : (L.all fun p => decide (p.1 ≠ y)) = true)
    (k : ∀ V : Valuation τ sig Val, Sat V (⟨y, vy⟩ :: L) → Sat (after rest V) Lout) :
    ∀ V : Valuation τ sig Val, Sat V L → Sat (after (unary x y f hx hy :: rest) V) Lout :=
  step vy (fun V h => by rw [unary_result, h.get i hi, hv]) (fun V _ hr => unary_result_ne x y f hx hy V hr) hfr k

theorem step_binary {a b y : Ref sig .tc} {f : a.ty.Contents Val → b.ty.Contents Val → y.ty.Contents Val} {ha hb hy}
    (i j : Nat) (va : a.ty.Contents Val) (vb : b.ty.Contents Val) (vy : y.ty.Contents Val)
    (hi : L[i]? = some ⟨a, va⟩) (hj : L[j]? = some ⟨b, vb⟩) (hv : vy = f va vb)
    (hfr : (L.all fun p => decide (p.1 ≠ y)) = true)
    (k : ∀ V : Valuation τ sig Val, Sat V (⟨y, vy⟩ :: L) → Sat (after rest V) Lout) :
    ∀ V : Valuation τ sig Val, Sat V L → Sat (after (binary a b y f ha hb hy :: rest) V) Lout :=
  step vy (fun V h => by rw [binary_result, h.get i hi, h.get j hj, hv])
    (fun V _ hr => binary_result_ne a b y f ha hb hy V hr) hfr k

theorem step_reshape {x y : Ref sig .tc} {he : x.ty.elt = y.ty.elt} {hn : x.ty.shape.ShapeCasts y.ty.shape} {hx hy}
    (i : Nat) (vx : x.ty.Contents Val) (vy : y.ty.Contents Val) (hi : L[i]? = some ⟨x, vx⟩)
    (hv : vy = fun i => he ▸ shapeCast y.ty.shape vx hn i)
    (hfr : (L.all fun p => decide (p.1 ≠ y)) = true)
    (k : ∀ V : Valuation τ sig Val, Sat V (⟨y, vy⟩ :: L) → Sat (after rest V) Lout) :
    ∀ V : Valuation τ sig Val, Sat V L → Sat (after (reshape x y he hn hx hy :: rest) V) Lout :=
  step vy (fun V h => by rw [reshape_result, h.get i hi, hv])
    (fun V _ hr => reshape_result_ne x y he hn hx hy V hr) hfr k

/-- An operation of any number of operands: its value is read under an arbitrary valuation that satisfies the list. -/
theorem step_nary {n : Nat} {xs : Fin n → Ref sig .tc} {y : Ref sig .tc}
    {f : ((k : Fin n) → (xs k).ty.Contents Val) → y.ty.Contents Val} {hxs hy}
    (vy : y.ty.Contents Val)
    (hv : ∀ V : Valuation τ sig Val, Sat V L → f (fun k => V (Proc.devRef .tc (xs k))) = vy)
    (hfr : (L.all fun p => decide (p.1 ≠ y)) = true)
    (k : ∀ V : Valuation τ sig Val, Sat V (⟨y, vy⟩ :: L) → Sat (after rest V) Lout) :
    ∀ V : Valuation τ sig Val, Sat V L → Sat (after (nary xs y f hxs hy :: rest) V) Lout :=
  step vy (fun V h => (nary_result xs y f hxs hy V).trans (hv V h))
    (fun V _ hr => nary_result_ne (y := y) xs f hxs hy V hr) hfr k

end Builders

end HostLine
-- ==== Proof.LibHostLine3.lean ====
/- Steps of a host line (LibHostLine.lean) for the builders that file has no step for: an operation of three operands
   (`ternary`: a select, a scatter-add), and the typed-reference forms (`TRef.nullary`, `TRef.unary`, `TRef.binary`,
   `TRef.ternary`) in which a module-local function's body is stated, and which a call of that function therefore leaves
   in its caller's line once the body is unfolded at the call site; and the join of two stretches of a line (`line_append`).

   A typed reference `x : TRef sig T` carries its buffer `x.ref` and the equation `x.ty_eq : x.ref.ty = T`; its operation
   reads and writes the buffers through the transports `x.ofBuf` / `x.toBuf` along that equation. The steps below state
   the listed contents of an operand as `x.toBuf vx` for a `vx` at the value's own type `T`, and the result as
   `y.toBuf (f vx)`: the two transports of an operand cancel (`ofBuf_toBuf`), whatever the equation is. At a literal
   reference, whose equation is `rfl`, `x.toBuf vx` is `vx` by computation, so a use site lists plain contents. -/
import proofs.«401475_j31396210934180_3_alg».proof.Proof.LibHostLine

namespace HostLine

open Idealize.ShloMosaic Idealize.ShloMosaic.StableHlo Idealize.SL.Sem

variable {τ : Topo} {sig : RefSig} {Val : EltTy → Type}

/-- Transporting contents to a typed reference's buffer type and back is the identity. -/
theorem ofBuf_toBuf {T : BufTy} (x : TRef sig T) (v : T.Contents Val) : x.ofBuf (x.toBuf v) = v := by
  obtain ⟨ref, ty_eq, on_device, unscoped⟩ := x
  subst ty_eq
  rfl

/-- Two stretches in a row: what the first ends holding is what the second starts from. -/
theorem line_append {l₁ l₂ : List (HloOp τ sig Val)} {L M N : List (Fact sig Val)}
    (h₁ : ∀ V : Valuation τ sig Val, Sat V L → Sat (after l₁ V) M)
    (h₂ : ∀ V : Valuation τ sig Val, Sat V M → Sat (after l₂ V) N) :
    ∀ V : Valuation τ sig Val, Sat V L → Sat (after (l₁ ++ l₂) V) N := fun V h => by
  rw [StableHlo.after_append]
  exact h₂ _ (h₁ V h)

section Builders

variable {L Lout : List (Fact sig Val)} {rest : List (HloOp τ sig Val)}

/-- An operation of three operands: the list holds each operand (by position), the result buffer is new to the list,
    and the listed result is the operation's function of the three listed contents. -/
theorem step_ternary {c a b y : Ref sig .tc}
    {f : c.ty.Contents Val → a.ty.Contents Val → b.ty.Contents Val → y.ty.Contents Val} {hc ha hb hy}
    (i j l : Nat) (vc : c.ty.Contents Val) (va : a.ty.Contents Val) (vb : b.ty.Contents Val) (vy : y.ty.Contents Val)
    (hi : L[i]? = some ⟨c, vc⟩) (hj : L[j]? = some ⟨a, va⟩) (hl : L[l]? = some ⟨b, vb⟩) (hv : vy = f vc va vb)
    (hfr : (L.all fun p => decide (p.1 ≠ y)) = true)
    (k : ∀ V : Valuation τ sig Val, Sat V (⟨y, vy⟩ :: L) → Sat (after rest V) Lout) :
    ∀ V : Valuation τ sig Val, Sat V L → Sat (after (ternary c a b y f hc ha hb hy :: rest) V) Lout :=
  step vy (fun V h => by rw [ternary_result, h.get i hi, h.get j hj, h.get l hl, hv])
    (fun V _ hr => ternary_result_ne (a := a) (b := b) (c := c) (y := y) f hc ha hb hy V hr) hfr k

variable {Tx Ta Tb Tc Ty : BufTy}

/-- A typed-reference operation of no operand. -/
theorem step_tnullary {y : TRef sig Ty} {v : Ty.Contents Val}
    (vy : y.ref.ty.Contents Val) (hv : vy = y.toBuf v) (hfr : (L.all fun p => decide (p.1 ≠ y.ref)) = true)
    (k : ∀ V : Valuation τ sig Val, Sat V (⟨y.ref, vy⟩ :: L) → Sat (after rest V) Lout) :
    ∀ V : Valuation τ sig Val, Sat V L → Sat (after (TRef.nullary y v :: rest) V) Lout :=
  step_nullary vy hv hfr k

/-- A typed-reference operation of one operand. -/
theorem step_tunary {x : TRef sig Tx} {y : TRef sig Ty} {f : Tx.Contents Val → Ty.Contents Val}
    (i : Nat) (vx : Tx.Contents Val) (vy : y.ref.ty.Contents Val) (hi : L[i]? = some ⟨x.ref, x.toBuf vx⟩)
    (hv : vy = y.toBuf (f vx)) (hfr : (L.all fun p => decide (p.1 ≠ y.ref)) = true)
    (k : ∀ V : Valuation τ sig Val, Sat V (⟨y.ref, vy⟩ :: L) → Sat (after rest V) Lout) :
    ∀ V : Valuation τ sig Val, Sat V L → Sat (after (TRef.unary x y f :: rest) V) Lout :=
  step_unary i (x.toBuf vx) vy hi
    (hv.trans (congrArg (fun t => y.toBuf (f t)) (ofBuf_toBuf x vx).symm)) hfr k

/-- A typed-reference operation of two operands. -/
theorem step_tbinary {a : TRef sig Ta} {b : TRef sig Tb} {y : TRef sig Ty}
    {f : Ta.Contents Val → Tb.Contents Val → Ty.Contents Val}
    (i j : Nat) (va : Ta.Contents Val) (vb : Tb.Contents Val) (vy : y.ref.ty.Contents Val)
    (hi : L[i]? = some ⟨a.ref, a.toBuf va⟩) (hj : L[j]? = some ⟨b.ref, b.toBuf vb⟩)
    (hv : vy = y.toBuf (f va vb)) (hfr : (L.all fun p => decide (p.1 ≠ y.ref)) = true)
    (k : ∀ V : Valuation τ sig Val, Sat V (⟨y.ref, vy⟩ :: L) → Sat (after rest V) Lout) :
    ∀ V : Valuation τ sig Val, Sat V L → Sat (after (TRef.binary a b y f :: rest) V) Lout :=
  step_binary i j (a.toBuf va) (b.toBuf vb) vy hi hj
    (hv.trans (congrArg₂ (fun s t => y.toBuf (f s t)) (ofBuf_toBuf a va).symm (ofBuf_toBuf b vb).symm)) hfr k

/-- A typed-reference operation of three operands (a module-local `select`). -/
theorem step_tternary {c : TRef sig Tc} {a : TRef sig Ta} {b : TRef sig Tb} {y : TRef sig Ty}
    {f : Tc.Contents Val → Ta.Contents Val → Tb.Contents Val → Ty.Contents Val}
    (i j l : Nat) (vc : Tc.Contents Val) (va : Ta.Contents Val) (vb : Tb.Contents Val) (vy : y.ref.ty.Contents Val)
    (hi : L[i]? = some ⟨c.ref, c.toBuf vc⟩) (hj : L[j]? = some ⟨a.ref, a.toBuf va⟩)
    (hl : L[l]? = some ⟨b.ref, b.toBuf vb⟩)
    (hv : vy = y.toBuf (f vc va vb)) (hfr : (L.all fun p => decide (p.1 ≠ y.ref)) = true)
    (k : ∀ V : Valuation τ sig Val, Sat V (⟨y.ref, vy⟩ :: L) → Sat (after rest V) Lout) :
    ∀ V : Valuation τ sig Val, Sat V L → Sat (after (TRef.ternary c a b y f :: rest) V) Lout :=
  step_ternary i j l (c.toBuf vc) (a.toBuf va) (b.toBuf vb) vy hi hj hl
    (by rw [hv, ofBuf_toBuf, ofBuf_toBuf, ofBuf_toBuf]) hfr k

end Builders

end HostLine
-- ==== Proof.RefLine.lean ====
/-
  The reference's @main, run one operation at a time against a list of known buffers. At launch the thirteen argument
  buffers are known at their launch contents; each of the 158 operations reads operands that are already in the list
  and adds its result buffer at its stage function of the arguments (the stage's definition IS the operation applied to
  its operands' stages, so each step is one defining equation); at the end the result buffer holds the last stage and
  the arguments are as launched. The numbers are positions in the list of known buffers, newest first.
-/
import proofs.«401475_j31396210934180_3_alg».proof.Proof.RefOps
import proofs.«401475_j31396210934180_3_alg».proof.Proof.RefStages
import proofs.«401475_j31396210934180_3_alg».proof.Proof.LibHostLine3

set_option maxRecDepth 16384

noncomputable section

namespace Cert.ReferenceIdeal.Line

open Cert.ReferenceIdeal Cert.ReferenceIdeal.Gen Cert.ReferenceIdeal.Stages Idealize.ShloMosaic Idealize.ShloMosaic.StableHlo Idealize.SL.Sem HostLine

/-- What is known at launch: the thirteen arguments. -/
abbrev atLaunch (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S40x128, .f32⟩ : BufTy).Contents (Elt Ideal)) (x12 : (⟨S40, .f32⟩ : BufTy).Contents (Elt Ideal)) : List (Fact sig (Elt Ideal)) :=
  [⟨main_arg0, x0⟩, ⟨main_arg1, x1⟩, ⟨main_arg2, x2⟩, ⟨main_arg3, x3⟩, ⟨main_arg4, x4⟩, ⟨main_arg5, x5⟩, ⟨main_arg6, x6⟩, ⟨main_arg7, x7⟩, ⟨main_arg8, x8⟩, ⟨main_arg9, x9⟩, ⟨main_arg10, x10⟩, ⟨main_arg11, x11⟩, ⟨main_arg12, x12⟩]

/-- What is known at the end: the result at its last stage, the arguments unchanged. -/
abbrev atReturn (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S40x128, .f32⟩ : BufTy).Contents (Elt Ideal)) (x12 : (⟨S40, .f32⟩ : BufTy).Contents (Elt Ideal)) : List (Fact sig (Elt Ideal)) :=
  [⟨main_v117, val_main_v117 (F := Ideal) x0 x1 x2 x3 x4 x5 x6 x7 x8 x9 x10 x11 x12⟩, ⟨main_arg0, x0⟩, ⟨main_arg1, x1⟩, ⟨main_arg2, x2⟩, ⟨main_arg3, x3⟩, ⟨main_arg4, x4⟩, ⟨main_arg5, x5⟩, ⟨main_arg6, x6⟩, ⟨main_arg7, x7⟩, ⟨main_arg8, x8⟩, ⟨main_arg9, x9⟩, ⟨main_arg10, x10⟩, ⟨main_arg11, x11⟩, ⟨main_arg12, x12⟩]

set_option maxHeartbeats 4000000 in
theorem line (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S40x128, .f32⟩ : BufTy).Contents (Elt Ideal)) (x12 : (⟨S40, .f32⟩ : BufTy).Contents (Elt Ideal)) :
    ∀ V : Valuation τ sig (Elt Ideal), Sat V (atLaunch x0 x1 x2 x3 x4 x5 x6 x7 x8 x9 x10 x11 x12) → Sat (after (Ops.ops (F := Ideal)) V) (atReturn x0 x1 x2 x3 x4 x5 x6 x7 x8 x9 x10 x11 x12) :=
  step_unary 1 x1 (val_main_v0 (F := Ideal) x1) rfl rfl rfl <|
  step_reshape 0 (val_main_v0 (F := Ideal) x1) (val_main_v1 (F := Ideal) x1) rfl rfl rfl <|
  step_unary 3 x1 (val_main_v2 (F := Ideal) x1) rfl rfl rfl <|
  step_reshape 0 (val_main_v2 (F := Ideal) x1) (val_main_v3 (F := Ideal) x1) rfl rfl rfl <|
  step_nullary (val_main_c (F := Ideal)) rfl rfl <|
  step_unary 0 (val_main_c (F := Ideal)) (val_main_v4 (F := Ideal)) rfl rfl rfl <|
  step_binary 4 0 (val_main_v1 (F := Ideal) x1) (val_main_v4 (F := Ideal)) (val_main_v5 (F := Ideal) x1) rfl rfl rfl rfl <|
  step_nullary (val_main_c_0 (F := Ideal)) rfl rfl <|
  step_unary 0 (val_main_c_0 (F := Ideal)) (val_main_v6 (F := Ideal)) rfl rfl rfl <|
  step_binary 7 0 (val_main_v1 (F := Ideal) x1) (val_main_v6 (F := Ideal)) (val_main_v7 (F := Ideal) x1) rfl rfl rfl rfl <|
  step_ternary 3 0 8 (val_main_v5 (F := Ideal) x1) (val_main_v7 (F := Ideal) x1) (val_main_v1 (F := Ideal) x1) (val_main_v8 (F := Ideal) x1) rfl rfl rfl rfl rfl <|
  step_unary 0 (val_main_v8 (F := Ideal) x1) (val_main_v9 (F := Ideal) x1) rfl rfl rfl <|
  step_binary 12 0 x0 (val_main_v9 (F := Ideal) x1) (val_main_v10 (F := Ideal) x0 x1) rfl rfl rfl rfl <|
  step_nullary (val_main_cst (F := Ideal)) rfl rfl <|
  step_unary 0 (val_main_cst (F := Ideal)) (val_main_v11 (F := Ideal)) rfl rfl rfl <|
  step_unary 11 (val_main_v3 (F := Ideal) x1) (val_main_v12 (F := Ideal) x1) rfl rfl rfl <|
  step_ternary 1 0 3 (val_main_v11 (F := Ideal)) (val_main_v12 (F := Ideal) x1) (val_main_v10 (F := Ideal) x0 x1) (val_main_v13 (F := Ideal) x0 x1) rfl rfl rfl rfl rfl <|
  step_nullary (val_main_cst_1 (F := Ideal)) rfl rfl <|
  step_unary 0 (val_main_cst_1 (F := Ideal)) (val_main_v14 (F := Ideal)) rfl rfl rfl <|
  step_nullary (val_main_cst_2 (F := Ideal)) rfl rfl <|
  step_unary 0 (val_main_cst_2 (F := Ideal)) (val_main_v15 (F := Ideal)) rfl rfl rfl <|
  step_unary 17 (val_main_v3 (F := Ideal) x1) (val_main_v16 (F := Ideal) x1) rfl rfl rfl <|
  step_ternary 1 0 3 (val_main_v15 (F := Ideal)) (val_main_v16 (F := Ideal) x1) (val_main_v14 (F := Ideal)) (val_main_v17 (F := Ideal) x1) rfl rfl rfl rfl rfl <|
  step_nullary (val_main_cst_3 (F := Ideal)) rfl rfl <|
  step_unary 0 (val_main_cst_3 (F := Ideal)) (val_main_v18 (F := Ideal)) rfl rfl rfl <|
  step_binary 2 0 (val_main_v17 (F := Ideal) x1) (val_main_v18 (F := Ideal)) (val_main_v19 (F := Ideal) x1) rfl rfl rfl rfl <|
  step_unary 0 (val_main_v19 (F := Ideal) x1) (val_main_v20 (F := Ideal) x1) rfl rfl rfl <|
  step_unary 0 (val_main_v20 (F := Ideal) x1) (val_main_v21 (F := Ideal) x1) rfl rfl rfl <|
  step_binary 11 0 (val_main_v13 (F := Ideal) x0 x1) (val_main_v21 (F := Ideal) x1) (val_main_v22 (F := Ideal) x0 x1) rfl rfl rfl rfl <|
  step_unary 31 x2 (val_main_v23 (F := Ideal) x2) rfl rfl rfl <|
  step_binary 1 0 (val_main_v22 (F := Ideal) x0 x1) (val_main_v23 (F := Ideal) x2) (val_main_v24 (F := Ideal) x0 x1 x2) rfl rfl rfl rfl <|
  step_unary 34 x3 (val_main_v25 (F := Ideal) x3) rfl rfl rfl <|
  step_unary 0 (val_main_v25 (F := Ideal) x3) (val_main_v26 (F := Ideal) x3) rfl rfl rfl <|
  step_binary 2 0 (val_main_v24 (F := Ideal) x0 x1 x2) (val_main_v26 (F := Ideal) x3) (val_main_v27 (F := Ideal) x0 x1 x2 x3) rfl rfl rfl rfl <|
  step_unary 38 x4 (val_main_v28 (F := Ideal) x4) rfl rfl rfl <|
  step_binary 35 0 x0 (val_main_v28 (F := Ideal) x4) (val_main_v29 (F := Ideal) x0 x4) rfl rfl rfl rfl <|
  step_binary 2 0 (val_main_v27 (F := Ideal) x0 x1 x2 x3) (val_main_v29 (F := Ideal) x0 x4) (val_main_v30 (F := Ideal) x0 x1 x2 x3 x4) rfl rfl rfl rfl <|
  step_tbinary 0 0 (val_main_v30 (F := Ideal) x0 x1 x2 x3 x4) (val_main_v30 (F := Ideal) x0 x1 x2 x3 x4) (val_main_call0_v0 (F := Ideal) x0 x1 x2 x3 x4) rfl rfl rfl rfl <|
  step_tnullary (val_main_call0_cst (F := Ideal)) rfl rfl <|
  step_tbinary 1 0 (val_main_call0_v0 (F := Ideal) x0 x1 x2 x3 x4) (val_main_call0_cst (F := Ideal)) (val_main_call0_v1 (F := Ideal) x0 x1 x2 x3 x4) rfl rfl rfl rfl <|
  step_tunary 0 (val_main_call0_v1 (F := Ideal) x0 x1 x2 x3 x4) (val_main_call0_v2 (F := Ideal) x0 x1 x2 x3 x4) rfl rfl rfl <|
  step_tunary 0 (val_main_call0_v2 (F := Ideal) x0 x1 x2 x3 x4) (val_main_v31 (F := Ideal) x0 x1 x2 x3 x4) rfl rfl rfl <|
  step_nullary (val_main_cst_4 (F := Ideal)) rfl rfl <|
  step_unary 0 (val_main_cst_4 (F := Ideal)) (val_main_v32 (F := Ideal)) rfl rfl rfl <|
  step_binary 2 0 (val_main_v31 (F := Ideal) x0 x1 x2 x3 x4) (val_main_v32 (F := Ideal)) (val_main_v33 (F := Ideal) x0 x1 x2 x3 x4) rfl rfl rfl rfl <|
  step_unary 0 (val_main_v33 (F := Ideal) x0 x1 x2 x3 x4) (val_main_v34 (F := Ideal) x0 x1 x2 x3 x4) rfl rfl rfl <|
  step_binary 9 0 (val_main_v30 (F := Ideal) x0 x1 x2 x3 x4) (val_main_v34 (F := Ideal) x0 x1 x2 x3 x4) (val_main_v35 (F := Ideal) x0 x1 x2 x3 x4) rfl rfl rfl rfl <|
  step_tnullary (val_main_call1_cst (F := Ideal)) rfl rfl <|
  step_tunary 0 (val_main_call1_cst (F := Ideal)) (val_main_call1_v0 (F := Ideal)) rfl rfl rfl <|
  step_tbinary 2 0 (val_main_v35 (F := Ideal) x0 x1 x2 x3 x4) (val_main_call1_v0 (F := Ideal)) (val_main_v36 (F := Ideal) x0 x1 x2 x3 x4) rfl rfl rfl rfl <|
  step_nullary (val_main_c_5 (F := Ideal)) rfl rfl <|
  step_unary 0 (val_main_c_5 (F := Ideal)) (val_main_v37 (F := Ideal)) rfl rfl rfl <|
  step_binary 50 0 (val_main_v1 (F := Ideal) x1) (val_main_v37 (F := Ideal)) (val_main_v38 (F := Ideal) x1) rfl rfl rfl rfl <|
  step_nullary (val_main_c_6 (F := Ideal)) rfl rfl <|
  step_unary 0 (val_main_c_6 (F := Ideal)) (val_main_v39 (F := Ideal)) rfl rfl rfl <|
  step_binary 53 0 (val_main_v1 (F := Ideal) x1) (val_main_v39 (F := Ideal)) (val_main_v40 (F := Ideal) x1) rfl rfl rfl rfl <|
  step_ternary 3 0 54 (val_main_v38 (F := Ideal) x1) (val_main_v40 (F := Ideal) x1) (val_main_v1 (F := Ideal) x1) (val_main_v41 (F := Ideal) x1) rfl rfl rfl rfl rfl <|
  step_unary 0 (val_main_v41 (F := Ideal) x1) (val_main_v42 (F := Ideal) x1) rfl rfl rfl <|
  step_binary 8 0 (val_main_v36 (F := Ideal) x0 x1 x2 x3 x4) (val_main_v42 (F := Ideal) x1) (val_main_v43 (F := Ideal) x0 x1 x2 x3 x4) rfl rfl rfl rfl <|
  step_nullary (val_main_cst_7 (F := Ideal)) rfl rfl <|
  step_unary 0 (val_main_cst_7 (F := Ideal)) (val_main_v44 (F := Ideal)) rfl rfl rfl <|
  step_unary 57 (val_main_v3 (F := Ideal) x1) (val_main_v45 (F := Ideal) x1) rfl rfl rfl <|
  step_ternary 1 0 3 (val_main_v44 (F := Ideal)) (val_main_v45 (F := Ideal) x1) (val_main_v43 (F := Ideal) x0 x1 x2 x3 x4) (val_main_v46 (F := Ideal) x0 x1 x2 x3 x4) rfl rfl rfl rfl rfl <|
  step_nullary (val_main_cst_8 (F := Ideal)) rfl rfl <|
  step_unary 0 (val_main_cst_8 (F := Ideal)) (val_main_v47 (F := Ideal)) rfl rfl rfl <|
  step_nullary (val_main_cst_9 (F := Ideal)) rfl rfl <|
  step_unary 0 (val_main_cst_9 (F := Ideal)) (val_main_v48 (F := Ideal)) rfl rfl rfl <|
  step_unary 63 (val_main_v3 (F := Ideal) x1) (val_main_v49 (F := Ideal) x1) rfl rfl rfl <|
  step_ternary 1 0 3 (val_main_v48 (F := Ideal)) (val_main_v49 (F := Ideal) x1) (val_main_v47 (F := Ideal)) (val_main_v50 (F := Ideal) x1) rfl rfl rfl rfl rfl <|
  step_nullary (val_main_cst_10 (F := Ideal)) rfl rfl <|
  step_unary 0 (val_main_cst_10 (F := Ideal)) (val_main_v51 (F := Ideal)) rfl rfl rfl <|
  step_binary 2 0 (val_main_v50 (F := Ideal) x1) (val_main_v51 (F := Ideal)) (val_main_v52 (F := Ideal) x1) rfl rfl rfl rfl <|
  step_unary 0 (val_main_v52 (F := Ideal) x1) (val_main_v53 (F := Ideal) x1) rfl rfl rfl <|
  step_unary 0 (val_main_v53 (F := Ideal) x1) (val_main_v54 (F := Ideal) x1) rfl rfl rfl <|
  step_binary 11 0 (val_main_v46 (F := Ideal) x0 x1 x2 x3 x4) (val_main_v54 (F := Ideal) x1) (val_main_v55 (F := Ideal) x0 x1 x2 x3 x4) rfl rfl rfl rfl <|
  step_unary 80 x5 (val_main_v56 (F := Ideal) x5) rfl rfl rfl <|
  step_binary 1 0 (val_main_v55 (F := Ideal) x0 x1 x2 x3 x4) (val_main_v56 (F := Ideal) x5) (val_main_v57 (F := Ideal) x0 x1 x2 x3 x4 x5) rfl rfl rfl rfl <|
  step_unary 83 x6 (val_main_v58 (F := Ideal) x6) rfl rfl rfl <|
  step_unary 0 (val_main_v58 (F := Ideal) x6) (val_main_v59 (F := Ideal) x6) rfl rfl rfl <|
  step_binary 2 0 (val_main_v57 (F := Ideal) x0 x1 x2 x3 x4 x5) (val_main_v59 (F := Ideal) x6) (val_main_v60 (F := Ideal) x0 x1 x2 x3 x4 x5 x6) rfl rfl rfl rfl <|
  step_unary 87 x7 (val_main_v61 (F := Ideal) x7) rfl rfl rfl <|
  step_binary 31 0 (val_main_v36 (F := Ideal) x0 x1 x2 x3 x4) (val_main_v61 (F := Ideal) x7) (val_main_v62 (F := Ideal) x0 x1 x2 x3 x4 x7) rfl rfl rfl rfl <|
  step_binary 2 0 (val_main_v60 (F := Ideal) x0 x1 x2 x3 x4 x5 x6) (val_main_v62 (F := Ideal) x0 x1 x2 x3 x4 x7) (val_main_v63 (F := Ideal) x0 x1 x2 x3 x4 x5 x6 x7) rfl rfl rfl rfl <|
  step_tbinary 0 0 (val_main_v63 (F := Ideal) x0 x1 x2 x3 x4 x5 x6 x7) (val_main_v63 (F := Ideal) x0 x1 x2 x3 x4 x5 x6 x7) (val_main_call2_v0 (F := Ideal) x0 x1 x2 x3 x4 x5 x6 x7) rfl rfl rfl rfl <|
  step_tnullary (val_main_call2_cst (F := Ideal)) rfl rfl <|
  step_tbinary 1 0 (val_main_call2_v0 (F := Ideal) x0 x1 x2 x3 x4 x5 x6 x7) (val_main_call2_cst (F := Ideal)) (val_main_call2_v1 (F := Ideal) x0 x1 x2 x3 x4 x5 x6 x7) rfl rfl rfl rfl <|
  step_tunary 0 (val_main_call2_v1 (F := Ideal) x0 x1 x2 x3 x4 x5 x6 x7) (val_main_call2_v2 (F := Ideal) x0 x1 x2 x3 x4 x5 x6 x7) rfl rfl rfl <|
  step_tunary 0 (val_main_call2_v2 (F := Ideal) x0 x1 x2 x3 x4 x5 x6 x7) (val_main_v64 (F := Ideal) x0 x1 x2 x3 x4 x5 x6 x7) rfl rfl rfl <|
  step_nullary (val_main_cst_11 (F := Ideal)) rfl rfl <|
  step_unary 0 (val_main_cst_11 (F := Ideal)) (val_main_v65 (F := Ideal)) rfl rfl rfl <|
  step_binary 2 0 (val_main_v64 (F := Ideal) x0 x1 x2 x3 x4 x5 x6 x7) (val_main_v65 (F := Ideal)) (val_main_v66 (F := Ideal) x0 x1 x2 x3 x4 x5 x6 x7) rfl rfl rfl rfl <|
  step_unary 0 (val_main_v66 (F := Ideal) x0 x1 x2 x3 x4 x5 x6 x7) (val_main_v67 (F := Ideal) x0 x1 x2 x3 x4 x5 x6 x7) rfl rfl rfl <|
  step_binary 9 0 (val_main_v63 (F := Ideal) x0 x1 x2 x3 x4 x5 x6 x7) (val_main_v67 (F := Ideal) x0 x1 x2 x3 x4 x5 x6 x7) (val_main_v68 (F := Ideal) x0 x1 x2 x3 x4 x5 x6 x7) rfl rfl rfl rfl <|
  step_tnullary (val_main_call3_cst (F := Ideal)) rfl rfl <|
  step_tunary 0 (val_main_call3_cst (F := Ideal)) (val_main_call3_v0 (F := Ideal)) rfl rfl rfl <|
  step_tbinary 2 0 (val_main_v68 (F := Ideal) x0 x1 x2 x3 x4 x5 x6 x7) (val_main_call3_v0 (F := Ideal)) (val_main_v69 (F := Ideal) x0 x1 x2 x3 x4 x5 x6 x7) rfl rfl rfl rfl <|
  step_nullary (val_main_c_12 (F := Ideal)) rfl rfl <|
  step_unary 0 (val_main_c_12 (F := Ideal)) (val_main_v70 (F := Ideal)) rfl rfl rfl <|
  step_binary 96 0 (val_main_v1 (F := Ideal) x1) (val_main_v70 (F := Ideal)) (val_main_v71 (F := Ideal) x1) rfl rfl rfl rfl <|
  step_nullary (val_main_c_13 (F := Ideal)) rfl rfl <|
  step_unary 0 (val_main_c_13 (F := Ideal)) (val_main_v72 (F := Ideal)) rfl rfl rfl <|
  step_binary 99 0 (val_main_v1 (F := Ideal) x1) (val_main_v72 (F := Ideal)) (val_main_v73 (F := Ideal) x1) rfl rfl rfl rfl <|
  step_ternary 3 0 100 (val_main_v71 (F := Ideal) x1) (val_main_v73 (F := Ideal) x1) (val_main_v1 (F := Ideal) x1) (val_main_v74 (F := Ideal) x1) rfl rfl rfl rfl rfl <|
  step_unary 0 (val_main_v74 (F := Ideal) x1) (val_main_v75 (F := Ideal) x1) rfl rfl rfl <|
  step_binary 8 0 (val_main_v69 (F := Ideal) x0 x1 x2 x3 x4 x5 x6 x7) (val_main_v75 (F := Ideal) x1) (val_main_v76 (F := Ideal) x0 x1 x2 x3 x4 x5 x6 x7) rfl rfl rfl rfl <|
  step_nullary (val_main_cst_14 (F := Ideal)) rfl rfl <|
  step_unary 0 (val_main_cst_14 (F := Ideal)) (val_main_v77 (F := Ideal)) rfl rfl rfl <|
  step_unary 103 (val_main_v3 (F := Ideal) x1) (val_main_v78 (F := Ideal) x1) rfl rfl rfl <|
  step_ternary 1 0 3 (val_main_v77 (F := Ideal)) (val_main_v78 (F := Ideal) x1) (val_main_v76 (F := Ideal) x0 x1 x2 x3 x4 x5 x6 x7) (val_main_v79 (F := Ideal) x0 x1 x2 x3 x4 x5 x6 x7) rfl rfl rfl rfl rfl <|
  step_nullary (val_main_cst_15 (F := Ideal)) rfl rfl <|
  step_unary 0 (val_main_cst_15 (F := Ideal)) (val_main_v80 (F := Ideal)) rfl rfl rfl <|
  step_nullary (val_main_cst_16 (F := Ideal)) rfl rfl <|
  step_unary 0 (val_main_cst_16 (F := Ideal)) (val_main_v81 (F := Ideal)) rfl rfl rfl <|
  step_unary 109 (val_main_v3 (F := Ideal) x1) (val_main_v82 (F := Ideal) x1) rfl rfl rfl <|
  step_ternary 1 0 3 (val_main_v81 (F := Ideal)) (val_main_v82 (F := Ideal) x1) (val_main_v80 (F := Ideal)) (val_main_v83 (F := Ideal) x1) rfl rfl rfl rfl rfl <|
  step_nullary (val_main_cst_17 (F := Ideal)) rfl rfl <|
  step_unary 0 (val_main_cst_17 (F := Ideal)) (val_main_v84 (F := Ideal)) rfl rfl rfl <|
  step_binary 2 0 (val_main_v83 (F := Ideal) x1) (val_main_v84 (F := Ideal)) (val_main_v85 (F := Ideal) x1) rfl rfl rfl rfl <|
  step_unary 0 (val_main_v85 (F := Ideal) x1) (val_main_v86 (F := Ideal) x1) rfl rfl rfl <|
  step_unary 0 (val_main_v86 (F := Ideal) x1) (val_main_v87 (F := Ideal) x1) rfl rfl rfl <|
  step_binary 11 0 (val_main_v79 (F := Ideal) x0 x1 x2 x3 x4 x5 x6 x7) (val_main_v87 (F := Ideal) x1) (val_main_v88 (F := Ideal) x0 x1 x2 x3 x4 x5 x6 x7) rfl rfl rfl rfl <|
  step_unary 129 x8 (val_main_v89 (F := Ideal) x8) rfl rfl rfl <|
  step_binary 1 0 (val_main_v88 (F := Ideal) x0 x1 x2 x3 x4 x5 x6 x7) (val_main_v89 (F := Ideal) x8) (val_main_v90 (F := Ideal) x0 x1 x2 x3 x4 x5 x6 x7 x8) rfl rfl rfl rfl <|
  step_unary 132 x9 (val_main_v91 (F := Ideal) x9) rfl rfl rfl <|
  step_unary 0 (val_main_v91 (F := Ideal) x9) (val_main_v92 (F := Ideal) x9) rfl rfl rfl <|
  step_binary 2 0 (val_main_v90 (F := Ideal) x0 x1 x2 x3 x4 x5 x6 x7 x8) (val_main_v92 (F := Ideal) x9) (val_main_v93 (F := Ideal) x0 x1 x2 x3 x4 x5 x6 x7 x8 x9) rfl rfl rfl rfl <|
  step_unary 136 x10 (val_main_v94 (F := Ideal) x10) rfl rfl rfl <|
  step_binary 31 0 (val_main_v69 (F := Ideal) x0 x1 x2 x3 x4 x5 x6 x7) (val_main_v94 (F := Ideal) x10) (val_main_v95 (F := Ideal) x0 x1 x2 x3 x4 x5 x6 x7 x10) rfl rfl rfl rfl <|
  step_binary 2 0 (val_main_v93 (F := Ideal) x0 x1 x2 x3 x4 x5 x6 x7 x8 x9) (val_main_v95 (F := Ideal) x0 x1 x2 x3 x4 x5 x6 x7 x10) (val_main_v96 (F := Ideal) x0 x1 x2 x3 x4 x5 x6 x7 x8 x9 x10) rfl rfl rfl rfl <|
  step_tbinary 0 0 (val_main_v96 (F := Ideal) x0 x1 x2 x3 x4 x5 x6 x7 x8 x9 x10) (val_main_v96 (F := Ideal) x0 x1 x2 x3 x4 x5 x6 x7 x8 x9 x10) (val_main_call4_v0 (F := Ideal) x0 x1 x2 x3 x4 x5 x6 x7 x8 x9 x10) rfl rfl rfl rfl <|
  step_tnullary (val_main_call4_cst (F := Ideal)) rfl rfl <|
  step_tbinary 1 0 (val_main_call4_v0 (F := Ideal) x0 x1 x2 x3 x4 x5 x6 x7 x8 x9 x10) (val_main_call4_cst (F := Ideal)) (val_main_call4_v1 (F := Ideal) x0 x1 x2 x3 x4 x5 x6 x7 x8 x9 x10) rfl rfl rfl rfl <|
  step_tunary 0 (val_main_call4_v1 (F := Ideal) x0 x1 x2 x3 x4 x5 x6 x7 x8 x9 x10) (val_main_call4_v2 (F := Ideal) x0 x1 x2 x3 x4 x5 x6 x7 x8 x9 x10) rfl rfl rfl <|
  step_tunary 0 (val_main_call4_v2 (F := Ideal) x0 x1 x2 x3 x4 x5 x6 x7 x8 x9 x10) (val_main_v97 (F := Ideal) x0 x1 x2 x3 x4 x5 x6 x7 x8 x9 x10) rfl rfl rfl <|
  step_nullary (val_main_cst_18 (F := Ideal)) rfl rfl <|
  step_unary 0 (val_main_cst_18 (F := Ideal)) (val_main_v98 (F := Ideal)) rfl rfl rfl <|
  step_binary 2 0 (val_main_v97 (F := Ideal) x0 x1 x2 x3 x4 x5 x6 x7 x8 x9 x10) (val_main_v98 (F := Ideal)) (val_main_v99 (F := Ideal) x0 x1 x2 x3 x4 x5 x6 x7 x8 x9 x10) rfl rfl rfl rfl <|
  step_unary 0 (val_main_v99 (F := Ideal) x0 x1 x2 x3 x4 x5 x6 x7 x8 x9 x10) (val_main_v100 (F := Ideal) x0 x1 x2 x3 x4 x5 x6 x7 x8 x9 x10) rfl rfl rfl <|
  step_binary 9 0 (val_main_v96 (F := Ideal) x0 x1 x2 x3 x4 x5 x6 x7 x8 x9 x10) (val_main_v100 (F := Ideal) x0 x1 x2 x3 x4 x5 x6 x7 x8 x9 x10) (val_main_v101 (F := Ideal) x0 x1 x2 x3 x4 x5 x6 x7 x8 x9 x10) rfl rfl rfl rfl <|
  step_unary 150 x11 (val_main_v102 (F := Ideal) x11) rfl rfl rfl <|
  step_binary 1 0 (val_main_v101 (F := Ideal) x0 x1 x2 x3 x4 x5 x6 x7 x8 x9 x10) (val_main_v102 (F := Ideal) x11) (val_main_v103 (F := Ideal) x0 x1 x2 x3 x4 x5 x6 x7 x8 x9 x10 x11) rfl rfl rfl rfl <|
  step_unary 153 x12 (val_main_v104 (F := Ideal) x12) rfl rfl rfl <|
  step_unary 0 (val_main_v104 (F := Ideal) x12) (val_main_v105 (F := Ideal) x12) rfl rfl rfl <|
  step_binary 2 0 (val_main_v103 (F := Ideal) x0 x1 x2 x3 x4 x5 x6 x7 x8 x9 x10 x11) (val_main_v105 (F := Ideal) x12) (val_main_v106 (F := Ideal) x0 x1 x2 x3 x4 x5 x6 x7 x8 x9 x10 x11 x12) rfl rfl rfl rfl <|
  step_nullary (val_main_cst_19 (F := Ideal)) rfl rfl <|
  step_binary 1 0 (val_main_v106 (F := Ideal) x0 x1 x2 x3 x4 x5 x6 x7 x8 x9 x10 x11 x12) (val_main_cst_19 (F := Ideal)) (val_main_v107 (F := Ideal) x0 x1 x2 x3 x4 x5 x6 x7 x8 x9 x10 x11 x12) rfl rfl rfl rfl <|
  step_nullary (val_main_cst_20 (F := Ideal)) rfl rfl <|
  step_unary 0 (val_main_cst_20 (F := Ideal)) (val_main_v108 (F := Ideal)) rfl rfl rfl <|
  step_binary 0 2 (val_main_v108 (F := Ideal)) (val_main_v107 (F := Ideal) x0 x1 x2 x3 x4 x5 x6 x7 x8 x9 x10 x11 x12) (val_main_v109 (F := Ideal) x0 x1 x2 x3 x4 x5 x6 x7 x8 x9 x10 x11 x12) rfl rfl rfl rfl <|
  step_unary 0 (val_main_v109 (F := Ideal) x0 x1 x2 x3 x4 x5 x6 x7 x8 x9 x10 x11 x12) (val_main_v110 (F := Ideal) x0 x1 x2 x3 x4 x5 x6 x7 x8 x9 x10 x11 x12) rfl rfl rfl <|
  step_unary 0 (val_main_v110 (F := Ideal) x0 x1 x2 x3 x4 x5 x6 x7 x8 x9 x10 x11 x12) (val_main_v111 (F := Ideal) x0 x1 x2 x3 x4 x5 x6 x7 x8 x9 x10 x11 x12) rfl rfl rfl <|
  step_binary 7 0 (val_main_v106 (F := Ideal) x0 x1 x2 x3 x4 x5 x6 x7 x8 x9 x10 x11 x12) (val_main_v111 (F := Ideal) x0 x1 x2 x3 x4 x5 x6 x7 x8 x9 x10 x11 x12) (val_main_v112 (F := Ideal) x0 x1 x2 x3 x4 x5 x6 x7 x8 x9 x10 x11 x12) rfl rfl rfl rfl <|
  step_unary 0 (val_main_v112 (F := Ideal) x0 x1 x2 x3 x4 x5 x6 x7 x8 x9 x10 x11 x12) (val_main_v113 (F := Ideal) x0 x1 x2 x3 x4 x5 x6 x7 x8 x9 x10 x11 x12) rfl rfl rfl <|
  step_nullary (val_main_cst_21 (F := Ideal)) rfl rfl <|
  step_binary 1 0 (val_main_v113 (F := Ideal) x0 x1 x2 x3 x4 x5 x6 x7 x8 x9 x10 x11 x12) (val_main_cst_21 (F := Ideal)) (val_main_v114 (F := Ideal) x0 x1 x2 x3 x4 x5 x6 x7 x8 x9 x10 x11 x12) rfl rfl rfl rfl <|
  step_unary 0 (val_main_v114 (F := Ideal) x0 x1 x2 x3 x4 x5 x6 x7 x8 x9 x10 x11 x12) (val_main_v115 (F := Ideal) x0 x1 x2 x3 x4 x5 x6 x7 x8 x9 x10 x11 x12) rfl rfl rfl <|
  step_unary 0 (val_main_v115 (F := Ideal) x0 x1 x2 x3 x4 x5 x6 x7 x8 x9 x10 x11 x12) (val_main_v116 (F := Ideal) x0 x1 x2 x3 x4 x5 x6 x7 x8 x9 x10 x11 x12) rfl rfl rfl <|
  step_binary 4 0 (val_main_v113 (F := Ideal) x0 x1 x2 x3 x4 x5 x6 x7 x8 x9 x10 x11 x12) (val_main_v116 (F := Ideal) x0 x1 x2 x3 x4 x5 x6 x7 x8 x9 x10 x11 x12) (val_main_v117 (F := Ideal) x0 x1 x2 x3 x4 x5 x6 x7 x8 x9 x10 x11 x12) rfl rfl rfl rfl <|
  done [0, 158, 159, 160, 161, 162, 163, 164, 165, 166, 167, 168, 169, 170] rfl

end Cert.ReferenceIdeal.Line

end
-- ==== Proof.RefRun.lean ====
/-
  The reference program's run, with its result named by its last stage. From any memory, on every device, every weakly
  fair execution of @main terminates, the result buffer holding the stage function `val_main_v117` of the thirteen
  arguments' launch contents and every argument as launched: the library's run of a straight line of host operations
  gives each buffer at the fold of the operations over the launch contents, and the line of Proof/RefLine.lean reads
  that fold one operation at a time.
-/
import proofs.«401475_j31396210934180_3_alg».proof.Proof.RefOps
import proofs.«401475_j31396210934180_3_alg».proof.Proof.RefStages
import proofs.«401475_j31396210934180_3_alg».proof.Proof.RefLine

set_option maxRecDepth 16384

noncomputable section

namespace Cert.ReferenceIdeal.RunP

open Cert.ReferenceIdeal Cert.ReferenceIdeal.Gen Cert.ReferenceIdeal.Stages Idealize.ShloMosaic Idealize.ShloMosaic.TcCoe Idealize.ShloMosaic.StableHlo Idealize.SL.Sem HostLine

/-- At launch the valuation holds the thirteen arguments at their launch contents. -/
theorem sat_launch (m : (ℓ : Loc nD τ sig) → Buf (Elt Ideal) ℓ) (c : Dev nD) :
    Sat (launchContents m c) (Line.atLaunch (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) :=
  Sat.cons rfl (Sat.cons rfl (Sat.cons rfl (Sat.cons rfl (Sat.cons rfl (Sat.cons rfl (Sat.cons rfl (Sat.cons rfl (Sat.cons rfl (Sat.cons rfl (Sat.cons rfl (Sat.cons rfl (Sat.cons rfl (Sat.nil _)))))))))))))

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v117) = val_main_v117 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c =>
      have hs := Line.line _ _ _ _ _ _ _ _ _ _ _ _ _ _ (sat_launch m c)
      ⟨(h c main_v117).trans (hs.get 0 rfl),
       (h c main_arg0).trans (hs.get 1 rfl),
       (h c main_arg1).trans (hs.get 2 rfl),
       (h c main_arg2).trans (hs.get 3 rfl),
       (h c main_arg3).trans (hs.get 4 rfl),
       (h c main_arg4).trans (hs.get 5 rfl),
       (h c main_arg5).trans (hs.get 6 rfl),
       (h c main_arg6).trans (hs.get 7 rfl),
       (h c main_arg7).trans (hs.get 8 rfl),
       (h c main_arg8).trans (hs.get 9 rfl),
       (h c main_arg9).trans (hs.get 10 rfl),
       (h c main_arg10).trans (hs.get 11 rfl),
       (h c main_arg11).trans (hs.get 12 rfl),
       (h c main_arg12).trans (hs.get 13 rfl)⟩)
    (run_seq Ops.scopedRefs_eq Ops.scopedSems_eq defs main (fun _ => Ops.ops) Ops.main_eq (fun _ => Ops.ops_sub) m ρ)

end Cert.ReferenceIdeal.RunP

end
-- ==== Proof.SageRow.lean ====
/-
  One GraphSAGE layer, one node at a time, over the extended reals.

  A node's new feature vector depends only on that node's own row of the aggregated neighbour sum, its own row of
  the previous features, the reciprocal of its in-degree (clamped below by one) and the layer's weights: first the two
  linear maps and the bias (`lin`: the neighbour sum through W_l, scaled by the reciprocal degree, plus b, plus the
  node's own row through W_r), then the division by the Euclidean length of that vector, clamped below by a small
  constant (`unit`), then, in the first two layers, the positive part (`relu`). The last layer's unit vector goes through
  one more linear map (`logit`) and a softmax over the forty classes taken against the row's maximum (`rowmax`,
  `softmax`).

  The reference spells the same layer with the neighbour MEAN formed first: every entry of the neighbour sum is
  divided by the clamped degree before it meets W_l (`linR`, `logitR`: the same maps with the bias read off a vector
  instead of a one-row matrix).

  `layerArr` and `headArr` are the whole-array forms: row `i 0` of the arrays through the row functions, read at
  column `i 1`.
-/
import Idealize.ShloMosaic.PureOps.Ideal
import Idealize.ShloMosaic.Lib.ValueIdx

noncomputable section

namespace Cert.Sage

open Idealize.ShloMosaic Idealize.ShloMosaic.ValueIdx

/-- The shapes the layer is stated over, as literals. -/
abbrev Nodes : Shape := ⟨2, ![100000, 128]⟩
abbrev NodeCol : Shape := ⟨2, ![100000, 1]⟩
abbrev Classes : Shape := ⟨2, ![100000, 40]⟩
abbrev Sq : Shape := ⟨2, ![128, 128]⟩
abbrev RowV : Shape := ⟨2, ![1, 128]⟩
abbrev Fc : Shape := ⟨2, ![40, 128]⟩
abbrev RowC : Shape := ⟨2, ![1, 40]⟩
abbrev V128 : Shape := ⟨1, ![128]⟩
abbrev V40 : Shape := ⟨1, ![40]⟩

/-- The small constant the Euclidean length is clamped below by (the f32 nearest to 1e-12), as its bit pattern denotes. -/
abbrev tiny : EReal := Ideal.ofBits .f32 0x2B8CBCCC#32
/-- The pattern of +0.0. -/
abbrev zeroBits : EReal := Ideal.ofBits .f32 0x00000000#32
/-- The pattern of 1.0. -/
abbrev oneBits : EReal := Ideal.ofBits .f32 0x3F800000#32
/-- The pattern of -infinity. -/
abbrev negInfBits : EReal := Ideal.ofBits .f32 0xFF800000#32

/-- Column `q` of the layer before normalisation, the kernel's way: (a · W_l[q,:]) · ci + b[q] + x · W_r[q,:], with
    `a` the node's row of neighbour sums, `x` its own row, `ci` its reciprocal clamped degree. -/
def lin (a x : Fin 128 → EReal) (ci : EReal) (wl wr : Sq.Idx → EReal) (b : RowV.Idx → EReal) (q : Fin 128) : EReal :=
  (∑ k : Fin 128, a k * wl (ix2 q k)) * ci + b (ix2 0 q) + ∑ k : Fin 128, x k * wr (ix2 q k)

/-- The same column the reference's way: every neighbour sum divided by the clamped degree `c` first. -/
def linR (a x : Fin 128 → EReal) (c : EReal) (wl wr : Sq.Idx → EReal) (b : V128.Idx → EReal) (q : Fin 128) : EReal :=
  (∑ k : Fin 128, Ideal.div (a k) c * wl (ix2 q k)) + b (ix1 q) + ∑ k : Fin 128, x k * wr (ix2 q k)

/-- Entry `q` of the vector `o` divided by its Euclidean length, the length clamped below by `tiny`. -/
def unit (o : Fin 128 → EReal) (q : Fin 128) : EReal :=
  Ideal.div (o q) (max (Ideal.sqrt (∑ q' : Fin 128, o q' * o q')) tiny)

/-- The positive part. -/
def relu (v : EReal) : EReal := max v zeroBits

/-- Class `j`'s logit of the unit vector `h`: h · W_fc[j,:] + b_fc[j] (bias read off a one-row matrix). -/
def logit (h : Fin 128 → EReal) (wfc : Fc.Idx → EReal) (bfc : RowC.Idx → EReal) (j : Fin 40) : EReal :=
  (∑ k : Fin 128, h k * wfc (ix2 j k)) + bfc (ix2 0 j)

/-- The same with the bias read off a vector. -/
def logitR (h : Fin 128 → EReal) (wfc : Fc.Idx → EReal) (bfc : V40.Idx → EReal) (j : Fin 40) : EReal :=
  (∑ k : Fin 128, h k * wfc (ix2 j k)) + bfc (ix1 j)

/-- The greatest of forty logits, folded from -infinity. -/
def rowmax (z : Fin 40 → EReal) : EReal := (Finset.univ : Finset (Fin 40)).fold max negInfBits z

/-- The softmax of forty logits at class `j`, the exponentials taken against the greatest logit. -/
def softmax (z : Fin 40 → EReal) (j : Fin 40) : EReal :=
  Ideal.div (Ideal.exp (z j - rowmax z)) (∑ j' : Fin 40, Ideal.exp (z j' - rowmax z))

/-- One of the first two layers on whole arrays: node `i 0`, column `i 1`. -/
def layerArr (agg x : Nodes.Idx → EReal) (ci : NodeCol.Idx → EReal) (wl : Sq.Idx → EReal) (b : RowV.Idx → EReal)
    (wr : Sq.Idx → EReal) : Nodes.Idx → EReal :=
  fun i => relu (unit (lin (fun k => agg (ix2 (i 0) k)) (fun k => x (ix2 (i 0) k)) (ci (ix2 (i 0) 0)) wl wr b) (i 1))

/-- The last layer with the classifier and the softmax on whole arrays: node `i 0`, class `i 1`. -/
def headArr (agg x : Nodes.Idx → EReal) (ci : NodeCol.Idx → EReal) (wl : Sq.Idx → EReal) (b : RowV.Idx → EReal)
    (wr : Sq.Idx → EReal) (wfc : Fc.Idx → EReal) (bfc : RowC.Idx → EReal) : Classes.Idx → EReal :=
  fun i => softmax (logit (unit (lin (fun k => agg (ix2 (i 0) k)) (fun k => x (ix2 (i 0) k)) (ci (ix2 (i 0) 0)) wl wr b)) wfc bfc) (i 1)

end Cert.Sage

end
-- ==== Proof.Layer1Body.lean ====
/-
  What the first layer's kernel body stores, read at one entry: row `p`, column `q` of the block it writes is the
  positive part of the unit vector of that row's two linear maps and bias (Cert.Sage: `relu`, `unit`, `lin`), computed from
  row `p` of the neighbour-sum block and of the feature block, the row's reciprocal degree and the three resident operands.

  The body's value is read in two stretches. Up to the second sum it is pointwise apart from the two products and the two
  spreads (the reciprocal-degree column over the 128 columns, the bias row over the 4000 rows): entry (p, q) is `lin` of row
  p at column q. From there on every entry of a row is divided by one number of that row, the square root of the lane sum
  of the squares clamped below, and the positive part is taken: `relu (unit · q)` of the row.
-/
import proofs.«401475_j31396210934180_3_alg».proof.Proof.Gen.KernelIdeal.Skeleton
import proofs.«401475_j31396210934180_3_alg».proof.Proof.SageRow
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Layer1
open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The product of a block of rows with a weight matrix, read at one entry

Both products contract the second axis of both operands, so entry (p, q) pairs row p of the left operand with row q of
the weights. -/

theorem lhs_axis0 (i : S4000x128.Idx) (r : dot_S4000x128_S128x128_S4000x128_1_1_0_0_n_n.contr.Idx) :
    (dot_S4000x128_S128x128_S4000x128_1_1_0_0_n_n.lhsIdx i r 0).val = (i 0).val := by
  unfold DotDims.lhsIdx
  rw [dif_neg (show ¬(0 : Fin S4000x128.rank) ∈ dot_S4000x128_S128x128_S4000x128_1_1_0_0_n_n.lhsBatch by decide), dif_pos (show (0 : Fin S4000x128.rank) ∈ dot_S4000x128_S128x128_S4000x128_1_1_0_0_n_n.lhsNonContracting by decide)]
  rfl
theorem lhs_axis1 (i : S4000x128.Idx) (r : dot_S4000x128_S128x128_S4000x128_1_1_0_0_n_n.contr.Idx) :
    (dot_S4000x128_S128x128_S4000x128_1_1_0_0_n_n.lhsIdx i r 1).val = (r ⟨0, by decide⟩).val :=
  dot_S4000x128_S128x128_S4000x128_1_1_0_0_n_n.lhsIdx_val_of_single rfl i r
theorem rhs_axis0 (i : S4000x128.Idx) (r : dot_S4000x128_S128x128_S4000x128_1_1_0_0_n_n.contr.Idx) :
    (dot_S4000x128_S128x128_S4000x128_1_1_0_0_n_n.rhsIdx i r 0).val = (i 1).val := by
  unfold DotDims.rhsIdx
  rw [dif_neg (show ¬(0 : Fin S128x128.rank) ∈ dot_S4000x128_S128x128_S4000x128_1_1_0_0_n_n.rhsBatch by decide), dif_pos (show (0 : Fin S128x128.rank) ∈ dot_S4000x128_S128x128_S4000x128_1_1_0_0_n_n.rhsNonContracting by decide)]
  rfl
theorem rhs_axis1 (i : S4000x128.Idx) (r : dot_S4000x128_S128x128_S4000x128_1_1_0_0_n_n.contr.Idx) :
    (dot_S4000x128_S128x128_S4000x128_1_1_0_0_n_n.rhsIdx i r 1).val = (r ⟨0, by decide⟩).val :=
  dot_S4000x128_S128x128_S4000x128_1_1_0_0_n_n.rhsIdx_val_of_single rfl i r

/-- Entry (p, q) of the product into the zero block: row p of the left operand against row q of the weights. -/
theorem product_apply (l : FVec Ideal S4000x128 .bf16) (w : FVec Ideal S128x128 .bf16) (p : Fin 4000) (q : Fin 128) :
    matmul dot_S4000x128_S128x128_S4000x128_1_1_0_0_n_n none l w (constant (F := Ideal) S4000x128 .f32 0x00000000#32) (ix2 p q)
      = ∑ k : Fin 128, l (ix2 p k) * w (ix2 q k) := by
  refine (Ideal.matmul_constant_zero_apply dot_S4000x128_S128x128_S4000x128_1_1_0_0_n_n none l w (ix2 p q)).trans ?_
  rw [← Equiv.sum_comp (ValueIdx.contrEquiv1 dot_S4000x128_S128x128_S4000x128_1_1_0_0_n_n 128 rfl rfl).symm]
  refine Finset.sum_congr rfl fun k _ => ?_
  have hk := ValueIdx.contrEquiv1_symm_val dot_S4000x128_S128x128_S4000x128_1_1_0_0_n_n 128 rfl rfl k
  have el : dot_S4000x128_S128x128_S4000x128_1_1_0_0_n_n.lhsIdx (ix2 p q) ((ValueIdx.contrEquiv1 dot_S4000x128_S128x128_S4000x128_1_1_0_0_n_n 128 rfl rfl).symm k) = ix2 p k := funext fun a => Fin.ext (by
    match a with
    | ⟨0, _⟩ => exact lhs_axis0 _ _
    | ⟨1, _⟩ => exact (lhs_axis1 _ _).trans hk)
  have er : dot_S4000x128_S128x128_S4000x128_1_1_0_0_n_n.rhsIdx (ix2 p q) ((ValueIdx.contrEquiv1 dot_S4000x128_S128x128_S4000x128_1_1_0_0_n_n 128 rfl rfl).symm k) = ix2 q k := funext fun a => Fin.ext (by
    match a with
    | ⟨0, _⟩ => exact rhs_axis0 _ _
    | ⟨1, _⟩ => exact (rhs_axis1 _ _).trans hk)
  rw [el, er]

/-! ## The layout steps, read at one entry -/

/-- A column of 4000 entries spread over 128 columns reads, at (p, q), the column's entry p. -/
theorem column_apply (v : FVec Ideal S4000x1 .f32) (p : Fin 4000) (q : Fin 128) :
    broadcastTo S4000x128 v broadcasts_S4000x1_S4000x128 (ix2 p q) = v (ix2 p 0) := by
  refine broadcastTo_apply v broadcasts_S4000x1_S4000x128 (ix2 p q) (ix2 p 0) fun ax => ?_
  match ax with
  | ⟨0, _⟩ => rfl
  | ⟨1, _⟩ => rfl

/-- The one row of 128 entries spread over 4000 rows reads, at (p, q), the row's entry q. -/
theorem row_apply (v : FVec Ideal S1x128 .f32) (p : Fin 4000) (q : Fin 128) :
    broadcastTo S4000x128 v broadcasts_S1x128_S4000x128 (ix2 p q) = v (ix2 0 q) :=
  broadcastTo_1b_ab_apply v broadcasts_S1x128_S4000x128 p q

/-- A vector of 4000 entries stood up as a column reads, at (p, 0), the vector's entry p. -/
theorem keepdims_apply (s : FVec Ideal S4000 .f32) (p : Fin 4000) :
    shapeCast S4000x1 s shapeCasts_S4000_S4000x1 (ix2 p 0) = s (ix1 p) :=
  shapeCast_apply s shapeCasts_S4000_S4000x1 (ix2 p 0) (ix1 p) (by
    rw [Shape.rowMajor_val_two, Shape.rowMajor_val_one]
    show p.val = p.val * 1 + 0
    omega)

/-- The sum along the lanes, from the neutral accumulator: entry p is the sum of row p's 128 entries. -/
theorem lanesum_apply (v : FVec Ideal S4000x128 .f32) (hφ : FKind.Formats .f32)
    (hacc : (0x00000000#32 : BitVec FTy.f32.bits) = FKind.add.neutral .f32 hφ) (p : Fin 4000) :
    multiReduction (F := Ideal) .add [1] S4000 v 0x00000000#32 reduces_S4000x128_S4000 hφ hacc (ix1 p)
      = ∑ k : Fin 128, v (ix2 p k) := by
  refine (Ideal.multiReduction_add_single v 0x00000000#32 reduces_S4000x128_S4000 hφ hacc (ix1 p)).trans ?_
  refine Finset.sum_congr rfl fun k _ => congrArg v (funext fun c => Fin.ext ?_)
  match c with
  | ⟨0, _⟩ => rfl
  | ⟨1, _⟩ => rfl

/-! ## The body's arithmetic at one entry -/

/-- Before normalisation: the neighbour sums through W_l, scaled by the row's reciprocal degree, plus the bias, plus
    the row's own features through W_r. -/
theorem lin_apply (a x : FVec Ideal S4000x128 .f32) (wl wr : FVec Ideal S128x128 .bf16) (ci : FVec Ideal S4000x1 .f32)
    (b : FVec Ideal S1x128 .f32) (p : Fin 4000) (q : Fin 128) :
    addf (addf (mulf (matmul dot_S4000x128_S128x128_S4000x128_1_1_0_0_n_n none (truncf .bf16 (shapeCast S4000x128 a shapeCasts_S4000x128_S4000x128) bitsLt_bf16_f32)
            (shapeCast S128x128 wl shapeCasts_S128x128_S128x128) (constant (F := Ideal) S4000x128 .f32 0x00000000#32))
          (broadcastTo S4000x128 (shapeCast S4000x1 ci shapeCasts_S4000x1_S4000x1) broadcasts_S4000x1_S4000x128))
        (broadcastTo S4000x128 (shapeCast S1x128 b shapeCasts_S1x128_S1x128) broadcasts_S1x128_S4000x128))
      (matmul dot_S4000x128_S128x128_S4000x128_1_1_0_0_n_n none (truncf .bf16 x bitsLt_bf16_f32)
        (shapeCast S128x128 wr shapeCasts_S128x128_S128x128) (constant (F := Ideal) S4000x128 .f32 0x00000000#32)) (ix2 p q)
      = Sage.lin (fun k => a (ix2 p k)) (fun k => x (ix2 p k)) (ci (ix2 p 0)) wl wr b q := by
  rw [shapeCast_self a, shapeCast_self wl, shapeCast_self wr, shapeCast_self ci, shapeCast_self b]
  rw [addf_apply, addf_apply, mulf_apply, product_apply, product_apply, column_apply, row_apply]
  rfl

/-- After it: every entry of the row over the row's Euclidean length (clamped below), then the positive part. -/
theorem normed_apply (o : FVec Ideal S4000x128 .f32) (hφ : FKind.Formats .f32)
    (hacc : (0x00000000#32 : BitVec FTy.f32.bits) = FKind.add.neutral .f32 hφ) (p : Fin 4000) (q : Fin 128) :
    maximumf (divf o (broadcastTo S4000x128 (maximumf (sqrt (shapeCast S4000x1
            (multiReduction (F := Ideal) .add [1] S4000 (mulf o o) 0x00000000#32 reduces_S4000x128_S4000 hφ hacc) shapeCasts_S4000_S4000x1))
          (broadcast S4000x1 (Scalar.ofBits (F := Ideal) .f32 0x2B8CBCCC#32))) broadcasts_S4000x1_S4000x128))
        (broadcast S4000x128 (Scalar.ofBits (F := Ideal) .f32 0x00000000#32)) (ix2 p q)
      = Sage.relu (Sage.unit (fun k => o (ix2 p k)) q) := by
  rw [maximumf_apply, divf_apply, column_apply, maximumf_apply]
  show max (Ideal.div (o (ix2 p q)) (max (Ideal.sqrt (shapeCast S4000x1 _ shapeCasts_S4000_S4000x1 (ix2 p 0))) _)) _ = _
  rw [keepdims_apply, lanesum_apply]
  rfl

theorem pay_apply (a x : Vec Ideal S4000x128 .f32) (wl wr : Vec Ideal S128x128 .bf16) (ci : Vec Ideal S4000x1 .f32)
    (b : Vec Ideal S1x128 .f32) (p : Fin 4000) (q : Fin 128) :
    k0_pay1 (F := Ideal) a x wl wr ci b (ix2 p q)
      = Sage.relu (Sage.unit (Sage.lin (fun k => a (ix2 p k)) (fun k => x (ix2 p k)) (ci (ix2 p 0)) wl wr b) q) := by
  unfold k0_pay1
  refine (normed_apply _ _ _ p q).trans ?_
  exact congrArg (fun o => Sage.relu (Sage.unit o q)) (funext fun k => lin_apply a x wl wr ci b p k)

end Cert.KernelIdeal.Layer1

end
-- ==== Proof.Layer1Array.lean ====
/-
  The first launch's output array after all twenty-five grid points: point `t` writes rows 4000·t … 4000·t + 3999, each
  row a function of the same row of the launch's input arrays, so the whole array is `Cert.Sage.layerArr` of the arrays the
  launch finds (`V`: any buffer contents at the launch's entry).

  The steps: where each window's block sits at point `t` (the printed index maps, decided over the grid); each input
  block read at an entry as the array's entry on row 4000·t + p, the three resident operands' single block being the
  whole array; hence what point `t` writes back is block `t` of the layer; every row r lies in the block of point
  r / 4000, so the blocks cover the array.
-/
import proofs.«401475_j31396210934180_3_alg».proof.Proof.Gen.KernelIdeal.Frame
import proofs.«401475_j31396210934180_3_alg».proof.Proof.Layer1Body
import proofs.«401475_j31396210934180_3_alg».proof.Proof.SageRow
import Idealize.ShloMosaic.Lib.ValueIdx
import Idealize.ShloMosaic.Lib.Pipeline.Value

noncomputable section

namespace Cert.KernelIdeal.Layer1
open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided once over the grid: the three row-blocked inputs and the output have block index
    (t, 0) at point t, the three resident operands (0, 0) at every point. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row p of point t's blocks is row 4000·t + p of the arrays. -/
def row (t : Fin cfg0.N) (p : Fin 4000) : Fin 100000 :=
  ⟨t.val * 4000 + p.val, by have ht := t.isLt; have hN : cfg0.N = 25 := N_0; have hp := p.isLt; omega⟩

/-! ## Each input block, read at an entry, is the array's entry on the same row -/

theorem agg_blk (c : Dev nD) (t : Fin cfg0.N) (p : Fin 4000) (k : Fin 128) :
    (iblk0 V c 0 t : Vec Ideal S4000x128 .f32) (ix2 p k) = (V c main_v29 : Vec Ideal S100000x128 .f32) (ix2 (row t p) k) := by
  obtain ⟨e0, e1, -⟩ := block_index t
  show V c main_v29 (((cfg0.win 0).blk t).view.emb (ix2 p k)) = V c main_v29 (ix2 (row t p) k)
  refine congrArg (V c main_v29) (funext fun a => Fin.ext ?_)
  match a with
  | ⟨0, _⟩ => show win0_0.index t (0 : Fin 2) * 4000 + 1 * p.val = t.val * 4000 + p.val; omega
  | ⟨1, _⟩ => show win0_0.index t (1 : Fin 2) * 128 + 1 * k.val = k.val; omega

theorem x_blk (c : Dev nD) (t : Fin cfg0.N) (p : Fin 4000) (k : Fin 128) :
    (iblk0 V c 1 t : Vec Ideal S4000x128 .f32) (ix2 p k) = (V c main_arg0 : Vec Ideal S100000x128 .f32) (ix2 (row t p) k) := by
  obtain ⟨-, -, e0, e1, -⟩ := block_index t
  show V c main_arg0 (((cfg0.win 1).blk t).view.emb (ix2 p k)) = V c main_arg0 (ix2 (row t p) k)
  refine congrArg (V c main_arg0) (funext fun a => Fin.ext ?_)
  match a with
  | ⟨0, _⟩ => show win0_1.index t (0 : Fin 2) * 4000 + 1 * p.val = t.val * 4000 + p.val; omega
  | ⟨1, _⟩ => show win0_1.index t (1 : Fin 2) * 128 + 1 * k.val = k.val; omega

theorem ci_blk (c : Dev nD) (t : Fin cfg0.N) (p : Fin 4000) :
    (iblk0 V c 2 t : Vec Ideal S4000x1 .f32) (ix2 p 0) = (V c main_v12 : Vec Ideal S100000x1 .f32) (ix2 (row t p) 0) := by
  obtain ⟨-, -, -, -, e0, e1, -⟩ := block_index t
  show V c main_v12 (((cfg0.win 2).blk t).view.emb (ix2 p 0)) = V c main_v12 (ix2 (row t p) 0)
  refine congrArg (V c main_v12) (funext fun a => Fin.ext ?_)
  match a with
  | ⟨0, _⟩ => show win0_2.index t (0 : Fin 2) * 4000 + 1 * p.val = t.val * 4000 + p.val; omega
  | ⟨1, _⟩ => show win0_2.index t (1 : Fin 2) * 1 + 1 * 0 = 0; omega

/-! ## The resident operands' one block is the whole array -/

theorem wl_blk (c : Dev nD) (t : Fin cfg0.N) :
    (iblk0 V c 3 t : Vec Ideal S128x128 .bf16) = (V c main_v13 : Vec Ideal S128x128 .bf16) := by
  obtain ⟨-, -, -, -, -, -, e0, e1, -⟩ := block_index t
  funext y
  obtain ⟨r, k, rfl⟩ : ∃ (r : Fin 128) (k : Fin 128), y = ix2 r k := ⟨y 0, y 1, eq_ix2 y⟩
  show V c main_v13 (((cfg0.win 3).blk t).view.emb (ix2 r k)) = V c main_v13 (ix2 r k)
  refine congrArg (V c main_v13) (funext fun a => Fin.ext ?_)
  match a with
  | ⟨0, _⟩ => show win0_3.index t (0 : Fin 2) * 128 + 1 * r.val = r.val; omega
  | ⟨1, _⟩ => show win0_3.index t (1 : Fin 2) * 128 + 1 * k.val = k.val; omega

theorem b_blk (c : Dev nD) (t : Fin cfg0.N) :
    (iblk0 V c 4 t : Vec Ideal S1x128 .f32) = (V c main_v30 : Vec Ideal S1x128 .f32) := by
  obtain ⟨-, -, -, -, -, -, -, -, e0, e1, -⟩ := block_index t
  funext y
  obtain ⟨r, k, rfl⟩ : ∃ (r : Fin 1) (k : Fin 128), y = ix2 r k := ⟨y 0, y 1, eq_ix2 y⟩
  show V c main_v30 (((cfg0.win 4).blk t).view.emb (ix2 r k)) = V c main_v30 (ix2 r k)
  refine congrArg (V c main_v30) (funext fun a => Fin.ext ?_)
  match a with
  | ⟨0, _⟩ => show win0_4.index t (0 : Fin 2) * 1 + 1 * r.val = r.val; omega
  | ⟨1, _⟩ => show win0_4.index t (1 : Fin 2) * 128 + 1 * k.val = k.val; omega

theorem wr_blk (c : Dev nD) (t : Fin cfg0.N) :
    (iblk0 V c 5 t : Vec Ideal S128x128 .bf16) = (V c main_v14 : Vec Ideal S128x128 .bf16) := by
  obtain ⟨-, -, -, -, -, -, -, -, -, -, e0, e1, -⟩ := block_index t
  funext y
  obtain ⟨r, k, rfl⟩ : ∃ (r : Fin 128) (k : Fin 128), y = ix2 r k := ⟨y 0, y 1, eq_ix2 y⟩
  show V c main_v14 (((cfg0.win 5).blk t).view.emb (ix2 r k)) = V c main_v14 (ix2 r k)
  refine congrArg (V c main_v14) (funext fun a => Fin.ext ?_)
  match a with
  | ⟨0, _⟩ => show win0_5.index t (0 : Fin 2) * 128 + 1 * r.val = r.val; omega
  | ⟨1, _⟩ => show win0_5.index t (1 : Fin 2) * 128 + 1 * k.val = k.val; omega

/-- Entry (p, q) of the block point t writes back sits at (4000·t + p, q) of the output array. -/
theorem out_emb (t : Fin cfg0.N) (p : Fin 4000) (q : Fin 128) :
    ((cfg0.win 6).blk t).view.emb (ix2 p q) = (ix2 (row t p) q : S100000x128.Idx) := by
  obtain ⟨-, -, -, -, -, -, -, -, -, -, -, -, e0, e1⟩ := block_index t
  refine funext fun a => Fin.ext ?_
  match a with
  | ⟨0, _⟩ => show win0_6.index t (0 : Fin 2) * 4000 + 1 * p.val = t.val * 4000 + p.val; omega
  | ⟨1, _⟩ => show win0_6.index t (1 : Fin 2) * 128 + 1 * q.val = q.val; omega

/-- WHAT POINT t WRITES BACK is block t of the layer of the arrays the launch finds. -/
theorem flushed_eq (c : Dev nD) (t : Fin cfg0.N) :
    (dat0 (F := Ideal) V c).flushed 6 t = ((cfg0.win 6).blk t).view.read (Elt Ideal)
      (Sage.layerArr (V c main_v29) (V c main_arg0) (V c main_v12) (V c main_v13) (V c main_v30) (V c main_v14)) := by
  show (cfg0.win 6).cut (grid0.coords t) ((dat0 V c).after 6 t) = _
  rw [after0_6]
  unfold out0_6
  rw [View.canon_unit_zero zero_offsets]
  simp only [View.ld_unit_zero (S := S4000x128) zero_offsets, View.ld_unit_zero (S := S128x128) zero_offsets,
    View.ld_unit_zero (S := S4000x1) zero_offsets, View.ld_unit_zero (S := S1x128) zero_offsets]
  funext j
  obtain ⟨p, q, rfl⟩ : ∃ (p : Fin 4000) (q : Fin 128), j = ix2 p q := ⟨j 0, j 1, eq_ix2 j⟩
  refine (pay_apply _ _ _ _ _ _ p q).trans ?_
  show _ = Sage.layerArr (V c main_v29) (V c main_arg0) (V c main_v12) (V c main_v13) (V c main_v30) (V c main_v14)
    (((cfg0.win 6).blk t).view.emb (ix2 p q))
  rw [out_emb t p q, wl_blk V c t, wr_blk V c t, b_blk V c t, ci_blk V c t p]
  simp only [agg_blk V c t p, x_blk V c t p]
  rfl

/-- An index of the output array is in point t's block iff each coordinate is in the block's range on its axis. -/
theorem mem_blk (t : Fin cfg0.N) (i : S100000x128.Idx) :
    i ∈ ((cfg0.win 6).blk t).view.set ↔ ∀ a : Fin 2, win0_6.index t a * S4000x128.size a ≤ (i a).val
      ∧ (i a).val < win0_6.index t a * S4000x128.size a + S4000x128.size a := by
  show i ∈ ((View.whole main_v31).slice (win0_6.rect t)).set ↔ _
  rw [View.set_slice_whole, Rect.mem_set_unit]
  exact Iff.rfl

/-- Every index of the output array is in the block of the point its row falls to: row r belongs to point r / 4000. -/
theorem covered (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 25 := N_0
  let t : Fin cfg0.N := ⟨(i 0).val / 4000, by omega⟩
  have ht : t.val = (i 0).val / 4000 := rfl
  obtain ⟨-, -, -, -, -, -, -, -, -, -, -, -, e0, e1⟩ := block_index t
  refine ⟨t, flush0_6 t, ?_⟩
  rw [mem_blk]
  intro a
  match a with
  | ⟨0, _⟩ => show win0_6.index t (0 : Fin 2) * 4000 ≤ (i 0).val ∧ (i 0).val < win0_6.index t (0 : Fin 2) * 4000 + 4000; omega
  | ⟨1, _⟩ => show win0_6.index t (1 : Fin 2) * 128 ≤ (i 1).val ∧ (i 1).val < win0_6.index t (1 : Fin 2) * 128 + 128; omega

/-- THE ARRAY after the launch: all twenty-five blocks together are the layer of the arrays the launch finds. -/
theorem final (c : Dev nD) :
    (dat0 (F := Ideal) V c).arrAt 6 cfg0.N
      = Sage.layerArr (V c main_v29) (V c main_arg0) (V c main_v12) (V c main_v13) (V c main_v30) (V c main_v14) := by
  exact (dat0 V c).arrAt_eq_of_cover 6 _ (fun t _ => flushed_eq V c t) covered

end Cert.KernelIdeal.Layer1

end
-- ==== Proof.Layer2Body.lean ====
/-
  What the second layer's kernel body stores, read at one entry: row `p`, column `q` of the block it writes is the
  positive part of the unit vector of that row's two linear maps and bias (Cert.Sage: `relu`, `unit`, `lin`), computed from
  row `p` of the neighbour-sum block and of the feature block, the row's reciprocal degree and the three resident operands.

  The second layer's arithmetic is the first layer's: the one difference is that the feature block goes through a cast of
  its shape to the same shape before it is narrowed, and such a cast is the identity. So the entry is read off the first
  layer's.
-/
import proofs.«401475_j31396210934180_3_alg».proof.Proof.Gen.KernelIdeal.Skeleton
import proofs.«401475_j31396210934180_3_alg».proof.Proof.SageRow
import proofs.«401475_j31396210934180_3_alg».proof.Proof.Layer1Body
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Layer2
open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The second layer's body is the first layer's with the feature block passed through one more cast of its shape to
    itself, which changes nothing. -/
theorem pay_eq_first (a x : Vec Ideal S4000x128 .f32) (wl wr : Vec Ideal S128x128 .bf16) (ci : Vec Ideal S4000x1 .f32)
    (b : Vec Ideal S1x128 .f32) :
    k1_pay1 (F := Ideal) a x wl wr ci b = k0_pay1 (F := Ideal) a x wl wr ci b := by
  have e : k1_pay1 (F := Ideal) a x wl wr ci b
      = k0_pay1 (F := Ideal) a (shapeCast S4000x128 x shapeCasts_S4000x128_S4000x128) wl wr ci b := rfl
  rw [e, shapeCast_self x]

theorem pay_apply (a x : Vec Ideal S4000x128 .f32) (wl wr : Vec Ideal S128x128 .bf16) (ci : Vec Ideal S4000x1 .f32)
    (b : Vec Ideal S1x128 .f32) (p : Fin 4000) (q : Fin 128) :
    k1_pay1 (F := Ideal) a x wl wr ci b (ix2 p q)
      = Sage.relu (Sage.unit (Sage.lin (fun k => a (ix2 p k)) (fun k => x (ix2 p k)) (ci (ix2 p 0)) wl wr b) q) := by
  rw [pay_eq_first]
  exact Layer1.pay_apply a x wl wr ci b p q

end Cert.KernelIdeal.Layer2

end
-- ==== Proof.Layer2Array.lean ====
/-
  The second launch's output array after all twenty-five grid points: point `t` writes rows 4000·t … 4000·t + 3999, each
  row a function of the same row of the launch's input arrays, so the whole array is `Cert.Sage.layerArr` of the arrays the
  launch finds (`V`: any buffer contents at the launch's entry).

  The steps: where each window's block sits at point `t` (the printed index maps, decided over the grid); each input
  block read at an entry as the array's entry on row 4000·t + p, the three resident operands' single block being the
  whole array; hence what point `t` writes back is block `t` of the layer; every row r lies in the block of point
  r / 4000, so the blocks cover the array.
-/
import proofs.«401475_j31396210934180_3_alg».proof.Proof.Gen.KernelIdeal.Frame
import proofs.«401475_j31396210934180_3_alg».proof.Proof.Layer2Body
import proofs.«401475_j31396210934180_3_alg».proof.Proof.SageRow
import Idealize.ShloMosaic.Lib.ValueIdx
import Idealize.ShloMosaic.Lib.Pipeline.Value

noncomputable section

namespace Cert.KernelIdeal.Layer2
open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps of the second launch, decided once over its grid: the three row-blocked inputs and the
    output have block index (t, 0) at point t, the three resident operands (0, 0) at every point. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row p of point t's blocks is row 4000·t + p of the arrays. -/
def row (t : Fin cfg1.N) (p : Fin 4000) : Fin 100000 :=
  ⟨t.val * 4000 + p.val, by have ht := t.isLt; have hN : cfg1.N = 25 := N_1; have hp := p.isLt; omega⟩

/-! ## Each input block, read at an entry, is the array's entry on the same row -/

theorem agg_blk (c : Dev nD) (t : Fin cfg1.N) (p : Fin 4000) (k : Fin 128) :
    (iblk1 V c 0 t : Vec Ideal S4000x128 .f32) (ix2 p k) = (V c main_v41 : Vec Ideal S100000x128 .f32) (ix2 (row t p) k) := by
  obtain ⟨e0, e1, -⟩ := block_index t
  show V c main_v41 (((cfg1.win 0).blk t).view.emb (ix2 p k)) = V c main_v41 (ix2 (row t p) k)
  refine congrArg (V c main_v41) (funext fun a => Fin.ext ?_)
  match a with
  | ⟨0, _⟩ => show win1_0.index t (0 : Fin 2) * 4000 + 1 * p.val = t.val * 4000 + p.val; omega
  | ⟨1, _⟩ => show win1_0.index t (1 : Fin 2) * 128 + 1 * k.val = k.val; omega

theorem x_blk (c : Dev nD) (t : Fin cfg1.N) (p : Fin 4000) (k : Fin 128) :
    (iblk1 V c 1 t : Vec Ideal S4000x128 .f32) (ix2 p k) = (V c main_v31 : Vec Ideal S100000x128 .f32) (ix2 (row t p) k) := by
  obtain ⟨-, -, e0, e1, -⟩ := block_index t
  show V c main_v31 (((cfg1.win 1).blk t).view.emb (ix2 p k)) = V c main_v31 (ix2 (row t p) k)
  refine congrArg (V c main_v31) (funext fun a => Fin.ext ?_)
  match a with
  | ⟨0, _⟩ => show win1_1.index t (0 : Fin 2) * 4000 + 1 * p.val = t.val * 4000 + p.val; omega
  | ⟨1, _⟩ => show win1_1.index t (1 : Fin 2) * 128 + 1 * k.val = k.val; omega

theorem ci_blk (c : Dev nD) (t : Fin cfg1.N) (p : Fin 4000) :
    (iblk1 V c 2 t : Vec Ideal S4000x1 .f32) (ix2 p 0) = (V c main_v12 : Vec Ideal S100000x1 .f32) (ix2 (row t p) 0) := by
  obtain ⟨-, -, -, -, e0, e1, -⟩ := block_index t
  show V c main_v12 (((cfg1.win 2).blk t).view.emb (ix2 p 0)) = V c main_v12 (ix2 (row t p) 0)
  refine congrArg (V c main_v12) (funext fun a => Fin.ext ?_)
  match a with
  | ⟨0, _⟩ => show win1_2.index t (0 : Fin 2) * 4000 + 1 * p.val = t.val * 4000 + p.val; omega
  | ⟨1, _⟩ => show win1_2.index t (1 : Fin 2) * 1 + 1 * 0 = 0; omega

/-! ## The resident operands' one block is the whole array -/

theorem wl_blk (c : Dev nD) (t : Fin cfg1.N) :
    (iblk1 V c 3 t : Vec Ideal S128x128 .bf16) = (V c main_v15 : Vec Ideal S128x128 .bf16) := by
  obtain ⟨-, -, -, -, -, -, e0, e1, -⟩ := block_index t
  funext y
  obtain ⟨r, k, rfl⟩ : ∃ (r : Fin 128) (k : Fin 128), y = ix2 r k := ⟨y 0, y 1, eq_ix2 y⟩
  show V c main_v15 (((cfg1.win 3).blk t).view.emb (ix2 r k)) = V c main_v15 (ix2 r k)
  refine congrArg (V c main_v15) (funext fun a => Fin.ext ?_)
  match a with
  | ⟨0, _⟩ => show win1_3.index t (0 : Fin 2) * 128 + 1 * r.val = r.val; omega
  | ⟨1, _⟩ => show win1_3.index t (1 : Fin 2) * 128 + 1 * k.val = k.val; omega

theorem b_blk (c : Dev nD) (t : Fin cfg1.N) :
    (iblk1 V c 4 t : Vec Ideal S1x128 .f32) = (V c main_v42 : Vec Ideal S1x128 .f32) := by
  obtain ⟨-, -, -, -, -, -, -, -, e0, e1, -⟩ := block_index t
  funext y
  obtain ⟨r, k, rfl⟩ : ∃ (r : Fin 1) (k : Fin 128), y = ix2 r k := ⟨y 0, y 1, eq_ix2 y⟩
  show V c main_v42 (((cfg1.win 4).blk t).view.emb (ix2 r k)) = V c main_v42 (ix2 r k)
  refine congrArg (V c main_v42) (funext fun a => Fin.ext ?_)
  match a with
  | ⟨0, _⟩ => show win1_4.index t (0 : Fin 2) * 1 + 1 * r.val = r.val; omega
  | ⟨1, _⟩ => show win1_4.index t (1 : Fin 2) * 128 + 1 * k.val = k.val; omega

theorem wr_blk (c : Dev nD) (t : Fin cfg1.N) :
    (iblk1 V c 5 t : Vec Ideal S128x128 .bf16) = (V c main_v16 : Vec Ideal S128x128 .bf16) := by
  obtain ⟨-, -, -, -, -, -, -, -, -, -, e0, e1, -⟩ := block_index t
  funext y
  obtain ⟨r, k, rfl⟩ : ∃ (r : Fin 128) (k : Fin 128), y = ix2 r k := ⟨y 0, y 1, eq_ix2 y⟩
  show V c main_v16 (((cfg1.win 5).blk t).view.emb (ix2 r k)) = V c main_v16 (ix2 r k)
  refine congrArg (V c main_v16) (funext fun a => Fin.ext ?_)
  match a with
  | ⟨0, _⟩ => show win1_5.index t (0 : Fin 2) * 128 + 1 * r.val = r.val; omega
  | ⟨1, _⟩ => show win1_5.index t (1 : Fin 2) * 128 + 1 * k.val = k.val; omega

/-- Entry (p, q) of the block point t writes back sits at (4000·t + p, q) of the output array. -/
theorem out_emb (t : Fin cfg1.N) (p : Fin 4000) (q : Fin 128) :
    ((cfg1.win 6).blk t).view.emb (ix2 p q) = (ix2 (row t p) q : S100000x128.Idx) := by
  obtain ⟨-, -, -, -, -, -, -, -, -, -, -, -, e0, e1⟩ := block_index t
  refine funext fun a => Fin.ext ?_
  match a with
  | ⟨0, _⟩ => show win1_6.index t (0 : Fin 2) * 4000 + 1 * p.val = t.val * 4000 + p.val; omega
  | ⟨1, _⟩ => show win1_6.index t (1 : Fin 2) * 128 + 1 * q.val = q.val; omega

/-- WHAT POINT t WRITES BACK is block t of the layer of the arrays the launch finds. -/
theorem flushed_eq (c : Dev nD) (t : Fin cfg1.N) :
    (dat1 (F := Ideal) V c).flushed 6 t = ((cfg1.win 6).blk t).view.read (Elt Ideal)
      (Sage.layerArr (V c main_v41) (V c main_v31) (V c main_v12) (V c main_v15) (V c main_v42) (V c main_v16)) := by
  show (cfg1.win 6).cut (grid1.coords t) ((dat1 V c).after 6 t) = _
  rw [after1_6]
  unfold out1_6
  rw [View.canon_unit_zero zero_offsets]
  simp only [View.ld_unit_zero (S := S4000x128) zero_offsets, View.ld_unit_zero (S := S128x128) zero_offsets,
    View.ld_unit_zero (S := S4000x1) zero_offsets, View.ld_unit_zero (S := S1x128) zero_offsets]
  funext j
  obtain ⟨p, q, rfl⟩ : ∃ (p : Fin 4000) (q : Fin 128), j = ix2 p q := ⟨j 0, j 1, eq_ix2 j⟩
  refine (pay_apply _ _ _ _ _ _ p q).trans ?_
  show _ = Sage.layerArr (V c main_v41) (V c main_v31) (V c main_v12) (V c main_v15) (V c main_v42) (V c main_v16)
    (((cfg1.win 6).blk t).view.emb (ix2 p q))
  rw [out_emb t p q, wl_blk V c t, wr_blk V c t, b_blk V c t, ci_blk V c t p]
  simp only [agg_blk V c t p, x_blk V c t p]
  rfl

/-- An index of the output array is in point t's block iff each coordinate is in the block's range on its axis. -/
theorem mem_blk (t : Fin cfg1.N) (i : S100000x128.Idx) :
    i ∈ ((cfg1.win 6).blk t).view.set ↔ ∀ a : Fin 2, win1_6.index t a * S4000x128.size a ≤ (i a).val
      ∧ (i a).val < win1_6.index t a * S4000x128.size a + S4000x128.size a := by
  show i ∈ ((View.whole main_v43).slice (win1_6.rect t)).set ↔ _
  rw [View.set_slice_whole, Rect.mem_set_unit]
  exact Iff.rfl

/-- Every index of the output array is in the block of the point its row falls to: row r belongs to point r / 4000. -/
theorem covered (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 25 := N_1
  let t : Fin cfg1.N := ⟨(i 0).val / 4000, by omega⟩
  have ht : t.val = (i 0).val / 4000 := rfl
  obtain ⟨-, -, -, -, -, -, -, -, -, -, -, -, e0, e1⟩ := block_index t
  refine ⟨t, flush1_6 t, ?_⟩
  rw [mem_blk]
  intro a
  match a with
  | ⟨0, _⟩ => show win1_6.index t (0 : Fin 2) * 4000 ≤ (i 0).val ∧ (i 0).val < win1_6.index t (0 : Fin 2) * 4000 + 4000; omega
  | ⟨1, _⟩ => show win1_6.index t (1 : Fin 2) * 128 ≤ (i 1).val ∧ (i 1).val < win1_6.index t (1 : Fin 2) * 128 + 128; omega

/-- THE ARRAY after the launch: all twenty-five blocks together are the layer of the arrays the launch finds. -/
theorem final (c : Dev nD) :
    (dat1 (F := Ideal) V c).arrAt 6 cfg1.N
      = Sage.layerArr (V c main_v41) (V c main_v31) (V c main_v12) (V c main_v15) (V c main_v42) (V c main_v16) := by
  exact (dat1 V c).arrAt_eq_of_cover 6 _ (fun t _ => flushed_eq V c t) covered

end Cert.KernelIdeal.Layer2

end
-- ==== Proof.LibColumn.lean ====
/-
  A column vector made from a vector and spread over the columns of a matrix, read at an index.

  `keepdims` reductions leave a vector `[a]` that is first given a trailing unit axis, `[a, 1]`,
  and then broadcast along it to `[a, b]`. Read at `(p, c)` the result is the vector at `p`:
  the shape cast keeps the row-major position (`p * 1 + 0 = p`), and the broadcast reads a
  unit axis at `0` whatever the column.
-/
import Idealize.ShloMosaic.Lib.Pipeline.Value
import Idealize.ShloMosaic.Lib.ValueIdx

noncomputable section

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector as a column, spread over `b` columns, reads at `(p, c)` the vector at `p`. -/
theorem column_spread_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Idealize.ShloMosaic.ValueIdx

end
-- ==== Proof.HeadBody.lean ====
/-
  What the last kernel body stores, read at one entry: row `p`, class `j` of the block it writes is the softmax of
  the forty logits of the unit vector of that row's two linear maps and bias (Cert.Sage: `softmax`, `logit`, `unit`, `lin`).

  The body is read in four stretches, each stated over a variable block so that it can be cited at any operand:
  the vector before normalisation (two products against 128 × 128 matrices contracted along the second axis of
  both operands, the first scaled by the row's reciprocal degree, plus the bias row), its division by the row's
  clamped Euclidean length, the classifier's product against the 40 × 128 matrix plus its bias row, and the
  softmax against the row's greatest logit. Sums and the maximum along a row are sums and a fold over the row's
  entries; a per-row value kept as a column and spread back over the row is that row's value at every column.
-/
import proofs.«401475_j31396210934180_3_alg».proof.Proof.Gen.KernelIdeal.Skeleton
import proofs.«401475_j31396210934180_3_alg».proof.Proof.SageRow
import proofs.«401475_j31396210934180_3_alg».proof.Proof.LibColumn
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Head
open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The two square linear maps: a product against a 128 × 128 matrix, contracted along both operands' second axis -/

theorem lhs_sq_0 (i : S4000x128.Idx) (q : dot_S4000x128_S128x128_S4000x128_1_1_0_0_n_n.contr.Idx) :
    (dot_S4000x128_S128x128_S4000x128_1_1_0_0_n_n.lhsIdx i q 0).val = (i 0).val := by
  unfold DotDims.lhsIdx
  rw [dif_neg (show ¬(0 : Fin S4000x128.rank) ∈ dot_S4000x128_S128x128_S4000x128_1_1_0_0_n_n.lhsBatch by decide), dif_pos (show (0 : Fin S4000x128.rank) ∈ dot_S4000x128_S128x128_S4000x128_1_1_0_0_n_n.lhsNonContracting by decide)]
  rfl
theorem lhs_sq_1 (i : S4000x128.Idx) (q : dot_S4000x128_S128x128_S4000x128_1_1_0_0_n_n.contr.Idx) :
    (dot_S4000x128_S128x128_S4000x128_1_1_0_0_n_n.lhsIdx i q 1).val = (q ⟨0, by decide⟩).val :=
  dot_S4000x128_S128x128_S4000x128_1_1_0_0_n_n.lhsIdx_val_of_single rfl i q
theorem rhs_sq_0 (i : S4000x128.Idx) (q : dot_S4000x128_S128x128_S4000x128_1_1_0_0_n_n.contr.Idx) :
    (dot_S4000x128_S128x128_S4000x128_1_1_0_0_n_n.rhsIdx i q 0).val = (i 1).val := by
  unfold DotDims.rhsIdx
  rw [dif_neg (show ¬(0 : Fin S128x128.rank) ∈ dot_S4000x128_S128x128_S4000x128_1_1_0_0_n_n.rhsBatch by decide), dif_pos (show (0 : Fin S128x128.rank) ∈ dot_S4000x128_S128x128_S4000x128_1_1_0_0_n_n.rhsNonContracting by decide)]
  rfl
theorem rhs_sq_1 (i : S4000x128.Idx) (q : dot_S4000x128_S128x128_S4000x128_1_1_0_0_n_n.contr.Idx) :
    (dot_S4000x128_S128x128_S4000x128_1_1_0_0_n_n.rhsIdx i q 1).val = (q ⟨0, by decide⟩).val :=
  dot_S4000x128_S128x128_S4000x128_1_1_0_0_n_n.rhsIdx_val_of_single rfl i q

/-- Entry (p, q) of the product into a zero accumulator: row p of the left operand against row q of the matrix. -/
theorem matmul_sq_apply (l : FVec Ideal S4000x128 .bf16) (r : FVec Ideal S128x128 .bf16) (p : Fin 4000) (q : Fin 128) :
    matmul dot_S4000x128_S128x128_S4000x128_1_1_0_0_n_n none l r (constant S4000x128 .f32 0x00000000#32) (ix2 p q)
      = ∑ k : Fin 128, l (ix2 p k) * r (ix2 q k) := by
  simp only [matmul]
  rw [Ideal.matmul_constant_zero_apply, ← Equiv.sum_comp (ValueIdx.contrEquiv1 dot_S4000x128_S128x128_S4000x128_1_1_0_0_n_n 128 rfl rfl).symm]
  refine Finset.sum_congr rfl fun k _ => ?_
  have hk := ValueIdx.contrEquiv1_symm_val dot_S4000x128_S128x128_S4000x128_1_1_0_0_n_n 128 rfl rfl k
  have el : dot_S4000x128_S128x128_S4000x128_1_1_0_0_n_n.lhsIdx (ix2 p q) ((ValueIdx.contrEquiv1 dot_S4000x128_S128x128_S4000x128_1_1_0_0_n_n 128 rfl rfl).symm k) = ix2 p k := funext fun a => Fin.ext (by
    match a with
    | ⟨0, _⟩ => exact lhs_sq_0 _ _
    | ⟨1, _⟩ => exact (lhs_sq_1 _ _).trans hk)
  have er : dot_S4000x128_S128x128_S4000x128_1_1_0_0_n_n.rhsIdx (ix2 p q) ((ValueIdx.contrEquiv1 dot_S4000x128_S128x128_S4000x128_1_1_0_0_n_n 128 rfl rfl).symm k) = ix2 q k := funext fun a => Fin.ext (by
    match a with
    | ⟨0, _⟩ => exact rhs_sq_0 _ _
    | ⟨1, _⟩ => exact (rhs_sq_1 _ _).trans hk)
  rw [el, er]

/-! ## The classifier: a product against a 40 × 128 matrix, contracted along both operands' second axis -/

theorem lhs_fc_0 (i : S4000x40.Idx) (q : dot_S4000x128_S40x128_S4000x40_1_1_0_0_n_n.contr.Idx) :
    (dot_S4000x128_S40x128_S4000x40_1_1_0_0_n_n.lhsIdx i q 0).val = (i 0).val := by
  unfold DotDims.lhsIdx
  rw [dif_neg (show ¬(0 : Fin S4000x128.rank) ∈ dot_S4000x128_S40x128_S4000x40_1_1_0_0_n_n.lhsBatch by decide), dif_pos (show (0 : Fin S4000x128.rank) ∈ dot_S4000x128_S40x128_S4000x40_1_1_0_0_n_n.lhsNonContracting by decide)]
  rfl
theorem lhs_fc_1 (i : S4000x40.Idx) (q : dot_S4000x128_S40x128_S4000x40_1_1_0_0_n_n.contr.Idx) :
    (dot_S4000x128_S40x128_S4000x40_1_1_0_0_n_n.lhsIdx i q 1).val = (q ⟨0, by decide⟩).val :=
  dot_S4000x128_S40x128_S4000x40_1_1_0_0_n_n.lhsIdx_val_of_single rfl i q
theorem rhs_fc_0 (i : S4000x40.Idx) (q : dot_S4000x128_S40x128_S4000x40_1_1_0_0_n_n.contr.Idx) :
    (dot_S4000x128_S40x128_S4000x40_1_1_0_0_n_n.rhsIdx i q 0).val = (i 1).val := by
  unfold DotDims.rhsIdx
  rw [dif_neg (show ¬(0 : Fin S40x128.rank) ∈ dot_S4000x128_S40x128_S4000x40_1_1_0_0_n_n.rhsBatch by decide), dif_pos (show (0 : Fin S40x128.rank) ∈ dot_S4000x128_S40x128_S4000x40_1_1_0_0_n_n.rhsNonContracting by decide)]
  rfl
theorem rhs_fc_1 (i : S4000x40.Idx) (q : dot_S4000x128_S40x128_S4000x40_1_1_0_0_n_n.contr.Idx) :
    (dot_S4000x128_S40x128_S4000x40_1_1_0_0_n_n.rhsIdx i q 1).val = (q ⟨0, by decide⟩).val :=
  dot_S4000x128_S40x128_S4000x40_1_1_0_0_n_n.rhsIdx_val_of_single rfl i q

/-- Entry (p, j) of the product into a zero accumulator: row p of the left operand against row j of the matrix. -/
theorem matmul_fc_apply (l : FVec Ideal S4000x128 .bf16) (r : FVec Ideal S40x128 .bf16) (p : Fin 4000) (j : Fin 40) :
    matmul dot_S4000x128_S40x128_S4000x40_1_1_0_0_n_n none l r (constant S4000x40 .f32 0x00000000#32) (ix2 p j)
      = ∑ k : Fin 128, l (ix2 p k) * r (ix2 j k) := by
  simp only [matmul]
  rw [Ideal.matmul_constant_zero_apply, ← Equiv.sum_comp (ValueIdx.contrEquiv1 dot_S4000x128_S40x128_S4000x40_1_1_0_0_n_n 128 rfl rfl).symm]
  refine Finset.sum_congr rfl fun k _ => ?_
  have hk := ValueIdx.contrEquiv1_symm_val dot_S4000x128_S40x128_S4000x40_1_1_0_0_n_n 128 rfl rfl k
  have el : dot_S4000x128_S40x128_S4000x40_1_1_0_0_n_n.lhsIdx (ix2 p j) ((ValueIdx.contrEquiv1 dot_S4000x128_S40x128_S4000x40_1_1_0_0_n_n 128 rfl rfl).symm k) = ix2 p k := funext fun a => Fin.ext (by
    match a with
    | ⟨0, _⟩ => exact lhs_fc_0 _ _
    | ⟨1, _⟩ => exact (lhs_fc_1 _ _).trans hk)
  have er : dot_S4000x128_S40x128_S4000x40_1_1_0_0_n_n.rhsIdx (ix2 p j) ((ValueIdx.contrEquiv1 dot_S4000x128_S40x128_S4000x40_1_1_0_0_n_n 128 rfl rfl).symm k) = ix2 j k := funext fun a => Fin.ext (by
    match a with
    | ⟨0, _⟩ => exact rhs_fc_0 _ _
    | ⟨1, _⟩ => exact (rhs_fc_1 _ _).trans hk)
  rw [el, er]

/-! ## Sums and maxima along a row -/

/-- The index of a row's entry k, as the reduction along the second axis inserts it. -/
theorem lift_row {m n : Nat} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- The sum along the second axis, read at row p, is the sum of that row's entries. -/
theorem rowsum_apply {m n : Nat} (v : FVec Ideal ⟨2, ![m, n]⟩ .f32) (h : (⟨2, ![m, n]⟩ : Shape).Reduces [1] (⟨1, ![m]⟩ : Shape))
    (hφ : FKind.Formats .f32) (hacc : (0x00000000#32 : BitVec 32) = FKind.add.neutral .f32 hφ) (p : Fin m) :
    multiReduction (F := Ideal) .add [1] (⟨1, ![m]⟩ : Shape) v 0x00000000#32 h hφ hacc (ix1 p) = ∑ k : Fin n, v (ix2 p k) :=
  (Ideal.multiReduction_add_single v 0x00000000#32 h hφ hacc (ix1 p)).trans
    (Finset.sum_congr rfl fun k _ => congrArg v (lift_row h p k))

/-- The maximum along the second axis, read at row p, is the fold of max from the least value over that row's entries. -/
theorem rowmax_apply {m n : Nat} (v : FVec Ideal ⟨2, ![m, n]⟩ .f32) (h : (⟨2, ![m, n]⟩ : Shape).Reduces [1] (⟨1, ![m]⟩ : Shape))
    (hφ : FKind.Formats .f32) (hacc : (0xFF800000#32 : BitVec 32) = FKind.maximumf.neutral .f32 hφ) (p : Fin m) :
    multiReduction (F := Ideal) .maximumf [1] (⟨1, ![m]⟩ : Shape) v 0xFF800000#32 h hφ hacc (ix1 p)
      = (Finset.univ : Finset (Fin n)).fold max (Ideal.ofBits .f32 0xFF800000#32) (fun k => v (ix2 p k)) :=
  (Ideal.multiReduction_maximumf_single v 0xFF800000#32 h hφ hacc (ix1 p)).trans
    (congrArg (fun f => Finset.fold max (Ideal.ofBits .f32 0xFF800000#32) f (Finset.univ : Finset (Fin n)))
      (funext fun k => congrArg v (lift_row h p k)))

/-! ## The pointwise transcendental operations at an index -/

theorem sqrt_at {s : Shape} (v : FVec Ideal s .f32) (i : s.Idx) : sqrt v i = Ideal.sqrt (v i) := rfl
theorem exp_at {s : Shape} (v : FVec Ideal s .f32) (i : s.Idx) : exp v i = Ideal.exp (v i) := rfl

/-! ## The four stretches of the body, each over a variable block -/

/-- The vector before normalisation at (p, q): row p of the neighbour sums through W_l, scaled by the row's reciprocal
    degree, plus the bias, plus row p of the features through W_r. -/
theorem lin_block (a x : FVec Ideal S4000x128 .f32) (wl wr : FVec Ideal S128x128 .bf16) (ci : FVec Ideal S4000x1 .f32) (b : FVec Ideal S1x128 .f32)
    (hA : S4000x128.ShapeCasts S4000x128) (hW : S128x128.ShapeCasts S128x128) (hC : S4000x1.ShapeCasts S4000x1) (hB : S1x128.ShapeCasts S1x128)
    (hlt : FTy.bits .bf16 < FTy.bits .f32) (hbc : S4000x1.Broadcasts S4000x128) (hbr : S1x128.Broadcasts S4000x128) (p : Fin 4000) (q : Fin 128) :
    addf (addf (mulf (matmul dot_S4000x128_S128x128_S4000x128_1_1_0_0_n_n none (truncf .bf16 (shapeCast S4000x128 a hA) hlt) (shapeCast S128x128 wl hW) (constant S4000x128 .f32 0x00000000#32))
                     (broadcastTo S4000x128 (shapeCast S4000x1 ci hC) hbc))
               (broadcastTo S4000x128 (shapeCast S1x128 b hB) hbr))
         (matmul dot_S4000x128_S128x128_S4000x128_1_1_0_0_n_n none (truncf .bf16 (shapeCast S4000x128 x hA) hlt) (shapeCast S128x128 wr hW) (constant S4000x128 .f32 0x00000000#32)) (ix2 p q)
      = Sage.lin (fun k => a (ix2 p k)) (fun k => x (ix2 p k)) (ci (ix2 p 0)) wl wr b q := by
  rw [addf_apply, addf_apply, mulf_apply, matmul_sq_apply, matmul_sq_apply, broadcastTo_a1_ab_apply, broadcastTo_1b_ab_apply]
  simp only [shapeCast_self, truncf_apply]
  rfl

/-- The normalised vector at (p, q): entry q of row p over the row's Euclidean length, the length clamped below. -/
theorem unit_block (o : FVec Ideal S4000x128 .f32) (hr : S4000x128.Reduces [1] S4000) (hφ : FKind.Formats .f32)
    (had : (0x00000000#32 : BitVec 32) = FKind.add.neutral .f32 hφ) (hc : S4000.ShapeCasts S4000x1) (hb : S4000x1.Broadcasts S4000x128)
    (p : Fin 4000) (q : Fin 128) :
    divf o (broadcastTo S4000x128 (maximumf (sqrt (shapeCast S4000x1 (multiReduction .add [1] S4000 (mulf o o) 0x00000000#32 hr hφ had) hc))
        (broadcast S4000x1 (Scalar.ofBits .f32 0x2B8CBCCC#32))) hb) (ix2 p q)
      = Sage.unit (fun k => o (ix2 p k)) q := by
  rw [divf_apply, broadcastTo_a1_ab_apply, maximumf_apply, broadcast_apply, sqrt_at, shapeCast_a_a1_apply, rowsum_apply]
  rfl

/-- The logits at (p, j): row p of the unit vectors against row j of W_fc, plus the bias. -/
theorem logit_block (h : FVec Ideal S4000x128 .f32) (wfc : FVec Ideal S40x128 .bf16) (bfc : FVec Ideal S1x40 .f32)
    (hlt : FTy.bits .bf16 < FTy.bits .f32) (hW : S40x128.ShapeCasts S40x128) (hB : S1x40.ShapeCasts S1x40) (hbr : S1x40.Broadcasts S4000x40)
    (p : Fin 4000) (j : Fin 40) :
    addf (matmul dot_S4000x128_S40x128_S4000x40_1_1_0_0_n_n none (truncf .bf16 h hlt) (shapeCast S40x128 wfc hW) (constant S4000x40 .f32 0x00000000#32))
         (broadcastTo S4000x40 (shapeCast S1x40 bfc hB) hbr) (ix2 p j)
      = Sage.logit (fun k => h (ix2 p k)) wfc bfc j := by
  rw [addf_apply, matmul_fc_apply, broadcastTo_1b_ab_apply]
  simp only [shapeCast_self, truncf_apply]
  rfl

/-- The row maximum, spread back over the row, at (p, j). -/
theorem rowmax_block (z : FVec Ideal S4000x40 .f32) (hr : S4000x40.Reduces [1] S4000) (hφ : FKind.Formats .f32)
    (hmx : (0xFF800000#32 : BitVec 32) = FKind.maximumf.neutral .f32 hφ) (hc : S4000.ShapeCasts S4000x1) (hb : S4000x1.Broadcasts S4000x40)
    (p : Fin 4000) (j : Fin 40) :
    broadcastTo S4000x40 (shapeCast S4000x1 (multiReduction .maximumf [1] S4000 z 0xFF800000#32 hr hφ hmx) hc) hb (ix2 p j)
      = Sage.rowmax (fun j' => z (ix2 p j')) :=
  (column_spread_apply _ hc hb p j).trans (rowmax_apply z hr hφ hmx p)

/-- The softmax at (p, j): the exponential of the logit less the row's greatest, over the row's sum of such exponentials. -/
theorem softmax_block (z : FVec Ideal S4000x40 .f32) (hr : S4000x40.Reduces [1] S4000) (hφ : FKind.Formats .f32)
    (hmx : (0xFF800000#32 : BitVec 32) = FKind.maximumf.neutral .f32 hφ) (had : (0x00000000#32 : BitVec 32) = FKind.add.neutral .f32 hφ)
    (hc : S4000.ShapeCasts S4000x1) (hb : S4000x1.Broadcasts S4000x40) (p : Fin 4000) (j : Fin 40) :
    divf (exp (subf z (broadcastTo S4000x40 (shapeCast S4000x1 (multiReduction .maximumf [1] S4000 z 0xFF800000#32 hr hφ hmx) hc) hb)))
        (broadcastTo S4000x40 (shapeCast S4000x1 (multiReduction .add [1] S4000
          (exp (subf z (broadcastTo S4000x40 (shapeCast S4000x1 (multiReduction .maximumf [1] S4000 z 0xFF800000#32 hr hφ hmx) hc) hb)))
          0x00000000#32 hr hφ had) hc) hb) (ix2 p j)
      = Sage.softmax (fun j' => z (ix2 p j')) j := by
  rw [divf_apply, column_spread_apply, rowsum_apply]
  exact congrArg₂ Ideal.div
    (congrArg (fun m => Ideal.exp (z (ix2 p j) - m)) (rowmax_block z hr hφ hmx hc hb p j))
    (Finset.sum_congr rfl fun k _ => congrArg (fun m => Ideal.exp (z (ix2 p k) - m)) (rowmax_block z hr hφ hmx hc hb p k))

/-! ## The body's two payloads at an index -/

/-- The logits the first part of the body computes, at (p, j). -/
theorem pay2_apply (a x : Vec Ideal S4000x128 .f32) (wl wr : Vec Ideal S128x128 .bf16) (ci : Vec Ideal S4000x1 .f32)
    (b : Vec Ideal S1x128 .f32) (wfc : Vec Ideal S40x128 .bf16) (bfc : Vec Ideal S1x40 .f32) (p : Fin 4000) (j : Fin 40) :
    k2_pay2 (F := Ideal) a x wl wr ci b wfc bfc (ix2 p j)
      = Sage.logit (Sage.unit (Sage.lin (fun k => a (ix2 p k)) (fun k => x (ix2 p k)) (ci (ix2 p 0)) wl wr b)) wfc bfc j := by
  unfold k2_pay2
  refine (logit_block _ wfc bfc _ _ _ _ p j).trans ?_
  refine congrArg (fun f => Sage.logit f wfc bfc j) (funext fun k => ?_)
  refine (unit_block _ _ _ _ _ _ p k).trans ?_
  refine congrArg (fun f => Sage.unit f k) (funext fun k' => ?_)
  exact lin_block a x wl wr ci b _ _ _ _ _ _ _ p k'

/-- The softmax the second part of the body applies to a block of logits, at (p, j). -/
theorem pay1_apply (z : FVec Ideal S4000x40 .f32) (p : Fin 4000) (j : Fin 40) :
    k2_pay1 (F := Ideal) z (ix2 p j) = Sage.softmax (fun j' => z (ix2 p j')) j := by
  unfold k2_pay1
  exact softmax_block z _ _ _ _ _ _ p j

theorem pay_apply (a x : Vec Ideal S4000x128 .f32) (wl wr : Vec Ideal S128x128 .bf16) (ci : Vec Ideal S4000x1 .f32)
    (b : Vec Ideal S1x128 .f32) (wfc : Vec Ideal S40x128 .bf16) (bfc : Vec Ideal S1x40 .f32) (p : Fin 4000) (j : Fin 40) :
    k2_pay1 (F := Ideal) (k2_pay2 (F := Ideal) a x wl wr ci b wfc bfc) (ix2 p j)
      = Sage.softmax (Sage.logit (Sage.unit (Sage.lin (fun k => a (ix2 p k)) (fun k => x (ix2 p k)) (ci (ix2 p 0)) wl wr b)) wfc bfc) j :=
  (pay1_apply _ p j).trans
    (congrArg (fun z => Sage.softmax z j) (funext fun j' => pay2_apply a x wl wr ci b wfc bfc p j'))

end Cert.KernelIdeal.Head

end
-- ==== Proof.HeadArray.lean ====
/-
  The last launch's output array after all twenty-five grid points: point `t` writes rows 4000·t … 4000·t + 3999, each
  row a function of the same row of the launch's input arrays, so the whole array is `Cert.Sage.headArr` of the arrays the
  launch finds (`V`: any buffer contents at the launch's entry).
-/
import proofs.«401475_j31396210934180_3_alg».proof.Proof.Gen.KernelIdeal.Frame
import proofs.«401475_j31396210934180_3_alg».proof.Proof.HeadBody
import proofs.«401475_j31396210934180_3_alg».proof.Proof.SageRow
import Idealize.ShloMosaic.Lib.ValueIdx
import Idealize.ShloMosaic.Lib.Pipeline.Value

noncomputable section

namespace Cert.KernelIdeal.Head
open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The index maps, decided once over the twenty-five points -/

theorem hz : (![0, 0] : Fin 2 → Nat) = fun _ => 0 := funext fun a => by fin_cases a <;> rfl

/-- The four windows that move with the rows (neighbour sums, features, reciprocal degrees, the output) are at block
    (t, 0) at point t; the five that hold weights and biases stay at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 :=
  (by decide +kernel : ∀ t : Fin grid2.N, _)

/-! ## Each input block, read where the output's block says

A block's coordinate is always block index × block size + 1 × the coordinate inside the block: row p of a row
window's block at point t is row 4000·t + p of its array, and a weight's one block is its whole array. -/

theorem blk0_apply (c : Dev nD) (t : Fin cfg2.N) (p : Fin 4000) (k : Fin 128) (r : Fin 100000) (hr : r.val = 4000 * t.val + p.val) :
    (iblk2 V c 0 t : Vec Ideal S4000x128 .f32) (ix2 p k) = (V c main_v53 : S100000x128.Idx → EReal) (ix2 r k) := by
  obtain ⟨e00, e01, e10, e11, e20, e21, e30, e31, e40, e41, e50, e51, e60, e61, e70, e71, e80, e81⟩ := idx_facts t
  show (V c main_v53 : S100000x128.Idx → EReal) (((cfg2.win 0).blk t).view.emb (ix2 p k)) = _
  refine congrArg (V c main_v53 : S100000x128.Idx → EReal) (funext fun a => Fin.ext ?_)
  match a with
  | ⟨0, _⟩ => show win2_0.index t (0 : Fin 2) * 4000 + 1 * p.val = r.val; rw [e00, hr]; omega
  | ⟨1, _⟩ => show win2_0.index t (1 : Fin 2) * 128 + 1 * k.val = k.val; rw [e01]; omega

theorem blk1_apply (c : Dev nD) (t : Fin cfg2.N) (p : Fin 4000) (k : Fin 128) (r : Fin 100000) (hr : r.val = 4000 * t.val + p.val) :
    (iblk2 V c 1 t : Vec Ideal S4000x128 .f32) (ix2 p k) = (V c main_v43 : S100000x128.Idx → EReal) (ix2 r k) := by
  obtain ⟨e00, e01, e10, e11, e20, e21, e30, e31, e40, e41, e50, e51, e60, e61, e70, e71, e80, e81⟩ := idx_facts t
  show (V c main_v43 : S100000x128.Idx → EReal) (((cfg2.win 1).blk t).view.emb (ix2 p k)) = _
  refine congrArg (V c main_v43 : S100000x128.Idx → EReal) (funext fun a => Fin.ext ?_)
  match a with
  | ⟨0, _⟩ => show win2_1.index t (0 : Fin 2) * 4000 + 1 * p.val = r.val; rw [e10, hr]; omega
  | ⟨1, _⟩ => show win2_1.index t (1 : Fin 2) * 128 + 1 * k.val = k.val; rw [e11]; omega

theorem blk2_apply (c : Dev nD) (t : Fin cfg2.N) (p : Fin 4000) (k : Fin 1) (r : Fin 100000) (hr : r.val = 4000 * t.val + p.val) :
    (iblk2 V c 2 t : Vec Ideal S4000x1 .f32) (ix2 p k) = (V c main_v12 : S100000x1.Idx → EReal) (ix2 r k) := by
  obtain ⟨e00, e01, e10, e11, e20, e21, e30, e31, e40, e41, e50, e51, e60, e61, e70, e71, e80, e81⟩ := idx_facts t
  show (V c main_v12 : S100000x1.Idx → EReal) (((cfg2.win 2).blk t).view.emb (ix2 p k)) = _
  refine congrArg (V c main_v12 : S100000x1.Idx → EReal) (funext fun a => Fin.ext ?_)
  match a with
  | ⟨0, _⟩ => show win2_2.index t (0 : Fin 2) * 4000 + 1 * p.val = r.val; rw [e20, hr]; omega
  | ⟨1, _⟩ => show win2_2.index t (1 : Fin 2) * 1 + 1 * k.val = k.val; rw [e21]; omega

theorem blk3_eq (c : Dev nD) (t : Fin cfg2.N) :
    (iblk2 V c 3 t : Vec Ideal S128x128 .bf16) = (V c main_v17 : S128x128.Idx → EReal) := by
  obtain ⟨e00, e01, e10, e11, e20, e21, e30, e31, e40, e41, e50, e51, e60, e61, e70, e71, e80, e81⟩ := idx_facts t
  funext y
  obtain ⟨u, v, rfl⟩ : ∃ (u : Fin 128) (v : Fin 128), y = ix2 u v := ⟨y 0, y 1, eq_ix2 y⟩
  show (V c main_v17 : S128x128.Idx → EReal) (((cfg2.win 3).blk t).view.emb (ix2 u v)) = _
  refine congrArg (V c main_v17 : S128x128.Idx → EReal) (funext fun a => Fin.ext ?_)
  match a with
  | ⟨0, _⟩ => show win2_3.index t (0 : Fin 2) * 128 + 1 * u.val = u.val; rw [e30]; omega
  | ⟨1, _⟩ => show win2_3.index t (1 : Fin 2) * 128 + 1 * v.val = v.val; rw [e31]; omega

theorem blk4_eq (c : Dev nD) (t : Fin cfg2.N) :
    (iblk2 V c 4 t : Vec Ideal S1x128 .f32) = (V c main_v54 : S1x128.Idx → EReal) := by
  obtain ⟨e00, e01, e10, e11, e20, e21, e30, e31, e40, e41, e50, e51, e60, e61, e70, e71, e80, e81⟩ := idx_facts t
  funext y
  obtain ⟨u, v, rfl⟩ : ∃ (u : Fin 1) (v : Fin 128), y = ix2 u v := ⟨y 0, y 1, eq_ix2 y⟩
  show (V c main_v54 : S1x128.Idx → EReal) (((cfg2.win 4).blk t).view.emb (ix2 u v)) = _
  refine congrArg (V c main_v54 : S1x128.Idx → EReal) (funext fun a => Fin.ext ?_)
  match a with
  | ⟨0, _⟩ => show win2_4.index t (0 : Fin 2) * 1 + 1 * u.val = u.val; rw [e40]; omega
  | ⟨1, _⟩ => show win2_4.index t (1 : Fin 2) * 128 + 1 * v.val = v.val; rw [e41]; omega

theorem blk5_eq (c : Dev nD) (t : Fin cfg2.N) :
    (iblk2 V c 5 t : Vec Ideal S128x128 .bf16) = (V c main_v18 : S128x128.Idx → EReal) := by
  obtain ⟨e00, e01, e10, e11, e20, e21, e30, e31, e40, e41, e50, e51, e60, e61, e70, e71, e80, e81⟩ := idx_facts t
  funext y
  obtain ⟨u, v, rfl⟩ : ∃ (u : Fin 128) (v : Fin 128), y = ix2 u v := ⟨y 0, y 1, eq_ix2 y⟩
  show (V c main_v18 : S128x128.Idx → EReal) (((cfg2.win 5).blk t).view.emb (ix2 u v)) = _
  refine congrArg (V c main_v18 : S128x128.Idx → EReal) (funext fun a => Fin.ext ?_)
  match a with
  | ⟨0, _⟩ => show win2_5.index t (0 : Fin 2) * 128 + 1 * u.val = u.val; rw [e50]; omega
  | ⟨1, _⟩ => show win2_5.index t (1 : Fin 2) * 128 + 1 * v.val = v.val; rw [e51]; omega

theorem blk6_eq (c : Dev nD) (t : Fin cfg2.N) :
    (iblk2 V c 6 t : Vec Ideal S40x128 .bf16) = (V c main_v19 : S40x128.Idx → EReal) := by
  obtain ⟨e00, e01, e10, e11, e20, e21, e30, e31, e40, e41, e50, e51, e60, e61, e70, e71, e80, e81⟩ := idx_facts t
  funext y
  obtain ⟨u, v, rfl⟩ : ∃ (u : Fin 40) (v : Fin 128), y = ix2 u v := ⟨y 0, y 1, eq_ix2 y⟩
  show (V c main_v19 : S40x128.Idx → EReal) (((cfg2.win 6).blk t).view.emb (ix2 u v)) = _
  refine congrArg (V c main_v19 : S40x128.Idx → EReal) (funext fun a => Fin.ext ?_)
  match a with
  | ⟨0, _⟩ => show win2_6.index t (0 : Fin 2) * 40 + 1 * u.val = u.val; rw [e60]; omega
  | ⟨1, _⟩ => show win2_6.index t (1 : Fin 2) * 128 + 1 * v.val = v.val; rw [e61]; omega

theorem blk7_eq (c : Dev nD) (t : Fin cfg2.N) :
    (iblk2 V c 7 t : Vec Ideal S1x40 .f32) = (V c main_v55 : S1x40.Idx → EReal) := by
  obtain ⟨e00, e01, e10, e11, e20, e21, e30, e31, e40, e41, e50, e51, e60, e61, e70, e71, e80, e81⟩ := idx_facts t
  funext y
  obtain ⟨u, v, rfl⟩ : ∃ (u : Fin 1) (v : Fin 40), y = ix2 u v := ⟨y 0, y 1, eq_ix2 y⟩
  show (V c main_v55 : S1x40.Idx → EReal) (((cfg2.win 7).blk t).view.emb (ix2 u v)) = _
  refine congrArg (V c main_v55 : S1x40.Idx → EReal) (funext fun a => Fin.ext ?_)
  match a with
  | ⟨0, _⟩ => show win2_7.index t (0 : Fin 2) * 1 + 1 * u.val = u.val; rw [e70]; omega
  | ⟨1, _⟩ => show win2_7.index t (1 : Fin 2) * 40 + 1 * v.val = v.val; rw [e71]; omega

/-! ## What point t writes back -/

/-- The row function of equal rows, weights and biases is equal. -/
theorem head_congr {a a' x x' : Fin 128 → EReal} {ci ci' : EReal} {wl wl' wr wr' : Sage.Sq.Idx → EReal} {b b' : Sage.RowV.Idx → EReal}
    {wfc wfc' : Sage.Fc.Idx → EReal} {bfc bfc' : Sage.RowC.Idx → EReal}
    (ha : a = a') (hx : x = x') (hci : ci = ci') (hwl : wl = wl') (hwr : wr = wr') (hb : b = b') (hwfc : wfc = wfc')
    (hbfc : bfc = bfc') (q : Fin 40) :
    Sage.softmax (Sage.logit (Sage.unit (Sage.lin a x ci wl wr b)) wfc bfc) q
      = Sage.softmax (Sage.logit (Sage.unit (Sage.lin a' x' ci' wl' wr' b')) wfc' bfc') q := by
  subst ha hx hci hwl hwr hb hwfc hbfc; rfl

/-- Point t writes block t of the whole-array function: entry (p, j) of what the body stores is the row function of
    row 4000·t + p of the input arrays, at class j. -/
theorem flushed_eq (c : Dev nD) (t : Fin cfg2.N) :
    (dat2 (F := Ideal) V c).flushed 8 t
      = ((cfg2.win 8).blk t).view.read (Elt Ideal) (Sage.headArr (V c main_v53) (V c main_v43) (V c main_v12) (V c main_v17) (V c main_v54) (V c main_v18) (V c main_v19) (V c main_v55)) := by
  show (cfg2.win 8).cut (grid2.coords t) ((dat2 V c).after 8 t) = _
  rw [after2_8]
  unfold out2_8
  rw [View.canon_unit_zero hz]
  simp only [View.ld_unit_zero (S := S4000x128) hz, View.ld_unit_zero (S := S4000x1) hz, View.ld_unit_zero (S := S128x128) hz,
    View.ld_unit_zero (S := S1x128) hz, View.ld_unit_zero (S := S40x128) hz, View.ld_unit_zero (S := S1x40) hz]
  obtain ⟨e00, e01, e10, e11, e20, e21, e30, e31, e40, e41, e50, e51, e60, e61, e70, e71, e80, e81⟩ := idx_facts t
  have hN : cfg2.N = 25 := N_2
  have ht : t.val < 25 := by have := t.isLt; omega
  funext j
  obtain ⟨p, q, rfl⟩ : ∃ (p : Fin 4000) (q : Fin 40), j = ix2 p q := ⟨j 0, j 1, eq_ix2 j⟩
  have hp := p.isLt
  obtain ⟨r, hr⟩ : ∃ r : Fin 100000, r.val = 4000 * t.val + p.val := ⟨⟨4000 * t.val + p.val, by omega⟩, rfl⟩
  have hi : ((cfg2.win 8).blk t).view.emb (ix2 p q) = (ix2 r q : S100000x40.Idx) := funext fun a => Fin.ext (by
    match a with
    | ⟨0, _⟩ => show win2_8.index t (0 : Fin 2) * 4000 + 1 * p.val = r.val; rw [e80, hr]; omega
    | ⟨1, _⟩ => show win2_8.index t (1 : Fin 2) * 40 + 1 * q.val = q.val; rw [e81]; omega)
  show k2_pay1 (F := Ideal) (k2_pay2 (F := Ideal) (iblk2 V c 0 t) (iblk2 V c 1 t) (iblk2 V c 3 t) (iblk2 V c 5 t) (iblk2 V c 2 t) (iblk2 V c 4 t) (iblk2 V c 6 t) (iblk2 V c 7 t)) (ix2 p q)
      = Sage.headArr (V c main_v53) (V c main_v43) (V c main_v12) (V c main_v17) (V c main_v54) (V c main_v18) (V c main_v19) (V c main_v55) (((cfg2.win 8).blk t).view.emb (ix2 p q))
  rw [hi]
  refine (pay_apply (iblk2 V c 0 t) (iblk2 V c 1 t) (iblk2 V c 3 t) (iblk2 V c 5 t) (iblk2 V c 2 t) (iblk2 V c 4 t) (iblk2 V c 6 t) (iblk2 V c 7 t) p q).trans ?_
  exact head_congr (funext fun k => blk0_apply V c t p k r hr) (funext fun k => blk1_apply V c t p k r hr) (blk2_apply V c t p 0 r hr)
    (blk3_eq V c t) (blk5_eq V c t) (blk4_eq V c t) (blk6_eq V c t) (blk7_eq V c t) q

/-! ## The twenty-five blocks cover the array -/

/-- An index of the output array is in point t's block iff each coordinate is in the block's range on its axis. -/
theorem mem_blk (t : Fin cfg2.N) (i : S100000x40.Idx) :
    i ∈ ((cfg2.win 8).blk t).view.set ↔ ∀ a : Fin 2, win2_8.index t a * S4000x40.size a ≤ (i a).val ∧ (i a).val < win2_8.index t a * S4000x40.size a + S4000x40.size a := by
  show i ∈ ((View.whole main_v56).slice (win2_8.rect t)).set ↔ _
  rw [View.set_slice_whole, Rect.mem_set_unit]
  exact Iff.rfl

theorem final (c : Dev nD) :
    (dat2 (F := Ideal) V c).arrAt 8 cfg2.N
      = Sage.headArr (V c main_v53) (V c main_v43) (V c main_v12) (V c main_v17) (V c main_v54) (V c main_v18) (V c main_v19) (V c main_v55) :=
  (dat2 V c).arrAt_eq_of_cover 8 _ (fun t _ => flushed_eq V c t) fun i => by
    have hi0 : (i 0).val < 100000 := (i 0).isLt
    have hi1 : (i 1).val < 40 := (i 1).isLt
    have hN : cfg2.N = 25 := N_2
    obtain ⟨t, htv⟩ : ∃ t : Fin cfg2.N, t.val = (i 0).val / 4000 := ⟨⟨(i 0).val / 4000, by omega⟩, rfl⟩
    obtain ⟨e00, e01, e10, e11, e20, e21, e30, e31, e40, e41, e50, e51, e60, e61, e70, e71, e80, e81⟩ := idx_facts t
    refine ⟨t, flush2_8 t, ?_⟩
    rw [mem_blk]
    intro a
    match a with
    | ⟨0, _⟩ => show win2_8.index t (0 : Fin 2) * 4000 ≤ (i 0).val ∧ (i 0).val < win2_8.index t (0 : Fin 2) * 4000 + 4000; rw [e80, htv]; omega
    | ⟨1, _⟩ => show win2_8.index t (1 : Fin 2) * 40 ≤ (i 1).val ∧ (i 1).val < win2_8.index t (1 : Fin 2) * 40 + 40; rw [e81]; omega

end Cert.KernelIdeal.Head

end
-- ==== Proof.KernelTerms.lean ====
/-
  The idealized kernel program's host arithmetic around its three launches, as functions of the edge list and of a
  feature array: the source and destination index columns, the neighbour sum (a gather of the source rows scattered
  additively onto the destination rows), the reciprocal of the in-degree clamped below by one, and the program's whole
  result as the three layers composed.
-/
import proofs.«401475_j31396210934180_3_alg».proof.Proof.Gen.KernelIdeal
import proofs.«401475_j31396210934180_3_alg».proof.Proof.SageRow

noncomputable section

namespace Cert.KernelIdeal.Terms

open Idealize.ShloMosaic Idealize.ShloMosaic.ValueIdx Cert.KernelIdeal Cert.KernelIdeal.Gen

/-- Row 0 of the edge list: each edge's source node. -/
def srcVec (e : IVec S2x1600000 32) : IVec S1600000 32 :=
  shapeCast _ (extractStridedSlice S1x1600000 ![0, 0] e slices_S2x1600000_S1x1600000_0_0) shapeCasts_S1x1600000_S1600000
/-- Row 1 of the edge list: each edge's destination node. -/
def dstVec (e : IVec S2x1600000 32) : IVec S1600000 32 :=
  shapeCast _ (extractStridedSlice S1x1600000 ![1, 0] e slices_S2x1600000_S1x1600000_1_0) shapeCasts_S1x1600000_S1600000
/-- The source nodes as a gather's index column, a negative index wrapped once by the node count. -/
def srcCol (e : IVec S2x1600000 32) : IVec S1600000x1 32 :=
  broadcastInDim S1600000x1 ![0] bcast_S1600000_S1600000x1_0
    (select (cmpi .slt (srcVec e) (broadcastInDim S1600000 ![] bcast_S_S1600000 (constantI S_ 32 0#32)))
      (addi (srcVec e) (broadcastInDim S1600000 ![] bcast_S_S1600000 (constantI S_ 32 100000#32))) (srcVec e))
/-- The destination nodes as a scatter's index column. -/
def dstCol (e : IVec S2x1600000 32) : IVec S1600000x1 32 :=
  broadcastInDim S1600000x1 ![0] bcast_S1600000_S1600000x1_0 (dstVec e)
/-- Every node's sum of its in-neighbours' rows of `x`. -/
def neighbourSum (x : FVec Ideal S100000x128 .f32) (e : IVec S2x1600000 32) : FVec Ideal S100000x128 .f32 :=
  Host.scatterAdd scatter_S100000x128_S1600000x1_S1600000x128_1_0_0_1
    (broadcastInDim S100000x128 ![] bcast_S_S100000x128 (constant (F := Ideal) S_ .f32 0x00000000#32)) (dstCol e)
    (Host.gather gather_S100000x128_S1600000x1_S1600000x128_1_0_n_n_0_1_1128 x (srcCol e))
/-- Every node's in-degree: ones scattered additively onto the destinations. -/
def degree (e : IVec S2x1600000 32) : FVec Ideal S100000 .f32 :=
  Host.scatterAdd scatter_S100000_S1600000x1_S1600000_n_0_0_1
    (broadcastInDim S100000 ![] bcast_S_S100000 (constant (F := Ideal) S_ .f32 0x00000000#32)) (dstCol e)
    (broadcastInDim S1600000 ![] bcast_S_S1600000 (constant (F := Ideal) S_ .f32 0x3F800000#32))
/-- One over the in-degree clamped below by one, as a column. -/
def recipDegree (e : IVec S2x1600000 32) : FVec Ideal S100000x1 .f32 :=
  broadcastInDim S100000x1 ![0] bcast_S100000_S100000x1_0
    (Host.divf (broadcastInDim S100000 ![] bcast_S_S100000 (constant (F := Ideal) S_ .f32 0x3F800000#32))
      (maximumf (degree e) (broadcastInDim S100000 ![] bcast_S_S100000 (constant (F := Ideal) S_ .f32 0x3F800000#32))))

/-- A weight matrix as the launches read it (the change of float format is the identity on the extended reals). -/
abbrev asBf16 {s : Shape} (w : FVec Ideal s .f32) : FVec Ideal s .bf16 := truncf .bf16 w bitsLt_bf16_f32

/-- The first two layers' outputs and the program's result, from the thirteen arguments. -/
def hidden1 (x0 : FVec Ideal S100000x128 .f32) (e : IVec S2x1600000 32) (x2 : FVec Ideal S128x128 .f32) (x3 : FVec Ideal S128 .f32)
    (x4 : FVec Ideal S128x128 .f32) : FVec Ideal S100000x128 .f32 :=
  Sage.layerArr (neighbourSum x0 e) x0 (recipDegree e) (asBf16 x2) (shapeCast S1x128 x3 shapeCasts_S128_S1x128) (asBf16 x4)
def hidden2 (x0 : FVec Ideal S100000x128 .f32) (e : IVec S2x1600000 32) (x2 : FVec Ideal S128x128 .f32) (x3 : FVec Ideal S128 .f32)
    (x4 x5 : FVec Ideal S128x128 .f32) (x6 : FVec Ideal S128 .f32) (x7 : FVec Ideal S128x128 .f32) : FVec Ideal S100000x128 .f32 :=
  Sage.layerArr (neighbourSum (hidden1 x0 e x2 x3 x4) e) (hidden1 x0 e x2 x3 x4) (recipDegree e) (asBf16 x5)
    (shapeCast S1x128 x6 shapeCasts_S128_S1x128) (asBf16 x7)
def result (x0 : FVec Ideal S100000x128 .f32) (e : IVec S2x1600000 32) (x2 : FVec Ideal S128x128 .f32) (x3 : FVec Ideal S128 .f32)
    (x4 x5 : FVec Ideal S128x128 .f32) (x6 : FVec Ideal S128 .f32) (x7 x8 : FVec Ideal S128x128 .f32) (x9 : FVec Ideal S128 .f32)
    (x10 : FVec Ideal S128x128 .f32) (x11 : FVec Ideal S40x128 .f32) (x12 : FVec Ideal S40 .f32) : FVec Ideal S100000x40 .f32 :=
  Sage.headArr (neighbourSum (hidden2 x0 e x2 x3 x4 x5 x6 x7) e) (hidden2 x0 e x2 x3 x4 x5 x6 x7) (recipDegree e) (asBf16 x8)
    (shapeCast S1x128 x9 shapeCasts_S128_S1x128) (asBf16 x10) (asBf16 x11) (shapeCast S1x40 x12 shapeCasts_S40_S1x40)

end Cert.KernelIdeal.Terms

end
-- ==== Proof.KernelValue.lean ====
/-
  The idealized kernel program's result buffer after its run, as one function of the thirteen arguments: the last
  launch's output array is `Cert.Sage.headArr` of what the host stretch before it leaves (the neighbour sum of the second
  layer's output, that output, the reciprocal degrees, the weights), the second layer's output is the second launch's
  array, and so on back to the arguments. Each host stretch is read once, from any contents, at the buffers the next
  launch reads; a buffer that a stretch does not write, or that a launch only reads, is carried across unchanged.
-/
import proofs.«401475_j31396210934180_3_alg».proof.Proof.Gen.KernelIdeal.Frame
import proofs.«401475_j31396210934180_3_alg».proof.Proof.Layer1Array
import proofs.«401475_j31396210934180_3_alg».proof.Proof.Layer2Array
import proofs.«401475_j31396210934180_3_alg».proof.Proof.HeadArray
import proofs.«401475_j31396210934180_3_alg».proof.Proof.KernelTerms
import Idealize.ShloMosaic.Lib.StableHlo.Run

noncomputable section

namespace Cert.KernelIdeal.Whole
open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The three host stretches, from any contents `W`

Each stretch is a straight line of array operations; what a buffer holds after it is the operations' composed term over
what the stretch found. -/

section Stretches
variable (W : Valuation τ sig (Elt Ideal))

/-! ### Before the first launch: the two index vectors off the edge list, the reciprocal clamped in-degrees, the weights in the
launches' format, the neighbour sum of the input features, and the first bias as a one-row matrix -/

theorem s0_v1 : StableHlo.after (hostOps0 (F := Ideal)) W (Proc.devRef .tc main_v1)
    = (Terms.srcVec (W (Proc.devRef .tc main_arg1)) : IVec S1600000 32) := by
  after_results_simp <;> rfl
theorem s0_v3 : StableHlo.after (hostOps0 (F := Ideal)) W (Proc.devRef .tc main_v3)
    = (Terms.dstVec (W (Proc.devRef .tc main_arg1)) : IVec S1600000 32) := by
  after_results_simp <;> rfl
theorem s0_v12 : StableHlo.after (hostOps0 (F := Ideal)) W (Proc.devRef .tc main_v12)
    = (Terms.recipDegree (W (Proc.devRef .tc main_arg1)) : FVec Ideal S100000x1 .f32) := by
  after_results_simp <;> rfl
theorem s0_v13 : StableHlo.after (hostOps0 (F := Ideal)) W (Proc.devRef .tc main_v13)
    = (Terms.asBf16 (W (Proc.devRef .tc main_arg2)) : FVec Ideal S128x128 .bf16) := by
  after_results_simp <;> rfl
theorem s0_v14 : StableHlo.after (hostOps0 (F := Ideal)) W (Proc.devRef .tc main_v14)
    = (Terms.asBf16 (W (Proc.devRef .tc main_arg4)) : FVec Ideal S128x128 .bf16) := by
  after_results_simp <;> rfl
theorem s0_v15 : StableHlo.after (hostOps0 (F := Ideal)) W (Proc.devRef .tc main_v15)
    = (Terms.asBf16 (W (Proc.devRef .tc main_arg5)) : FVec Ideal S128x128 .bf16) := by
  after_results_simp <;> rfl
theorem s0_v16 : StableHlo.after (hostOps0 (F := Ideal)) W (Proc.devRef .tc main_v16)
    = (Terms.asBf16 (W (Proc.devRef .tc main_arg7)) : FVec Ideal S128x128 .bf16) := by
  after_results_simp <;> rfl
theorem s0_v17 : StableHlo.after (hostOps0 (F := Ideal)) W (Proc.devRef .tc main_v17)
    = (Terms.asBf16 (W (Proc.devRef .tc main_arg8)) : FVec Ideal S128x128 .bf16) := by
  after_results_simp <;> rfl
theorem s0_v18 : StableHlo.after (hostOps0 (F := Ideal)) W (Proc.devRef .tc main_v18)
    = (Terms.asBf16 (W (Proc.devRef .tc main_arg10)) : FVec Ideal S128x128 .bf16) := by
  after_results_simp <;> rfl
theorem s0_v19 : StableHlo.after (hostOps0 (F := Ideal)) W (Proc.devRef .tc main_v19)
    = (Terms.asBf16 (W (Proc.devRef .tc main_arg11)) : FVec Ideal S40x128 .bf16) := by
  after_results_simp <;> rfl
theorem s0_v29 : StableHlo.after (hostOps0 (F := Ideal)) W (Proc.devRef .tc main_v29)
    = (Terms.neighbourSum (W (Proc.devRef .tc main_arg0)) (W (Proc.devRef .tc main_arg1)) : FVec Ideal S100000x128 .f32) := by
  after_results_simp <;> rfl
theorem s0_v30 : StableHlo.after (hostOps0 (F := Ideal)) W (Proc.devRef .tc main_v30)
    = (shapeCast S1x128 (W (Proc.devRef .tc main_arg3)) shapeCasts_S128_S1x128 : FVec Ideal S1x128 .f32) := by
  after_results_simp <;> rfl

/-- The buffers stretch 0 writes. -/
def written0 : List (Ref sig .tc) := [main_v0, main_v1, main_v2, main_v3, main_cst, main_v4, main_cst_0, main_v5, main_v6, main_v7, main_cst_1, main_v8, main_v9, main_cst_2, main_v10, main_v11, main_v12, main_v13, main_v14, main_v15, main_v16, main_v17, main_v18, main_v19, main_c, main_v20, main_v21, main_c_3, main_v22, main_v23, main_v24, main_v25, main_v26, main_cst_4, main_v27, main_v28, main_v29, main_v30]
/-- A buffer outside that list is left as found. -/
theorem s0_keep (r : Ref sig .tc) (hr : r ∉ written0) :
    StableHlo.after (hostOps0 (F := Ideal)) W (Proc.devRef .tc r) = W (Proc.devRef .tc r) :=
  StableHlo.after_of_writes_sub _ W (by
    simp only [hostOps0, written0, List.Forall, StableHlo.nullary_writes, StableHlo.unary_writes, StableHlo.binary_writes, StableHlo.ternary_writes, StableHlo.reshape_writes, Finset.singleton_subset_iff, List.mem_toFinset]
    repeat' apply And.intro
    all_goals exact List.mem_map.mpr ⟨_, by decide, rfl⟩) hr

/-! ### Before the second launch: the neighbour sum of the first layer's output, over the index vectors the first stretch left
(`h1`, `h3`: whatever the contents, as long as those two buffers still hold the edge list's rows), and the second bias -/

theorem s1_v41 (e : IVec S2x1600000 32) (h1 : W (Proc.devRef .tc main_v1) = Terms.srcVec e) (h3 : W (Proc.devRef .tc main_v3) = Terms.dstVec e) :
    StableHlo.after (hostOps1 (F := Ideal)) W (Proc.devRef .tc main_v41)
      = (Terms.neighbourSum (W (Proc.devRef .tc main_v31)) e : FVec Ideal S100000x128 .f32) := by
  after_results_simp
  rw [h1, h3]; rfl
theorem s1_v42 : StableHlo.after (hostOps1 (F := Ideal)) W (Proc.devRef .tc main_v42)
    = (shapeCast S1x128 (W (Proc.devRef .tc main_arg6)) shapeCasts_S128_S1x128 : FVec Ideal S1x128 .f32) := by
  after_results_simp <;> rfl

/-- The buffers stretch 1 writes. -/
def written1 : List (Ref sig .tc) := [main_c_5, main_v32, main_v33, main_c_6, main_v34, main_v35, main_v36, main_v37, main_v38, main_cst_7, main_v39, main_v40, main_v41, main_v42]
/-- A buffer outside that list is left as found. -/
theorem s1_keep (r : Ref sig .tc) (hr : r ∉ written1) :
    StableHlo.after (hostOps1 (F := Ideal)) W (Proc.devRef .tc r) = W (Proc.devRef .tc r) :=
  StableHlo.after_of_writes_sub _ W (by
    simp only [hostOps1, written1, List.Forall, StableHlo.nullary_writes, StableHlo.unary_writes, StableHlo.binary_writes, StableHlo.ternary_writes, StableHlo.reshape_writes, Finset.singleton_subset_iff, List.mem_toFinset]
    repeat' apply And.intro
    all_goals exact List.mem_map.mpr ⟨_, by decide, rfl⟩) hr

/-! ### Before the third launch: the same neighbour sum of the second layer's output, and the last two biases as one-row matrices -/

theorem s2_v53 (e : IVec S2x1600000 32) (h1 : W (Proc.devRef .tc main_v1) = Terms.srcVec e) (h3 : W (Proc.devRef .tc main_v3) = Terms.dstVec e) :
    StableHlo.after (hostOps2 (F := Ideal)) W (Proc.devRef .tc main_v53)
      = (Terms.neighbourSum (W (Proc.devRef .tc main_v43)) e : FVec Ideal S100000x128 .f32) := by
  after_results_simp
  rw [h1, h3]; rfl
theorem s2_v54 : StableHlo.after (hostOps2 (F := Ideal)) W (Proc.devRef .tc main_v54)
    = (shapeCast S1x128 (W (Proc.devRef .tc main_arg9)) shapeCasts_S128_S1x128 : FVec Ideal S1x128 .f32) := by
  after_results_simp <;> rfl
theorem s2_v55 : StableHlo.after (hostOps2 (F := Ideal)) W (Proc.devRef .tc main_v55)
    = (shapeCast S1x40 (W (Proc.devRef .tc main_arg12)) shapeCasts_S40_S1x40 : FVec Ideal S1x40 .f32) := by
  after_results_simp <;> rfl

/-- The buffers stretch 2 writes. -/
def written2 : List (Ref sig .tc) := [main_c_8, main_v44, main_v45, main_c_9, main_v46, main_v47, main_v48, main_v49, main_v50, main_cst_10, main_v51, main_v52, main_v53, main_v54, main_v55]
/-- A buffer outside that list is left as found. -/
theorem s2_keep (r : Ref sig .tc) (hr : r ∉ written2) :
    StableHlo.after (hostOps2 (F := Ideal)) W (Proc.devRef .tc r) = W (Proc.devRef .tc r) :=
  StableHlo.after_of_writes_sub _ W (by
    simp only [hostOps2, written2, List.Forall, StableHlo.nullary_writes, StableHlo.unary_writes, StableHlo.binary_writes, StableHlo.ternary_writes, StableHlo.reshape_writes, Finset.singleton_subset_iff, List.mem_toFinset]
    repeat' apply And.intro
    all_goals exact List.mem_map.mpr ⟨_, by decide, rfl⟩) hr

end Stretches

/-! ## The run: what each buffer a launch reads holds at each boundary, as a term of the launch memory -/

section Run
variable (m : (ℓ : Loc nD τ sig) → Buf (Elt Ideal) ℓ) (ρ : Dev nD → PrngReg) (c : Dev nD)

/-! ### After the first stretch -/

theorem w1_v1 : W1 m ρ c (Proc.devRef .tc main_v1) = (Terms.srcVec (m ((c.tc : Thread nD τ).loc main_arg1)) : IVec S1600000 32) := s0_v1 (W0 m ρ c)
theorem w1_v3 : W1 m ρ c (Proc.devRef .tc main_v3) = (Terms.dstVec (m ((c.tc : Thread nD τ).loc main_arg1)) : IVec S1600000 32) := s0_v3 (W0 m ρ c)
theorem w1_v12 : W1 m ρ c (Proc.devRef .tc main_v12) = (Terms.recipDegree (m ((c.tc : Thread nD τ).loc main_arg1)) : FVec Ideal S100000x1 .f32) := s0_v12 (W0 m ρ c)
theorem w1_v13 : W1 m ρ c (Proc.devRef .tc main_v13) = (Terms.asBf16 (m ((c.tc : Thread nD τ).loc main_arg2)) : FVec Ideal S128x128 .bf16) := s0_v13 (W0 m ρ c)
theorem w1_v14 : W1 m ρ c (Proc.devRef .tc main_v14) = (Terms.asBf16 (m ((c.tc : Thread nD τ).loc main_arg4)) : FVec Ideal S128x128 .bf16) := s0_v14 (W0 m ρ c)
theorem w1_v15 : W1 m ρ c (Proc.devRef .tc main_v15) = (Terms.asBf16 (m ((c.tc : Thread nD τ).loc main_arg5)) : FVec Ideal S128x128 .bf16) := s0_v15 (W0 m ρ c)
theorem w1_v16 : W1 m ρ c (Proc.devRef .tc main_v16) = (Terms.asBf16 (m ((c.tc : Thread nD τ).loc main_arg7)) : FVec Ideal S128x128 .bf16) := s0_v16 (W0 m ρ c)
theorem w1_v17 : W1 m ρ c (Proc.devRef .tc main_v17) = (Terms.asBf16 (m ((c.tc : Thread nD τ).loc main_arg8)) : FVec Ideal S128x128 .bf16) := s0_v17 (W0 m ρ c)
theorem w1_v18 : W1 m ρ c (Proc.devRef .tc main_v18) = (Terms.asBf16 (m ((c.tc : Thread nD τ).loc main_arg10)) : FVec Ideal S128x128 .bf16) := s0_v18 (W0 m ρ c)
theorem w1_v19 : W1 m ρ c (Proc.devRef .tc main_v19) = (Terms.asBf16 (m ((c.tc : Thread nD τ).loc main_arg11)) : FVec Ideal S40x128 .bf16) := s0_v19 (W0 m ρ c)
theorem w1_v29 : W1 m ρ c (Proc.devRef .tc main_v29) = (Terms.neighbourSum (m ((c.tc : Thread nD τ).loc main_arg0)) (m ((c.tc : Thread nD τ).loc main_arg1)) : FVec Ideal S100000x128 .f32) := s0_v29 (W0 m ρ c)
theorem w1_v30 : W1 m ρ c (Proc.devRef .tc main_v30) = (shapeCast S1x128 (m ((c.tc : Thread nD τ).loc main_arg3)) shapeCasts_S128_S1x128 : FVec Ideal S1x128 .f32) := s0_v30 (W0 m ρ c)
theorem w1_arg0 : W1 m ρ c (Proc.devRef .tc main_arg0) = (m ((c.tc : Thread nD τ).loc main_arg0)) := s0_keep (W0 m ρ c) main_arg0 (by decide)
theorem w1_arg6 : W1 m ρ c (Proc.devRef .tc main_arg6) = (m ((c.tc : Thread nD τ).loc main_arg6)) := s0_keep (W0 m ρ c) main_arg6 (by decide)
theorem w1_arg9 : W1 m ρ c (Proc.devRef .tc main_arg9) = (m ((c.tc : Thread nD τ).loc main_arg9)) := s0_keep (W0 m ρ c) main_arg9 (by decide)
theorem w1_arg12 : W1 m ρ c (Proc.devRef .tc main_arg12) = (m ((c.tc : Thread nD τ).loc main_arg12)) := s0_keep (W0 m ρ c) main_arg12 (by decide)

/-! ### After the first launch: its output is the first layer; an input window's array and a buffer none of its windows names are left as found -/

theorem v1_v29 : V1 m ρ c main_v29 = (Terms.neighbourSum (m ((c.tc : Thread nD τ).loc main_arg0)) (m ((c.tc : Thread nD τ).loc main_arg1)) : FVec Ideal S100000x128 .f32) := w1_v29 m ρ c
theorem v1_arg0 : V1 m ρ c main_arg0 = (m ((c.tc : Thread nD τ).loc main_arg0)) := w1_arg0 m ρ c
theorem v1_v12 : V1 m ρ c main_v12 = (Terms.recipDegree (m ((c.tc : Thread nD τ).loc main_arg1)) : FVec Ideal S100000x1 .f32) := w1_v12 m ρ c
theorem v1_v13 : V1 m ρ c main_v13 = (Terms.asBf16 (m ((c.tc : Thread nD τ).loc main_arg2)) : FVec Ideal S128x128 .bf16) := w1_v13 m ρ c
theorem v1_v30 : V1 m ρ c main_v30 = (shapeCast S1x128 (m ((c.tc : Thread nD τ).loc main_arg3)) shapeCasts_S128_S1x128 : FVec Ideal S1x128 .f32) := w1_v30 m ρ c
theorem v1_v14 : V1 m ρ c main_v14 = (Terms.asBf16 (m ((c.tc : Thread nD τ).loc main_arg4)) : FVec Ideal S128x128 .bf16) := w1_v14 m ρ c

theorem w2_v31 : W2 m ρ c (Proc.devRef .tc main_v31) = (Terms.hidden1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) : FVec Ideal S100000x128 .f32) :=
  (W2_arr m ρ c 6).trans ((Layer1.final (V1 m ρ) c).trans (by
    rw [v1_v29, v1_arg0, v1_v12, v1_v13, v1_v30, v1_v14]; rfl))
theorem w2_v1 : W2 m ρ c (Proc.devRef .tc main_v1) = (Terms.srcVec (m ((c.tc : Thread nD τ).loc main_arg1)) : IVec S1600000 32) := (W2_of_ne m ρ c main_v1 (by decide)).trans (w1_v1 m ρ c)
theorem w2_v3 : W2 m ρ c (Proc.devRef .tc main_v3) = (Terms.dstVec (m ((c.tc : Thread nD τ).loc main_arg1)) : IVec S1600000 32) := (W2_of_ne m ρ c main_v3 (by decide)).trans (w1_v3 m ρ c)
theorem w2_v15 : W2 m ρ c (Proc.devRef .tc main_v15) = (Terms.asBf16 (m ((c.tc : Thread nD τ).loc main_arg5)) : FVec Ideal S128x128 .bf16) := (W2_of_ne m ρ c main_v15 (by decide)).trans (w1_v15 m ρ c)
theorem w2_v16 : W2 m ρ c (Proc.devRef .tc main_v16) = (Terms.asBf16 (m ((c.tc : Thread nD τ).loc main_arg7)) : FVec Ideal S128x128 .bf16) := (W2_of_ne m ρ c main_v16 (by decide)).trans (w1_v16 m ρ c)
theorem w2_v17 : W2 m ρ c (Proc.devRef .tc main_v17) = (Terms.asBf16 (m ((c.tc : Thread nD τ).loc main_arg8)) : FVec Ideal S128x128 .bf16) := (W2_of_ne m ρ c main_v17 (by decide)).trans (w1_v17 m ρ c)
theorem w2_v18 : W2 m ρ c (Proc.devRef .tc main_v18) = (Terms.asBf16 (m ((c.tc : Thread nD τ).loc main_arg10)) : FVec Ideal S128x128 .bf16) := (W2_of_ne m ρ c main_v18 (by decide)).trans (w1_v18 m ρ c)
theorem w2_v19 : W2 m ρ c (Proc.devRef .tc main_v19) = (Terms.asBf16 (m ((c.tc : Thread nD τ).loc main_arg11)) : FVec Ideal S40x128 .bf16) := (W2_of_ne m ρ c main_v19 (by decide)).trans (w1_v19 m ρ c)
theorem w2_arg6 : W2 m ρ c (Proc.devRef .tc main_arg6) = (m ((c.tc : Thread nD τ).loc main_arg6)) := (W2_of_ne m ρ c main_arg6 (by decide)).trans (w1_arg6 m ρ c)
theorem w2_arg9 : W2 m ρ c (Proc.devRef .tc main_arg9) = (m ((c.tc : Thread nD τ).loc main_arg9)) := (W2_of_ne m ρ c main_arg9 (by decide)).trans (w1_arg9 m ρ c)
theorem w2_arg12 : W2 m ρ c (Proc.devRef .tc main_arg12) = (m ((c.tc : Thread nD τ).loc main_arg12)) := (W2_of_ne m ρ c main_arg12 (by decide)).trans (w1_arg12 m ρ c)
theorem w2_v12 : W2 m ρ c (Proc.devRef .tc main_v12) = (Terms.recipDegree (m ((c.tc : Thread nD τ).loc main_arg1)) : FVec Ideal S100000x1 .f32) :=
  ((W2_arr m ρ c 2).trans (((dat0 (V1 m ρ) c).arrAt_in 2 rfl _).trans (A_eq0 (V1 m ρ) c 2))).trans (w1_v12 m ρ c)

/-! ### After the second stretch -/

theorem w3_v41 : W3 m ρ c (Proc.devRef .tc main_v41) = (Terms.neighbourSum (Terms.hidden1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1)) : FVec Ideal S100000x128 .f32) :=
  (s1_v41 (W2 m ρ c) (m ((c.tc : Thread nD τ).loc main_arg1)) (w2_v1 m ρ c) (w2_v3 m ρ c)).trans (by rw [w2_v31])
theorem w3_v42 : W3 m ρ c (Proc.devRef .tc main_v42) = (shapeCast S1x128 (m ((c.tc : Thread nD τ).loc main_arg6)) shapeCasts_S128_S1x128 : FVec Ideal S1x128 .f32) :=
  (s1_v42 (W2 m ρ c)).trans (by rw [w2_arg6])
theorem w3_v31 : W3 m ρ c (Proc.devRef .tc main_v31) = (Terms.hidden1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) : FVec Ideal S100000x128 .f32) := (s1_keep (W2 m ρ c) main_v31 (by decide)).trans (w2_v31 m ρ c)
theorem w3_v12 : W3 m ρ c (Proc.devRef .tc main_v12) = (Terms.recipDegree (m ((c.tc : Thread nD τ).loc main_arg1)) : FVec Ideal S100000x1 .f32) := (s1_keep (W2 m ρ c) main_v12 (by decide)).trans (w2_v12 m ρ c)
theorem w3_v15 : W3 m ρ c (Proc.devRef .tc main_v15) = (Terms.asBf16 (m ((c.tc : Thread nD τ).loc main_arg5)) : FVec Ideal S128x128 .bf16) := (s1_keep (W2 m ρ c) main_v15 (by decide)).trans (w2_v15 m ρ c)
theorem w3_v16 : W3 m ρ c (Proc.devRef .tc main_v16) = (Terms.asBf16 (m ((c.tc : Thread nD τ).loc main_arg7)) : FVec Ideal S128x128 .bf16) := (s1_keep (W2 m ρ c) main_v16 (by decide)).trans (w2_v16 m ρ c)
theorem w3_v1 : W3 m ρ c (Proc.devRef .tc main_v1) = (Terms.srcVec (m ((c.tc : Thread nD τ).loc main_arg1)) : IVec S1600000 32) := (s1_keep (W2 m ρ c) main_v1 (by decide)).trans (w2_v1 m ρ c)
theorem w3_v3 : W3 m ρ c (Proc.devRef .tc main_v3) = (Terms.dstVec (m ((c.tc : Thread nD τ).loc main_arg1)) : IVec S1600000 32) := (s1_keep (W2 m ρ c) main_v3 (by decide)).trans (w2_v3 m ρ c)
theorem w3_v17 : W3 m ρ c (Proc.devRef .tc main_v17) = (Terms.asBf16 (m ((c.tc : Thread nD τ).loc main_arg8)) : FVec Ideal S128x128 .bf16) := (s1_keep (W2 m ρ c) main_v17 (by decide)).trans (w2_v17 m ρ c)
theorem w3_v18 : W3 m ρ c (Proc.devRef .tc main_v18) = (Terms.asBf16 (m ((c.tc : Thread nD τ).loc main_arg10)) : FVec Ideal S128x128 .bf16) := (s1_keep (W2 m ρ c) main_v18 (by decide)).trans (w2_v18 m ρ c)
theorem w3_v19 : W3 m ρ c (Proc.devRef .tc main_v19) = (Terms.asBf16 (m ((c.tc : Thread nD τ).loc main_arg11)) : FVec Ideal S40x128 .bf16) := (s1_keep (W2 m ρ c) main_v19 (by decide)).trans (w2_v19 m ρ c)
theorem w3_arg9 : W3 m ρ c (Proc.devRef .tc main_arg9) = (m ((c.tc : Thread nD τ).loc main_arg9)) := (s1_keep (W2 m ρ c) main_arg9 (by decide)).trans (w2_arg9 m ρ c)
theorem w3_arg12 : W3 m ρ c (Proc.devRef .tc main_arg12) = (m ((c.tc : Thread nD τ).loc main_arg12)) := (s1_keep (W2 m ρ c) main_arg12 (by decide)).trans (w2_arg12 m ρ c)

/-! ### After the second launch -/

theorem v3_v41 : V3 m ρ c main_v41 = (Terms.neighbourSum (Terms.hidden1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1)) : FVec Ideal S100000x128 .f32) := w3_v41 m ρ c
theorem v3_v31 : V3 m ρ c main_v31 = (Terms.hidden1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) : FVec Ideal S100000x128 .f32) := w3_v31 m ρ c
theorem v3_v12 : V3 m ρ c main_v12 = (Terms.recipDegree (m ((c.tc : Thread nD τ).loc main_arg1)) : FVec Ideal S100000x1 .f32) := w3_v12 m ρ c
theorem v3_v15 : V3 m ρ c main_v15 = (Terms.asBf16 (m ((c.tc : Thread nD τ).loc main_arg5)) : FVec Ideal S128x128 .bf16) := w3_v15 m ρ c
theorem v3_v42 : V3 m ρ c main_v42 = (shapeCast S1x128 (m ((c.tc : Thread nD τ).loc main_arg6)) shapeCasts_S128_S1x128 : FVec Ideal S1x128 .f32) := w3_v42 m ρ c
theorem v3_v16 : V3 m ρ c main_v16 = (Terms.asBf16 (m ((c.tc : Thread nD τ).loc main_arg7)) : FVec Ideal S128x128 .bf16) := w3_v16 m ρ c

theorem w4_v43 : W4 m ρ c (Proc.devRef .tc main_v43) = (Terms.hidden2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) : FVec Ideal S100000x128 .f32) :=
  (W4_arr m ρ c 6).trans ((Layer2.final (V3 m ρ) c).trans (by
    rw [v3_v41, v3_v31, v3_v12, v3_v15, v3_v42, v3_v16]; rfl))
theorem w4_v1 : W4 m ρ c (Proc.devRef .tc main_v1) = (Terms.srcVec (m ((c.tc : Thread nD τ).loc main_arg1)) : IVec S1600000 32) := (W4_of_ne m ρ c main_v1 (by decide)).trans (w3_v1 m ρ c)
theorem w4_v3 : W4 m ρ c (Proc.devRef .tc main_v3) = (Terms.dstVec (m ((c.tc : Thread nD τ).loc main_arg1)) : IVec S1600000 32) := (W4_of_ne m ρ c main_v3 (by decide)).trans (w3_v3 m ρ c)
theorem w4_v17 : W4 m ρ c (Proc.devRef .tc main_v17) = (Terms.asBf16 (m ((c.tc : Thread nD τ).loc main_arg8)) : FVec Ideal S128x128 .bf16) := (W4_of_ne m ρ c main_v17 (by decide)).trans (w3_v17 m ρ c)
theorem w4_v18 : W4 m ρ c (Proc.devRef .tc main_v18) = (Terms.asBf16 (m ((c.tc : Thread nD τ).loc main_arg10)) : FVec Ideal S128x128 .bf16) := (W4_of_ne m ρ c main_v18 (by decide)).trans (w3_v18 m ρ c)
theorem w4_v19 : W4 m ρ c (Proc.devRef .tc main_v19) = (Terms.asBf16 (m ((c.tc : Thread nD τ).loc main_arg11)) : FVec Ideal S40x128 .bf16) := (W4_of_ne m ρ c main_v19 (by decide)).trans (w3_v19 m ρ c)
theorem w4_arg9 : W4 m ρ c (Proc.devRef .tc main_arg9) = (m ((c.tc : Thread nD τ).loc main_arg9)) := (W4_of_ne m ρ c main_arg9 (by decide)).trans (w3_arg9 m ρ c)
theorem w4_arg12 : W4 m ρ c (Proc.devRef .tc main_arg12) = (m ((c.tc : Thread nD τ).loc main_arg12)) := (W4_of_ne m ρ c main_arg12 (by decide)).trans (w3_arg12 m ρ c)
theorem w4_v12 : W4 m ρ c (Proc.devRef .tc main_v12) = (Terms.recipDegree (m ((c.tc : Thread nD τ).loc main_arg1)) : FVec Ideal S100000x1 .f32) :=
  ((W4_arr m ρ c 2).trans (((dat1 (V3 m ρ) c).arrAt_in 2 rfl _).trans (A_eq1 (V3 m ρ) c 2))).trans (w3_v12 m ρ c)

/-! ### After the third stretch -/

theorem w5_v53 : W5 m ρ c (Proc.devRef .tc main_v53) = (Terms.neighbourSum (Terms.hidden2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg1)) : FVec Ideal S100000x128 .f32) :=
  (s2_v53 (W4 m ρ c) (m ((c.tc : Thread nD τ).loc main_arg1)) (w4_v1 m ρ c) (w4_v3 m ρ c)).trans (by rw [w4_v43])
theorem w5_v54 : W5 m ρ c (Proc.devRef .tc main_v54) = (shapeCast S1x128 (m ((c.tc : Thread nD τ).loc main_arg9)) shapeCasts_S128_S1x128 : FVec Ideal S1x128 .f32) :=
  (s2_v54 (W4 m ρ c)).trans (by rw [w4_arg9])
theorem w5_v55 : W5 m ρ c (Proc.devRef .tc main_v55) = (shapeCast S1x40 (m ((c.tc : Thread nD τ).loc main_arg12)) shapeCasts_S40_S1x40 : FVec Ideal S1x40 .f32) :=
  (s2_v55 (W4 m ρ c)).trans (by rw [w4_arg12])
theorem w5_v43 : W5 m ρ c (Proc.devRef .tc main_v43) = (Terms.hidden2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) : FVec Ideal S100000x128 .f32) := (s2_keep (W4 m ρ c) main_v43 (by decide)).trans (w4_v43 m ρ c)
theorem w5_v12 : W5 m ρ c (Proc.devRef .tc main_v12) = (Terms.recipDegree (m ((c.tc : Thread nD τ).loc main_arg1)) : FVec Ideal S100000x1 .f32) := (s2_keep (W4 m ρ c) main_v12 (by decide)).trans (w4_v12 m ρ c)
theorem w5_v17 : W5 m ρ c (Proc.devRef .tc main_v17) = (Terms.asBf16 (m ((c.tc : Thread nD τ).loc main_arg8)) : FVec Ideal S128x128 .bf16) := (s2_keep (W4 m ρ c) main_v17 (by decide)).trans (w4_v17 m ρ c)
theorem w5_v18 : W5 m ρ c (Proc.devRef .tc main_v18) = (Terms.asBf16 (m ((c.tc : Thread nD τ).loc main_arg10)) : FVec Ideal S128x128 .bf16) := (s2_keep (W4 m ρ c) main_v18 (by decide)).trans (w4_v18 m ρ c)
theorem w5_v19 : W5 m ρ c (Proc.devRef .tc main_v19) = (Terms.asBf16 (m ((c.tc : Thread nD τ).loc main_arg11)) : FVec Ideal S40x128 .bf16) := (s2_keep (W4 m ρ c) main_v19 (by decide)).trans (w4_v19 m ρ c)

theorem v5_v53 : V5 m ρ c main_v53 = (Terms.neighbourSum (Terms.hidden2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg1)) : FVec Ideal S100000x128 .f32) := w5_v53 m ρ c
theorem v5_v43 : V5 m ρ c main_v43 = (Terms.hidden2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) : FVec Ideal S100000x128 .f32) := w5_v43 m ρ c
theorem v5_v12 : V5 m ρ c main_v12 = (Terms.recipDegree (m ((c.tc : Thread nD τ).loc main_arg1)) : FVec Ideal S100000x1 .f32) := w5_v12 m ρ c
theorem v5_v17 : V5 m ρ c main_v17 = (Terms.asBf16 (m ((c.tc : Thread nD τ).loc main_arg8)) : FVec Ideal S128x128 .bf16) := w5_v17 m ρ c
theorem v5_v54 : V5 m ρ c main_v54 = (shapeCast S1x128 (m ((c.tc : Thread nD τ).loc main_arg9)) shapeCasts_S128_S1x128 : FVec Ideal S1x128 .f32) := w5_v54 m ρ c
theorem v5_v18 : V5 m ρ c main_v18 = (Terms.asBf16 (m ((c.tc : Thread nD τ).loc main_arg10)) : FVec Ideal S128x128 .bf16) := w5_v18 m ρ c
theorem v5_v19 : V5 m ρ c main_v19 = (Terms.asBf16 (m ((c.tc : Thread nD τ).loc main_arg11)) : FVec Ideal S40x128 .bf16) := w5_v19 m ρ c
theorem v5_v55 : V5 m ρ c main_v55 = (shapeCast S1x40 (m ((c.tc : Thread nD τ).loc main_arg12)) shapeCasts_S40_S1x40 : FVec Ideal S1x40 .f32) := w5_v55 m ρ c

end Run

/-- The result buffer after the run: the third launch's output array, which is the last layer, the classifier and the
    softmax of what the third stretch leaves; that is the second launch's output and its neighbour sum, and so on back to
    the thirteen arguments. -/
theorem result_eq (m : (ℓ : Loc nD τ sig) → Buf (Elt Ideal) ℓ) (ρ : Dev nD → PrngReg) (c : Dev nD) :
    W6 (F := Ideal) m ρ c (Proc.devRef .tc main_v56)
      = Terms.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  (W6_arr m ρ c 8).trans ((Head.final (V5 m ρ) c).trans (by
    rw [v5_v53, v5_v43, v5_v12, v5_v17, v5_v54, v5_v18, v5_v19, v5_v55]; rfl))

end Cert.KernelIdeal.Whole

end
-- ==== Proof.MeanLaw.lean ====
/-
  The one law that joins the two spellings of a layer: scaling a node's neighbour SUM by the reciprocal of its clamped
  degree AFTER the linear map W_l is the same as dividing every entry of the sum by the clamped degree BEFORE it. On the
  extended reals multiplication by a non-negative REAL distributes over every sum (infinite summands included), so the
  law needs nothing of the features; it needs the clamped degree to be a positive real, which it is: the degree is a
  count of edges, and the clamp is at one.
-/
import proofs.«401475_j31396210934180_3_alg».proof.Proof.SageRow
import Idealize.ShloMosaic.PureOps.Ideal

noncomputable section

namespace Cert.Sage

open Idealize.ShloMosaic

/-- The pattern of 1.0 denotes the real one. -/
theorem oneBits_eq : oneBits = 1 := by
  show Ideal.ofBits .f32 0x3F800000#32 = 1
  simp [Ideal.ofBits, Ideal.ieee, -EReal.coe_mul]; norm_num

/-- The pattern of +0.0 denotes zero. -/
theorem zeroBits_eq : zeroBits = 0 := by
  show Ideal.ofBits .f32 0x00000000#32 = 0
  simp [Ideal.ofBits, Ideal.ieee]

/-- The pattern of -infinity denotes the least extended real. -/
theorem negInfBits_eq : negInfBits = ⊥ := by
  show Ideal.ofBits .f32 0xFF800000#32 = ⊥
  simp [Ideal.ofBits, Ideal.ieee]

/-- A non-negative real factor goes inside any finite sum of extended reals. -/
theorem sum_mul_real {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (by exact_mod_cast hr) (EReal.coe_ne_top r), ih]

/-- THE LAW: (a · w) · (1 / c) = (a / c) · w for a positive real `c`, entry sums over the extended reals. -/
theorem mean_commutes (a w : Fin 128 → EReal) (r : ℝ) (hr : 0 < r) :
    (∑ k : Fin 128, a k * w k) * Ideal.div oneBits (r : EReal) = ∑ k : Fin 128, Ideal.div (a k) (r : EReal) * w k := by
  rw [Ideal.div_coe hr.ne', oneBits_eq, one_mul, sum_mul_real _ _ _ (by positivity)]
  refine Finset.sum_congr rfl fun k _ => ?_
  rw [Ideal.div_coe hr.ne', mul_right_comm]

/-- So the kernel's column of a layer is the reference's, when the reciprocal degree is one over the positive real
    clamped degree, the weights agree and the bias row is the bias vector. -/
theorem lin_eq_linR (a x : Fin 128 → EReal) (r : ℝ) (hr : 0 < r) (wl wr : Sq.Idx → EReal) (b : RowV.Idx → EReal)
    (b' : V128.Idx → EReal) (hb : ∀ q : Fin 128, b (ValueIdx.ix2 0 q) = b' (ValueIdx.ix1 q)) (q : Fin 128) :
    lin a x (Ideal.div oneBits (r : EReal)) wl wr b q = linR a x (r : EReal) wl wr b' q := by
  unfold lin linR
  rw [mean_commutes _ _ r hr, hb q]

/-- Ones added up over any finite set of edges make a natural number. -/
theorem sum_ones_nat {ι : Type} (s : Finset ι) : (0 : EReal) + ∑ _j ∈ s, (1 : EReal) = ((s.card : ℝ) : EReal) := by
  rw [zero_add, Finset.sum_const, nsmul_one, EReal.coe_natCast]

/-- An additive scatter of ones onto zeros holds, at every element, the number of updates that land there. -/
theorem scatter_ones_nat {s si su : Shape} (d : ScatterDims s si su) {w : Nat} (x : s.Idx → EReal) (idx : IVec si w)
    (u : su.Idx → EReal) (hx : ∀ i, x i = 0) (hu : ∀ j, u j = 1) (i : s.Idx) :
    ∃ n : ℕ, Ideal.hostScatterAdd d x idx u i = ((n : ℝ) : EReal) :=
  ⟨(Finset.univ.filter fun j => d.resultIdx? j idx = some i).card, by
    unfold Ideal.hostScatterAdd
    simp only [hx, hu]
    exact sum_ones_nat _⟩

/-- A count clamped below by one is a positive real. -/
theorem clamp_count_pos (n : ℕ) : ∃ r : ℝ, 0 < r ∧ max ((n : ℝ) : EReal) oneBits = (r : EReal) := by
  refine ⟨max (n : ℝ) 1, lt_max_of_lt_right one_pos, ?_⟩
  rw [oneBits_eq, ← EReal.coe_one]
  exact (EReal.coe_strictMono.monotone.map_max).symm

end Cert.Sage

end
-- ==== Proof.RefLayers.lean ====
/-
  The idealized reference, layer by layer. Its first layer, read as a function of ANY feature array (the generated
  stage `val_main_v36`: aggregate, divide by the clamped degree, two linear maps and the bias, divide by the clamped
  Euclidean length, positive part), is the layer function; the second layer is that function of the first layer's
  output with the second layer's weights, and the third layer before the classifier is the same function without the
  positive part (`val_main_v35`) of the second layer's output. Read at one entry each is the row formula of Cert.Sage.
-/
import proofs.«401475_j31396210934180_3_alg».proof.Proof.RefStages
import proofs.«401475_j31396210934180_3_alg».proof.Proof.SageRow
import proofs.«401475_j31396210934180_3_alg».proof.Proof.MeanLaw
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce

noncomputable section

namespace Cert.ReferenceIdeal.Layers

open Idealize.ShloMosaic Idealize.ShloMosaic.ValueIdx Cert.ReferenceIdeal Cert.ReferenceIdeal.Gen Cert.ReferenceIdeal.Stages

/-- The second layer is the first layer's function of the first layer's output. -/
theorem layer2_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) :
    val_main_v69 (F := Ideal) x0 x1 x2 x3 x4 x5 x6 x7
      = val_main_v36 (F := Ideal) (val_main_v36 (F := Ideal) x0 x1 x2 x3 x4) x1 x5 x6 x7 := by
  -- the second layer's operations, spelt out down to the first layer's output and the edge vectors
  unfold
    val_main_v69 val_main_v68 val_main_call3_v0 val_main_call3_cst val_main_v67 val_main_v66 val_main_v65 val_main_cst_11
    val_main_v64 val_main_call2_v2 val_main_call2_v1 val_main_call2_v0 val_main_call2_cst val_main_v63 val_main_v62 val_main_v61
    val_main_v60 val_main_v59 val_main_v58 val_main_v57 val_main_v56 val_main_v55 val_main_v54 val_main_v53 val_main_v52
    val_main_v51 val_main_cst_10 val_main_v50 val_main_v49 val_main_v48 val_main_cst_9 val_main_v47 val_main_cst_8 val_main_v46
    val_main_v45 val_main_v44 val_main_cst_7 val_main_v43 val_main_v42 val_main_v41 val_main_v40 val_main_v39 val_main_c_6
    val_main_v38 val_main_v37 val_main_c_5
  -- the first layer's output is from here on an array like any other
  generalize val_main_v36 (F := Ideal) x0 x1 x2 x3 x4 = h
  -- the first layer's operations, of that array and the second layer's weights
  unfold
    val_main_v36 val_main_call1_v0 val_main_call1_cst val_main_v35 val_main_v34 val_main_v33 val_main_v32 val_main_cst_4
    val_main_v31 val_main_call0_v2 val_main_call0_v1 val_main_call0_v0 val_main_call0_cst val_main_v30 val_main_v29 val_main_v28
    val_main_v27 val_main_v26 val_main_v25 val_main_v24 val_main_v23 val_main_v22 val_main_v21 val_main_v20 val_main_v19
    val_main_v18 val_main_cst_3 val_main_v17 val_main_v16 val_main_v15 val_main_cst_2 val_main_v14 val_main_cst_1 val_main_v13
    val_main_v12 val_main_v11 val_main_cst val_main_v10 val_main_v9 val_main_v8 val_main_v7 val_main_v6 val_main_c_0 val_main_v5
    val_main_v4 val_main_c
  rfl

/-- The third layer before the classifier is the first layer's function without the positive part, of the second
    layer's output. -/
theorem layer3_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) :
    val_main_v101 (F := Ideal) x0 x1 x2 x3 x4 x5 x6 x7 x8 x9 x10
      = val_main_v35 (F := Ideal) (val_main_v69 (F := Ideal) x0 x1 x2 x3 x4 x5 x6 x7) x1 x8 x9 x10 := by
  unfold
    val_main_v101 val_main_v100 val_main_v99 val_main_v98 val_main_cst_18 val_main_v97 val_main_call4_v2 val_main_call4_v1
    val_main_call4_v0 val_main_call4_cst val_main_v96 val_main_v95 val_main_v94 val_main_v93 val_main_v92 val_main_v91
    val_main_v90 val_main_v89 val_main_v88 val_main_v87 val_main_v86 val_main_v85 val_main_v84 val_main_cst_17 val_main_v83
    val_main_v82 val_main_v81 val_main_cst_16 val_main_v80 val_main_cst_15 val_main_v79 val_main_v78 val_main_v77 val_main_cst_14
    val_main_v76 val_main_v75 val_main_v74 val_main_v73 val_main_v72 val_main_c_13 val_main_v71 val_main_v70 val_main_c_12
  generalize val_main_v69 (F := Ideal) x0 x1 x2 x3 x4 x5 x6 x7 = h
  unfold
    val_main_v35 val_main_v34 val_main_v33 val_main_v32 val_main_cst_4 val_main_v31 val_main_call0_v2 val_main_call0_v1
    val_main_call0_v0 val_main_call0_cst val_main_v30 val_main_v29 val_main_v28 val_main_v27 val_main_v26 val_main_v25
    val_main_v24 val_main_v23 val_main_v22 val_main_v21 val_main_v20 val_main_v19 val_main_v18 val_main_cst_3 val_main_v17
    val_main_v16 val_main_v15 val_main_cst_2 val_main_v14 val_main_cst_1 val_main_v13 val_main_v12 val_main_v11 val_main_cst
    val_main_v10 val_main_v9 val_main_v8 val_main_v7 val_main_v6 val_main_c_0 val_main_v5 val_main_v4 val_main_c
  rfl

section Rows

variable (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal))

/-- The neighbour mean at (p, k): the neighbour sum there over node p's clamped degree. -/
private theorem mean_at (p : Fin 100000) (k : Fin 128) :
    val_main_v22 (F := Ideal) x0 x1 (ix2 p k)
      = Ideal.div (val_main_v13 (F := Ideal) x0 x1 (ix2 p k)) (max (val_main_v17 (F := Ideal) x1 (ix1 p)) Sage.oneBits) := by
  have e : idx_main_v20 (idx_main_v21 (ix2 p k)) = ix1 p := funext fun a => Fin.ext (by match a with | ⟨0, _⟩ => rfl)
  rw [val_main_v22_apply, val_main_v21_apply, val_main_v20_apply, val_main_v19_apply, val_main_v18_apply,
    val_main_cst_3_apply, e]
  rfl

/-- The transposed left weights at (k, q) are the weights at (q, k). -/
private theorem wl_at (w : (⟨S128x128, .f32⟩ : BufTy).Contents (Elt Ideal)) (k q : Fin 128) :
    val_main_v23 (F := Ideal) w (ix2 k q) = w (ix2 q k) := by
  rw [val_main_v23_apply]
  exact congrArg w (funext fun a => Fin.ext (by match a with | ⟨0, _⟩ => rfl | ⟨1, _⟩ => rfl))

/-- The transposed right weights at (k, q) are the weights at (q, k). -/
private theorem wr_at (w : (⟨S128x128, .f32⟩ : BufTy).Contents (Elt Ideal)) (k q : Fin 128) :
    val_main_v28 (F := Ideal) w (ix2 k q) = w (ix2 q k) := by
  rw [val_main_v28_apply]
  exact congrArg w (funext fun a => Fin.ext (by match a with | ⟨0, _⟩ => rfl | ⟨1, _⟩ => rfl))

/-- The bias spread over the rows, at (p, q), is entry q of the bias vector. -/
private theorem bias_at (p : Fin 100000) (q : Fin 128) :
    val_main_v26 (F := Ideal) x3 (ix2 p q) = x3 (ix1 q) := by
  rw [val_main_v26_apply, val_main_v25_apply]
  exact congrArg x3 (funext fun a => Fin.ext (by match a with | ⟨0, _⟩ => rfl))

/-- The layer before normalisation at (p, q): the two linear maps and the bias of node p's rows. -/
private theorem lin_at (p : Fin 100000) (q : Fin 128) :
    val_main_v30 (F := Ideal) x0 x1 x2 x3 x4 (ix2 p q)
      = Sage.linR (fun k => val_main_v13 (F := Ideal) x0 x1 (ix2 p k)) (fun k => x0 (ix2 p k))
          (max (val_main_v17 (F := Ideal) x1 (ix1 p)) Sage.oneBits) x2 x4 x3 q := by
  have el : ∀ k : Fin 128, lidx_main_v24 (ix2 p q) k = ix2 p k := fun k => funext fun a => Fin.ext (by match a with | ⟨0, _⟩ => rfl | ⟨1, _⟩ => rfl)
  have er : ∀ k : Fin 128, ridx_main_v24 (ix2 p q) k = ix2 k q := fun k => funext fun a => Fin.ext (by match a with | ⟨0, _⟩ => rfl | ⟨1, _⟩ => rfl)
  have el' : ∀ k : Fin 128, lidx_main_v29 (ix2 p q) k = ix2 p k := fun k => funext fun a => Fin.ext (by match a with | ⟨0, _⟩ => rfl | ⟨1, _⟩ => rfl)
  have er' : ∀ k : Fin 128, ridx_main_v29 (ix2 p q) k = ix2 k q := fun k => funext fun a => Fin.ext (by match a with | ⟨0, _⟩ => rfl | ⟨1, _⟩ => rfl)
  rw [val_main_v30_apply, val_main_v27_apply, val_main_v24_apply, val_main_v29_apply, bias_at]
  unfold Sage.linR
  refine congrArg₂ (· + ·) (congrArg (· + x3 (ix1 q)) (Finset.sum_congr rfl fun k _ => ?_))
    (Finset.sum_congr rfl fun k _ => ?_)
  · rw [el k, er k, mean_at, wl_at]
  · rw [el' k, er' k, wr_at]

/-- Node p's clamped Euclidean length: the root of the sum of the squares of its row, not below the small constant. -/
private theorem len_at (p : Fin 100000) :
    val_main_v33 (F := Ideal) x0 x1 x2 x3 x4 (ix2 p (0 : Fin 1))
      = max (Ideal.sqrt (∑ q' : Fin 128, Sage.linR (fun k => val_main_v13 (F := Ideal) x0 x1 (ix2 p k)) (fun k => x0 (ix2 p k))
          (max (val_main_v17 (F := Ideal) x1 (ix1 p)) Sage.oneBits) x2 x4 x3 q' * Sage.linR (fun k => val_main_v13 (F := Ideal) x0 x1 (ix2 p k)) (fun k => x0 (ix2 p k))
          (max (val_main_v17 (F := Ideal) x1 (ix1 p)) Sage.oneBits) x2 x4 x3 q')) Sage.tiny := by
  have e1 : idx_main_call0_v2 (ix2 p (0 : Fin 1)) = ix1 p := funext fun a => Fin.ext (by match a with | ⟨0, _⟩ => rfl)
  have e2 : ∀ k : Fin 128, idx_main_call0_v1 (ix1 p) k = ix2 p k := fun k => funext fun a => Fin.ext (by match a with | ⟨0, _⟩ => rfl | ⟨1, _⟩ => rfl)
  rw [val_main_v33_apply, val_main_v31_apply, val_main_call0_v2_apply, e1, val_main_call0_v1_apply,
    val_main_call0_cst_apply, val_main_v32_apply, val_main_cst_4_apply]
  simp only [Ideal.maximumf_def, Ideal.hostUnary_sqrt_def, Ideal.ofBits_def, Ideal.ofBits_zero_f32, zero_add]
  refine congrArg (fun s => max (Ideal.sqrt s) Sage.tiny) (Finset.sum_congr rfl fun k _ => ?_)
  rw [e2 k, val_main_call0_v0_apply, lin_at]
  rfl

/-- The normalised layer at (p, q). -/
private theorem unit_at (p : Fin 100000) (q : Fin 128) :
    val_main_v35 (F := Ideal) x0 x1 x2 x3 x4 (ix2 p q)
      = Sage.unit (Sage.linR (fun k => val_main_v13 (F := Ideal) x0 x1 (ix2 p k)) (fun k => x0 (ix2 p k))
          (max (val_main_v17 (F := Ideal) x1 (ix1 p)) Sage.oneBits) x2 x4 x3) q := by
  have e : idx_main_v34 (ix2 p q) = ix2 p (0 : Fin 1) := funext fun a => Fin.ext (by match a with | ⟨0, _⟩ => rfl | ⟨1, _⟩ => rfl)
  rw [val_main_v35_apply, val_main_v34_apply, e, len_at, lin_at]
  rfl

end Rows

/-- The layer function at node `p`, column `q`. -/
theorem layer_apply (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (p : Fin 100000) (q : Fin 128) :
    val_main_v36 (F := Ideal) x0 x1 x2 x3 x4 (ix2 p q)
      = Sage.relu (Sage.unit (Sage.linR (fun k => val_main_v13 (F := Ideal) x0 x1 (ix2 p k)) (fun k => x0 (ix2 p k))
          (max (val_main_v17 (F := Ideal) x1 (ix1 p)) Sage.oneBits) x2 x4 x3) q) := by
  rw [val_main_v36_apply, val_main_call1_v0_apply, val_main_call1_cst_apply, unit_at]
  rfl

/-- The same without the positive part. -/
theorem prelayer_apply (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (p : Fin 100000) (q : Fin 128) :
    val_main_v35 (F := Ideal) x0 x1 x2 x3 x4 (ix2 p q)
      = Sage.unit (Sage.linR (fun k => val_main_v13 (F := Ideal) x0 x1 (ix2 p k)) (fun k => x0 (ix2 p k))
          (max (val_main_v17 (F := Ideal) x1 (ix1 p)) Sage.oneBits) x2 x4 x3) q := by
  exact unit_at x0 x1 x2 x3 x4 p q

section Head

variable (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S40x128, .f32⟩ : BufTy).Contents (Elt Ideal)) (x12 : (⟨S40, .f32⟩ : BufTy).Contents (Elt Ideal))

/-- Class j's logit of node p: the third layer's row through the classifier's weights, plus the bias. -/
private theorem logit_at (p : Fin 100000) (j : Fin 40) :
    val_main_v106 (F := Ideal) x0 x1 x2 x3 x4 x5 x6 x7 x8 x9 x10 x11 x12 (ix2 p j)
      = Sage.logitR (fun k => val_main_v101 (F := Ideal) x0 x1 x2 x3 x4 x5 x6 x7 x8 x9 x10 (ix2 p k)) x11 x12 j := by
  have el : ∀ k : Fin 128, lidx_main_v103 (ix2 p j) k = ix2 p k := fun k => funext fun a => Fin.ext (by match a with | ⟨0, _⟩ => rfl | ⟨1, _⟩ => rfl)
  have er : ∀ k : Fin 128, idx_main_v102 (ridx_main_v103 (ix2 p j) k) = ix2 j k := fun k => funext fun a => Fin.ext (by match a with | ⟨0, _⟩ => rfl | ⟨1, _⟩ => rfl)
  have eb : idx_main_v104 (idx_main_v105 (ix2 p j)) = ix1 j := funext fun a => Fin.ext (by match a with | ⟨0, _⟩ => rfl)
  rw [val_main_v106_apply, val_main_v103_apply, val_main_v105_apply, val_main_v104_apply, eb]
  unfold Sage.logitR
  refine congrArg (· + x12 (ix1 j)) (Finset.sum_congr rfl fun k _ => ?_)
  rw [el k, val_main_v102_apply, er k]

/-- Row p of the class array with class k put back on the dropped axis is (p, k). -/
private theorem lift_row (h : S100000x40.Reduces [1] S100000) (p : Fin 100000) (k : Fin (S100000x40.size 1)) :
    h.lift (ix1 p) k = ix2 p (⟨k.val, k.isLt⟩ : Fin 40) := by
  funext c; apply Fin.ext
  match c with
  | ⟨0, _⟩ => rfl
  | ⟨1, _⟩ => rfl

/-- Node p's greatest logit: the reference folds the maximum from -infinity and then takes the maximum with -infinity
    once more, which changes nothing. -/
private theorem rowmax_at (p : Fin 100000) :
    val_main_v109 (F := Ideal) x0 x1 x2 x3 x4 x5 x6 x7 x8 x9 x10 x11 x12 (ix1 p)
      = Sage.rowmax (Sage.logitR (fun k => val_main_v101 (F := Ideal) x0 x1 x2 x3 x4 x5 x6 x7 x8 x9 x10 (ix2 p k)) x11 x12) := by
  have hz : ∀ j : Fin 40, val_main_v106 (F := Ideal) x0 x1 x2 x3 x4 x5 x6 x7 x8 x9 x10 x11 x12 (ix2 p j)
      = Sage.logitR (fun k => val_main_v101 (F := Ideal) x0 x1 x2 x3 x4 x5 x6 x7 x8 x9 x10 (ix2 p k)) x11 x12 j := logit_at x0 x1 x2 x3 x4 x5 x6 x7 x8 x9 x10 x11 x12 p
  have hred : S100000x40.Reduces [1] S100000 := by decide
  rw [val_main_v109_apply, val_main_v108_apply, val_main_cst_20_apply]
  unfold val_main_v107
  generalize val_main_v106 (F := Ideal) x0 x1 x2 x3 x4 x5 x6 x7 x8 x9 x10 x11 x12 = z at hz ⊢
  rw [Host.reduce_eq_fold_single (FloatOps.maximumf (F := Ideal) (φ := .f32)) (z : FVec Ideal S100000x40 .f32)
    (val_main_cst_19 (F := Ideal)) reducesTo_S100000x40_S100000_d1 hred h_S_ (ix1 p)]
  have hf : (z ∘ hred.lift (ix1 p)) = fun k : Fin 40 => Sage.logitR (fun k => val_main_v101 (F := Ideal) x0 x1 x2 x3 x4 x5 x6 x7 x8 x9 x10 (ix2 p k)) x11 x12 k :=
    funext fun k => (congrArg z (lift_row hred p k)).trans (hz ⟨k.val, k.isLt⟩)
  rw [hf]
  have hb : ∀ y : EReal, max Sage.negInfBits y = y := fun y => by
    rw [Sage.negInfBits_eq]; exact max_eq_right bot_le
  exact hb _

/-- The exponential of a logit against the row's greatest, at (p, j). -/
private theorem exp_at (p : Fin 100000) (j : Fin 40) :
    val_main_v113 (F := Ideal) x0 x1 x2 x3 x4 x5 x6 x7 x8 x9 x10 x11 x12 (ix2 p j)
      = Ideal.exp (Sage.logitR (fun k => val_main_v101 (F := Ideal) x0 x1 x2 x3 x4 x5 x6 x7 x8 x9 x10 (ix2 p k)) x11 x12 j - Sage.rowmax (Sage.logitR (fun k => val_main_v101 (F := Ideal) x0 x1 x2 x3 x4 x5 x6 x7 x8 x9 x10 (ix2 p k)) x11 x12)) := by
  have e : idx_main_v110 (idx_main_v111 (ix2 p j)) = ix1 p := funext fun a => Fin.ext (by match a with | ⟨0, _⟩ => rfl)
  rw [val_main_v113_apply, val_main_v112_apply, val_main_v111_apply, val_main_v110_apply, e, rowmax_at, logit_at]
  simp only [Ideal.hostUnary_exp_def, Ideal.subf_def]

end Head

/-- The reference's result at node `p`, class `j`: the softmax of the logits of the third layer's unit vector. -/
theorem head_apply (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S40x128, .f32⟩ : BufTy).Contents (Elt Ideal)) (x12 : (⟨S40, .f32⟩ : BufTy).Contents (Elt Ideal)) (p : Fin 100000) (j : Fin 40) :
    val_main_v117 (F := Ideal) x0 x1 x2 x3 x4 x5 x6 x7 x8 x9 x10 x11 x12 (ix2 p j)
      = Sage.softmax (Sage.logitR (fun k => val_main_v101 (F := Ideal) x0 x1 x2 x3 x4 x5 x6 x7 x8 x9 x10 (ix2 p k)) x11 x12) j := by
  have e : idx_main_v115 (idx_main_v116 (ix2 p j)) = ix1 p := funext fun a => Fin.ext (by match a with | ⟨0, _⟩ => rfl)
  have ek : ∀ k : Fin 40, idx_main_v114 (ix1 p) k = ix2 p k := fun k => funext fun a => Fin.ext (by match a with | ⟨0, _⟩ => rfl | ⟨1, _⟩ => rfl)
  rw [val_main_v117_apply, val_main_v116_apply, val_main_v115_apply, e, val_main_v114_apply, val_main_cst_21_apply,
    exp_at]
  unfold Sage.softmax
  simp only [Ideal.hostDivf_def, Ideal.ofBits_def, Ideal.ofBits_zero_f32, zero_add]
  refine congrArg (Ideal.div _) (Finset.sum_congr rfl fun k _ => ?_)
  rw [ek k, exp_at]

end Cert.ReferenceIdeal.Layers

end
-- ==== Proof.Bridge.lean ====
/-
  The kernel program's result is the reference's. Both build every layer from the same neighbour sum (a gather of source
  rows scattered additively onto destination rows) and the same in-degree, so those two are carried as they stand and
  never opened; the kernel's reciprocal clamped degree is one over the reference's clamped degree, which is a positive
  real (a count of edges, clamped at one); the changes of float format are the identity; and then each layer's two
  spellings agree row by row by the law of Cert.Sage (`lin_eq_linR`). Layer by layer: the kernel's first hidden array is
  the reference's first layer, so the second is the second, and the softmax head of the third.
-/
import proofs.«401475_j31396210934180_3_alg».proof.Proof.RefStages
import proofs.«401475_j31396210934180_3_alg».proof.Proof.RefLayers
import proofs.«401475_j31396210934180_3_alg».proof.Proof.KernelTerms
import proofs.«401475_j31396210934180_3_alg».proof.Proof.MeanLaw
import Idealize.ShloMosaic.Lib.ValueLayout
import Idealize.ShloMosaic.Lib.Pipeline.Value
import Idealize.ShloMosaic.Lib.ValueIdx

set_option maxRecDepth 16384

noncomputable section

namespace Cert.Bridge

open Idealize.ShloMosaic Idealize.ShloMosaic.ValueIdx Cert.Sage
open Cert.KernelIdeal.Terms Cert.ReferenceIdeal.Stages Cert.ReferenceIdeal.Layers

/-- A scalar constant broadcast to any shape reads, everywhere, what its pattern denotes. -/
theorem bcast_scalar {t : Shape} (h : (⟨0, ![]⟩ : Shape).BroadcastsInDim t (![] : Fin 0 → Fin t.rank)) (b : BitVec 32) (i : t.Idx) :
    broadcastInDim t ![] h (constant (F := Ideal) ⟨0, ![]⟩ .f32 b) i = Ideal.ofBits .f32 b :=
  broadcastInDim_apply _ h _ i (fun a => a.elim0) (fun a => a.elim0)

/-- The change of float format the launches read the weights through is the identity. -/
theorem asBf16_eq {s : Shape} (w : FVec Ideal s .f32) : asBf16 w = w := rfl

/-- The two programs form the neighbour sum by the same operations. -/
theorem neighbourSum_eq (x0 : (⟨Cert.ReferenceIdeal.S100000x128, .f32⟩ : BufTy).Contents (Elt Ideal)) (x1 : (⟨Cert.ReferenceIdeal.S2x1600000, .i32⟩ : BufTy).Contents (Elt Ideal)) :
    neighbourSum x0 x1 = val_main_v13 (F := Ideal) x0 x1 := by
  unfold neighbourSum dstCol srcCol srcVec dstVec
  unfold val_main_v13 val_main_v12 val_main_v11 val_main_v10 val_main_v9 val_main_v8 val_main_v7 val_main_v6 val_main_v5 val_main_v4
    val_main_v3 val_main_v2 val_main_v1 val_main_v0 val_main_c val_main_c_0 val_main_cst
  rfl

/-- … and the in-degree. -/
theorem degree_eq (x1 : (⟨Cert.ReferenceIdeal.S2x1600000, .i32⟩ : BufTy).Contents (Elt Ideal)) : degree x1 = val_main_v17 (F := Ideal) x1 := by
  unfold degree dstCol dstVec
  unfold val_main_v17 val_main_v16 val_main_v15 val_main_v14 val_main_v3 val_main_v2 val_main_cst_1 val_main_cst_2
  rfl

/-- The host's quotient, maximum and additive scatter read at one entry, over any operands. -/
theorem hostDivf_at {s : Shape} (a b : FVec Ideal s .f32) (i : s.Idx) : Host.divf a b i = Ideal.div (a i) (b i) := rfl
theorem maximumf_at {s : Shape} (a b : FVec Ideal s .f32) (i : s.Idx) : maximumf a b i = max (a i) (b i) := rfl
theorem scatterAdd_at {s si su : Shape} {w : Nat} (d : ScatterDims s si su) (x : FVec Ideal s .f32) (idx : IVec si w)
    (u : FVec Ideal su .f32) : Host.scatterAdd d x idx u = Ideal.hostScatterAdd d x idx u := rfl

/-- A vector laid out as a column reads, at row `p`, the vector at `p`. -/
theorem bcast_col (y : FVec Ideal Cert.KernelIdeal.S100000 .f32) (p : Fin 100000) :
    broadcastInDim Cert.KernelIdeal.S100000x1 ![0] Cert.KernelIdeal.Gen.bcast_S100000_S100000x1_0 y (ix2 p (0 : Fin 1)) = y (ix1 p) :=
  broadcastInDim_apply _ Cert.KernelIdeal.Gen.bcast_S100000_S100000x1_0 y (ix2 p (0 : Fin 1)) (ix1 p) (fun a => match a with
    | ⟨0, _⟩ => by show p.val = if (100000 : Nat) = 1 then 0 else p.val; rw [if_neg (by decide)])

/-- One over the clamped degree, before it is laid out as a column. -/
def recipVec (x1 : IVec Cert.KernelIdeal.S2x1600000 32) : FVec Ideal Cert.KernelIdeal.S100000 .f32 :=
  Host.divf (broadcastInDim Cert.KernelIdeal.S100000 ![] Cert.KernelIdeal.Gen.bcast_S_S100000 (constant (F := Ideal) Cert.KernelIdeal.S_ .f32 0x3F800000#32))
    (maximumf (degree x1) (broadcastInDim Cert.KernelIdeal.S100000 ![] Cert.KernelIdeal.Gen.bcast_S_S100000 (constant (F := Ideal) Cert.KernelIdeal.S_ .f32 0x3F800000#32)))

theorem recipDegree_eq (x1 : IVec Cert.KernelIdeal.S2x1600000 32) :
    recipDegree x1 = broadcastInDim Cert.KernelIdeal.S100000x1 ![0] Cert.KernelIdeal.Gen.bcast_S100000_S100000x1_0 (recipVec x1) := rfl

theorem recipVec_apply (x1 : IVec Cert.KernelIdeal.S2x1600000 32) (p : Fin 100000) :
    recipVec x1 (ix1 p) = Ideal.div oneBits (max (degree x1 (ix1 p)) oneBits) := by
  unfold recipVec
  generalize hA : broadcastInDim Cert.KernelIdeal.S100000 ![] Cert.KernelIdeal.Gen.bcast_S_S100000 (constant (F := Ideal) Cert.KernelIdeal.S_ .f32 0x3F800000#32) = A
  generalize degree x1 = D
  rw [hostDivf_at, maximumf_at]
  have hAp : A (ix1 p) = oneBits := by rw [← hA]; exact bcast_scalar _ _ _
  rw [hAp]

/-- The kernel's reciprocal-degree column at node `p`: one over the reference's clamped degree there. -/
theorem recip_apply (x1 : (⟨Cert.ReferenceIdeal.S2x1600000, .i32⟩ : BufTy).Contents (Elt Ideal)) (p : Fin 100000) :
    recipDegree x1 (ix2 p (0 : Fin 1)) = Ideal.div oneBits (max (val_main_v17 (F := Ideal) x1 (ix1 p)) oneBits) := by
  rw [recipDegree_eq]
  refine (bcast_col (recipVec x1) p).trans ?_
  rw [recipVec_apply, degree_eq]

/-- The in-degree at a node is a count of edges. -/
theorem degree_nat (x1 : IVec Cert.KernelIdeal.S2x1600000 32) (p : Fin 100000) : ∃ n : ℕ, degree x1 (ix1 p) = ((n : ℝ) : EReal) := by
  unfold degree
  generalize hZ : broadcastInDim Cert.KernelIdeal.S100000 ![] Cert.KernelIdeal.Gen.bcast_S_S100000 (constant (F := Ideal) Cert.KernelIdeal.S_ .f32 0x00000000#32) = Z
  generalize hO : broadcastInDim Cert.KernelIdeal.S1600000 ![] Cert.KernelIdeal.Gen.bcast_S_S1600000 (constant (F := Ideal) Cert.KernelIdeal.S_ .f32 0x3F800000#32) = O
  generalize dstCol x1 = I
  have hz : ∀ i, Z i = 0 := fun i => by rw [← hZ]; exact (bcast_scalar _ _ i).trans zeroBits_eq
  have ho : ∀ j, O j = 1 := fun j => by rw [← hO]; exact (bcast_scalar _ _ j).trans oneBits_eq
  rw [scatterAdd_at]
  exact scatter_ones_nat _ Z I O hz ho (ix1 p)

/-- The reference's clamped degree at a node is a positive real: the degree is a count of edges. -/
theorem clamped_pos (x1 : (⟨Cert.ReferenceIdeal.S2x1600000, .i32⟩ : BufTy).Contents (Elt Ideal)) (p : Fin 100000) :
    ∃ r : ℝ, 0 < r ∧ max (val_main_v17 (F := Ideal) x1 (ix1 p)) oneBits = (r : EReal) := by
  obtain ⟨n, hn⟩ := degree_nat x1 p
  rw [← degree_eq, hn]
  exact clamp_count_pos n

/-- One node's row of a layer before the length normalisation: the kernel's spelling is the reference's. -/
theorem row_eq (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal)) (p : Fin 100000) :
    lin (fun k => neighbourSum x0 x1 (ix2 p k)) (fun k => x0 (ix2 p k)) (recipDegree x1 (ix2 p (0 : Fin 1))) (asBf16 x2) (asBf16 x4)
        (shapeCast Cert.KernelIdeal.S1x128 x3 Cert.KernelIdeal.Gen.shapeCasts_S128_S1x128)
      = linR (fun k => val_main_v13 (F := Ideal) x0 x1 (ix2 p k)) (fun k => x0 (ix2 p k))
          (max (val_main_v17 (F := Ideal) x1 (ix1 p)) oneBits) x2 x4 x3 := by
  obtain ⟨r, hr, hc⟩ := clamped_pos x1 p
  rw [recip_apply, neighbourSum_eq, hc, asBf16_eq, asBf16_eq]
  funext q
  exact lin_eq_linR _ _ r hr _ _ _ _ (fun q' => shapeCast_a_1a_apply x3 _ 0 q') q

/-- A whole layer with its positive part: the kernel's array is the reference's layer function. -/
theorem layer_eq (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal)) :
    layerArr (neighbourSum x0 x1) x0 (recipDegree x1) (asBf16 x2)
        (shapeCast Cert.KernelIdeal.S1x128 x3 Cert.KernelIdeal.Gen.shapeCasts_S128_S1x128) (asBf16 x4)
      = val_main_v36 (F := Ideal) x0 x1 x2 x3 x4 := by
  funext i
  obtain ⟨p, q, rfl⟩ : ∃ (p : Fin 100000) (q : Fin 128), i = ix2 p q := ⟨i 0, i 1, eq_ix2 i⟩
  rw [layer_apply, ← row_eq]
  rfl

theorem hidden1_eq (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal)) : hidden1 x0 x1 x2 x3 x4 = val_main_v36 (F := Ideal) x0 x1 x2 x3 x4 :=
  layer_eq x0 x1 x2 x3 x4

theorem hidden2_eq (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)) : hidden2 x0 x1 x2 x3 x4 x5 x6 x7 = val_main_v69 (F := Ideal) x0 x1 x2 x3 x4 x5 x6 x7 := by
  unfold hidden2
  rw [hidden1_eq, layer_eq, ← layer2_eq]

/-- The classifier and the softmax over one unit vector: the bias row is the bias vector, the weights agree. -/
theorem head_eq (h : Fin 128 → EReal) (x11 : (⟨Cert.ReferenceIdeal.S40x128, .f32⟩ : BufTy).Contents (Elt Ideal)) (x12 : (⟨Cert.ReferenceIdeal.S40, .f32⟩ : BufTy).Contents (Elt Ideal)) (j : Fin 40) :
    softmax (logit h (asBf16 x11) (shapeCast Cert.KernelIdeal.S1x40 x12 Cert.KernelIdeal.Gen.shapeCasts_S40_S1x40)) j
      = softmax (logitR h x11 x12) j := by
  have hl : logit h (asBf16 x11) (shapeCast Cert.KernelIdeal.S1x40 x12 Cert.KernelIdeal.Gen.shapeCasts_S40_S1x40) = logitR h x11 x12 := by
    funext j'
    unfold logit logitR
    rw [asBf16_eq, shapeCast_a_1a_apply x12 _ 0 j']
  rw [hl]

/-- The program's result: the kernel's is the reference's, entry by entry. -/
theorem result_eq (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)) (x8 : (⟨Cert.ReferenceIdeal.S128x128, .f32⟩ : BufTy).Contents (Elt Ideal)) (x9 : (⟨Cert.ReferenceIdeal.S128, .f32⟩ : BufTy).Contents (Elt Ideal)) (x10 : (⟨Cert.ReferenceIdeal.S128x128, .f32⟩ : BufTy).Contents (Elt Ideal)) (x11 : (⟨Cert.ReferenceIdeal.S40x128, .f32⟩ : BufTy).Contents (Elt Ideal)) (x12 : (⟨Cert.ReferenceIdeal.S40, .f32⟩ : BufTy).Contents (Elt Ideal)) : result x0 x1 x2 x3 x4 x5 x6 x7 x8 x9 x10 x11 x12 = val_main_v117 (F := Ideal) x0 x1 x2 x3 x4 x5 x6 x7 x8 x9 x10 x11 x12 := by
  funext i
  obtain ⟨p, j, rfl⟩ : ∃ (p : Fin 100000) (j : Fin 40), i = ix2 p j := ⟨i 0, i 1, eq_ix2 i⟩
  rw [head_apply]
  unfold result
  rw [hidden2_eq]
  have hrow : (fun k => val_main_v101 (F := Ideal) x0 x1 x2 x3 x4 x5 x6 x7 x8 x9 x10 (ix2 p k))
      = unit (lin (fun k => neighbourSum (val_main_v69 (F := Ideal) x0 x1 x2 x3 x4 x5 x6 x7) x1 (ix2 p k))
          (fun k => val_main_v69 (F := Ideal) x0 x1 x2 x3 x4 x5 x6 x7 (ix2 p k)) (recipDegree x1 (ix2 p (0 : Fin 1))) (asBf16 x8) (asBf16 x10)
          (shapeCast Cert.KernelIdeal.S1x128 x9 Cert.KernelIdeal.Gen.shapeCasts_S128_S1x128)) := by
    funext k
    rw [layer3_eq, prelayer_apply, ← row_eq]
  rw [hrow]
  exact head_eq _ x11 x12 j

end Cert.Bridge

end
-- ==== Proof.lean ====
/-
  The certificate of a three-layer GraphSAGE network with a softmax classifier, computed by three gridded kernels
  over blocks of 4000 nodes, against its plain array reference, at the extended reals.

  Each layer adds, to a node's own features through W_r and a bias, the MEAN of its in-neighbours' features through W_l,
  and divides the result by its Euclidean length. The reference forms the mean first (neighbour sum divided by the
  in-degree clamped at one) and then applies W_l; the kernels apply W_l to the neighbour SUM and scale the product by
  the reciprocal of the clamped degree. The two agree on every extended real because the clamped degree is a positive
  real and a positive real factor distributes over any sum (Proof/MeanLaw.lean); nothing else differs but the tiling
  and the float formats, which are the identity here. So the precondition is never opened.

  The three frames: the two kernel programs' are the generated frame certificates; the reference's is its run
  (Proof/RefRun.lean) with the result dropped. The idealization rewrote nothing. The value claim: the kernel program's run with its result
  named (Proof/ValueRun.lean), that result as one function of the arguments (Proof/KernelValue.lean over the three
  launches' arrays, Proof/Layer1Array.lean, Proof/Layer2Array.lean, Proof/HeadArray.lean), the reference's run over its
  stage functions, and the equality of the two functions (Proof/Bridge.lean over Proof/RefLayers.lean).
-/
import proofs.«401475_j31396210934180_3_alg».proof.Defs
import proofs.«401475_j31396210934180_3_alg».proof.Proof.Gen.Kernel
import proofs.«401475_j31396210934180_3_alg».proof.Proof.Gen.Kernel.Skeleton
import proofs.«401475_j31396210934180_3_alg».proof.Proof.Gen.Kernel.Launch
import proofs.«401475_j31396210934180_3_alg».proof.Proof.Gen.Kernel.Points
import proofs.«401475_j31396210934180_3_alg».proof.Proof.Gen.Kernel.Frame
import proofs.«401475_j31396210934180_3_alg».proof.Proof.Gen.KernelIdeal
import proofs.«401475_j31396210934180_3_alg».proof.Proof.Gen.KernelIdeal.Skeleton
import proofs.«401475_j31396210934180_3_alg».proof.Proof.Gen.KernelIdeal.Launch
import proofs.«401475_j31396210934180_3_alg».proof.Proof.Gen.KernelIdeal.Points
import proofs.«401475_j31396210934180_3_alg».proof.Proof.Gen.KernelIdeal.Frame
import proofs.«401475_j31396210934180_3_alg».proof.Proof.Gen.ReferenceIdeal
import proofs.«401475_j31396210934180_3_alg».proof.Proof.Gen.Pre_finite_inputs
import proofs.«401475_j31396210934180_3_alg».proof.Proof.RefRun
import proofs.«401475_j31396210934180_3_alg».proof.Proof.ValueRun
import proofs.«401475_j31396210934180_3_alg».proof.Proof.KernelValue
import proofs.«401475_j31396210934180_3_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RunP.run m ρ)

/-- Both programs end, from memories agreeing on the arguments, with the same result: the kernel program's result
    buffer is `Terms.result` of its arguments, the reference's is its last stage of its own, the arguments agree, and
    the two functions are one. -/
theorem algebraic : Cert.algebraic_KernelIdeal_ReferenceIdeal := by
  intro m ρ m' ρ' _ hagree
  refine ⟨fun c => Cert.KernelIdeal.Terms.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Whole.result_eq m ρ c), (h c).2⟩)
      (Cert.KernelIdeal.ValueRun.run (F := Ideal) m ρ)
  · refine (θ_run Cert.ReferenceIdeal.defs _ _).mono (fun r h c => ⟨?_, (h c).2⟩)
      (Cert.ReferenceIdeal.RunP.run m' ρ')
    obtain ⟨a0, a1, a2, a3, a4, a5, a6, a7, a8, a9, a10, a11, a12⟩ := hagree c
    rw [(h c).1, a0, a1, a2, a3, a4, a5, a6, a7, a8, a9, a10, a11, a12]
    exact (Cert.Bridge.result_eq _ _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
